-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31)) (m ((c.tc : Thread Cert.Kernel.nD Cert.Kernel.τ).loc Cert.Kernel.main_arg32)) (m ((c.tc : Thread Cert.Kernel.nD Cert.Kernel.τ).loc Cert.Kernel.main_arg33))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32)) (m ((c.tc : Thread Cert.ReferenceIdeal.nD Cert.ReferenceIdeal.τ).loc Cert.ReferenceIdeal.main_arg33))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32)
      ∧ r.2.mem ((c.tc : Thread Cert.Kernel.nD Cert.Kernel.τ).loc Cert.Kernel.main_arg33) = m ((c.tc : Thread Cert.Kernel.nD Cert.Kernel.τ).loc Cert.Kernel.main_arg33))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
      ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32)
      ∧ r.2.mem ((c.tc : Thread Cert.ReferenceIdeal.nD Cert.ReferenceIdeal.τ).loc Cert.ReferenceIdeal.main_arg33) = m ((c.tc : Thread Cert.ReferenceIdeal.nD Cert.ReferenceIdeal.τ).loc Cert.ReferenceIdeal.main_arg33))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
          ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v170) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32)
          ∧ r.2.mem ((c.tc : Thread Cert.ReferenceIdeal.nD Cert.ReferenceIdeal.τ).loc Cert.ReferenceIdeal.main_arg33) = m' ((c.tc : Thread Cert.ReferenceIdeal.nD Cert.ReferenceIdeal.τ).loc Cert.ReferenceIdeal.main_arg33))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x25 : Shape := ⟨2, ![131072, 25]⟩
abbrev S131072x2 : Shape := ⟨2, ![131072, 2]⟩
abbrev S131072x6 : Shape := ⟨2, ![131072, 6]⟩
abbrev S8x32 : Shape := ⟨2, ![8, 32]⟩
abbrev S32 : Shape := ⟨1, ![32]⟩
abbrev S32x64 : Shape := ⟨2, ![32, 64]⟩
abbrev S64 : Shape := ⟨1, ![64]⟩
abbrev S18x64 : Shape := ⟨2, ![18, 64]⟩
abbrev S64x64 : Shape := ⟨2, ![64, 64]⟩
abbrev S24x64 : Shape := ⟨2, ![24, 64]⟩
abbrev S64x128 : Shape := ⟨2, ![64, 128]⟩
abbrev S128 : Shape := ⟨1, ![128]⟩
abbrev S4x16 : Shape := ⟨2, ![4, 16]⟩
abbrev S16 : Shape := ⟨1, ![16]⟩
abbrev S16x32 : Shape := ⟨2, ![16, 32]⟩
abbrev S12x32 : Shape := ⟨2, ![12, 32]⟩
abbrev S384x512 : Shape := ⟨2, ![384, 512]⟩
abbrev S512 : Shape := ⟨1, ![512]⟩
abbrev S512x512 : Shape := ⟨2, ![512, 512]⟩
abbrev S_ : Shape := ⟨0, ![]⟩

class Facts : Prop where
  bcast_S_S131072x25 : S_.BroadcastsInDim S131072x25 (![] : Fin 0 → Fin S131072x25.rank)
  reducesTo_S131072x25_S_d0_1 : S131072x25.ReducesTo [0, 1] S_
  h_S_ : 0 < S_.numel
  bcast_S_S131072x2 : S_.BroadcastsInDim S131072x2 (![] : Fin 0 → Fin S131072x2.rank)
  reducesTo_S131072x2_S_d0_1 : S131072x2.ReducesTo [0, 1] S_
  bcast_S_S131072x6 : S_.BroadcastsInDim S131072x6 (![] : Fin 0 → Fin S131072x6.rank)
  reducesTo_S131072x6_S_d0_1 : S131072x6.ReducesTo [0, 1] S_
  bcast_S_S8x32 : S_.BroadcastsInDim S8x32 (![] : Fin 0 → Fin S8x32.rank)
  reducesTo_S8x32_S_d0_1 : S8x32.ReducesTo [0, 1] S_
  bcast_S_S32 : S_.BroadcastsInDim S32 (![] : Fin 0 → Fin S32.rank)
  reducesTo_S32_S_d0 : S32.ReducesTo [0] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S18x64 : S_.BroadcastsInDim S18x64 (![] : Fin 0 → Fin S18x64.rank)
  reducesTo_S18x64_S_d0_1 : S18x64.ReducesTo [0, 1] S_
  bcast_S_S64x64 : S_.BroadcastsInDim S64x64 (![] : Fin 0 → Fin S64x64.rank)
  reducesTo_S64x64_S_d0_1 : S64x64.ReducesTo [0, 1] S_
  bcast_S_S24x64 : S_.BroadcastsInDim S24x64 (![] : Fin 0 → Fin S24x64.rank)
  reducesTo_S24x64_S_d0_1 : S24x64.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S4x16 : S_.BroadcastsInDim S4x16 (![] : Fin 0 → Fin S4x16.rank)
  reducesTo_S4x16_S_d0_1 : S4x16.ReducesTo [0, 1] S_
  bcast_S_S16 : S_.BroadcastsInDim S16 (![] : Fin 0 → Fin S16.rank)
  reducesTo_S16_S_d0 : S16.ReducesTo [0] S_
  bcast_S_S16x32 : S_.BroadcastsInDim S16x32 (![] : Fin 0 → Fin S16x32.rank)
  reducesTo_S16x32_S_d0_1 : S16x32.ReducesTo [0, 1] S_
  bcast_S_S12x32 : S_.BroadcastsInDim S12x32 (![] : Fin 0 → Fin S12x32.rank)
  reducesTo_S12x32_S_d0_1 : S12x32.ReducesTo [0, 1] S_
  bcast_S_S384x512 : S_.BroadcastsInDim S384x512 (![] : Fin 0 → Fin S384x512.rank)
  reducesTo_S384x512_S_d0_1 : S384x512.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_

variable [Facts]

def fn_part9 {F : FTy → Type} [FloatOps F] (main_arg31 : FVec F S512 .f32) (main_arg32 : FVec F S512 .f32) (main_arg33 : FVec F S512 .f32) (main_v153 : IVec S_ 1) : IVec S_ 1 :=
  let main_v154 : FVec F S512 .f32 := Host.absf main_arg31
  let main_cst_60 : FVec F S_ .f32 := constant S_ .f32 0x7F800000#32
  let main_v155 : FVec F S512 .f32 := broadcastInDim S512 ![] bcast_S_S512 main_cst_60
  let main_v156 : IVec S512 1 := cmpf .olt main_v154 main_v155
  let main_c_61 : IVec S_ 1 := constantI S_ 1 1#1
  let main_v157 : IVec S_ 1 := (fun x v => Host.reduce IntOp.andi x v reducesTo_S512_S_d0 h_S_) main_v156 main_c_61
  let main_v158 : IVec S_ 1 := andi main_v153 main_v157
  let main_v159 : FVec F S512 .f32 := Host.absf main_arg32
  let main_cst_62 : FVec F S_ .f32 := constant S_ .f32 0x7F800000#32
  let main_v160 : FVec F S512 .f32 := broadcastInDim S512 ![] bcast_S_S512 main_cst_62
  let main_v161 : IVec S512 1 := cmpf .olt main_v159 main_v160
  let main_c_63 : IVec S_ 1 := constantI S_ 1 1#1
  let main_v162 : IVec S_ 1 := (fun x v => Host.reduce IntOp.andi x v reducesTo_S512_S_d0 h_S_) main_v161 main_c_63
  let main_v163 : IVec S_ 1 := andi main_v158 main_v162
  let main_v164 : FVec F S512 .f32 := Host.absf main_arg33
  let main_cst_64 : FVec F S_ .f32 := constant S_ .f32 0x7F800000#32
  let main_v165 : FVec F S512 .f32 := broadcastInDim S512 ![] bcast_S_S512 main_cst_64
  let main_v166 : IVec S512 1 := cmpf .olt main_v164 main_v165
  let main_c_65 : IVec S_ 1 := constantI S_ 1 1#1
  let main_v167 : IVec S_ 1 := (fun x v => Host.reduce IntOp.andi x v reducesTo_S512_S_d0 h_S_) main_v166 main_c_65
  let main_v168 : IVec S_ 1 := andi main_v163 main_v167
  main_v168

def fn_part8 {F : FTy → Type} [FloatOps F] (main_arg28 : FVec F S384x512 .f32) (main_arg29 : FVec F S512 .f32) (main_arg30 : FVec F S512x512 .f32) (main_arg31 : FVec F S512 .f32) (main_arg32 : FVec F S512 .f32) (main_arg33 : FVec F S512 .f32) (main_v133 : IVec S_ 1) (main_v136 : IVec S32 1) : IVec S_ 1 :=
  let main_c_53 : IVec S_ 1 := constantI S_ 1 1#1
  let main_v137 : IVec S_ 1 := (fun x v => Host.reduce IntOp.andi x v reducesTo_S32_S_d0 h_S_) main_v136 main_c_53
  let main_v138 : IVec S_ 1 := andi main_v133 main_v137
  let main_v139 : FVec F S384x512 .f32 := Host.absf main_arg28
  let main_cst_54 : FVec F S_ .f32 := constant S_ .f32 0x7F800000#32
  let main_v140 : FVec F S384x512 .f32 := broadcastInDim S384x512 ![] bcast_S_S384x512 main_cst_54
  let main_v141 : IVec S384x512 1 := cmpf .olt main_v139 main_v140
  let main_c_55 : IVec S_ 1 := constantI S_ 1 1#1
  let main_v142 : IVec S_ 1 := (fun x v => Host.reduce IntOp.andi x v reducesTo_S384x512_S_d0_1 h_S_) main_v141 main_c_55
  let main_v143 : IVec S_ 1 := andi main_v138 main_v142
  let main_v144 : FVec F S512 .f32 := Host.absf main_arg29
  let main_cst_56 : FVec F S_ .f32 := constant S_ .f32 0x7F800000#32
  let main_v145 : FVec F S512 .f32 := broadcastInDim S512 ![] bcast_S_S512 main_cst_56
  let main_v146 : IVec S512 1 := cmpf .olt main_v144 main_v145
  let main_c_57 : IVec S_ 1 := constantI S_ 1 1#1
  let main_v147 : IVec S_ 1 := (fun x v => Host.reduce IntOp.andi x v reducesTo_S512_S_d0 h_S_) main_v146 main_c_57
  let main_v148 : IVec S_ 1 := andi main_v143 main_v147
  let main_v149 : FVec F S512x512 .f32 := Host.absf main_arg30
  let main_cst_58 : FVec F S_ .f32 := constant S_ .f32 0x7F800000#32
  let main_v150 : FVec F S512x512 .f32 := broadcastInDim S512x512 ![] bcast_S_S512x512 main_cst_58
  let main_v151 : IVec S512x512 1 := cmpf .olt main_v149 main_v150
  let main_c_59 : IVec S_ 1 := constantI S_ 1 1#1
  let main_v152 : IVec S_ 1 := (fun x v => Host.reduce IntOp.andi x v reducesTo_S512x512_S_d0_1 h_S_) main_v151 main_c_59
  let main_v153 : IVec S_ 1 := andi main_v148 main_v152
  fn_part9 (F := F) main_arg31 main_arg32 main_arg33 main_v153

def fn_part7 {F : FTy → Type} [FloatOps F] (main_arg25 : FVec F S16 .f32) (main_arg26 : FVec F S16x32 .f32) (main_arg27 : FVec F S32 .f32) (main_arg28 : FVec F S384x512 .f32) (main_arg29 : FVec F S512 .f32) (main_arg30 : FVec F S512x512 .f32) (main_arg31 : FVec F S512 .f32) (main_arg32 : FVec F S512 .f32) (main_arg33 : FVec F S512 .f32) (main_v118 : IVec S_ 1) (main_v119 : FVec F S4x16 .f32) : IVec S_ 1 :=
  let main_cst_46 : FVec F S_ .f32 := constant S_ .f32 0x7F800000#32
  let main_v120 : FVec F S4x16 .f32 := broadcastInDim S4x16 ![] bcast_S_S4x16 main_cst_46
  let main_v121 : IVec S4x16 1 := cmpf .olt main_v119 main_v120
  let main_c_47 : IVec S_ 1 := constantI S_ 1 1#1
  let main_v122 : IVec S_ 1 := (fun x v => Host.reduce IntOp.andi x v reducesTo_S4x16_S_d0_1 h_S_) main_v121 main_c_47
  let main_v123 : IVec S_ 1 := andi main_v118 main_v122
  let main_v124 : FVec F S16 .f32 := Host.absf main_arg25
  let main_cst_48 : FVec F S_ .f32 := constant S_ .f32 0x7F800000#32
  let main_v125 : FVec F S16 .f32 := broadcastInDim S16 ![] bcast_S_S16 main_cst_48
  let main_v126 : IVec S16 1 := cmpf .olt main_v124 main_v125
  let main_c_49 : IVec S_ 1 := constantI S_ 1 1#1
  let main_v127 : IVec S_ 1 := (fun x v => Host.reduce IntOp.andi x v reducesTo_S16_S_d0 h_S_) main_v126 main_c_49
  let main_v128 : IVec S_ 1 := andi main_v123 main_v127
  let main_v129 : FVec F S16x32 .f32 := Host.absf main_arg26
  let main_cst_50 : FVec F S_ .f32 := constant S_ .f32 0x7F800000#32
  let main_v130 : FVec F S16x32 .f32 := broadcastInDim S16x32 ![] bcast_S_S16x32 main_cst_50
  let main_v131 : IVec S16x32 1 := cmpf .olt main_v129 main_v130
  let main_c_51 : IVec S_ 1 := constantI S_ 1 1#1
  let main_v132 : IVec S_ 1 := (fun x v => Host.reduce IntOp.andi x v reducesTo_S16x32_S_d0_1 h_S_) main_v131 main_c_51
  let main_v133 : IVec S_ 1 := andi main_v128 main_v132
  let main_v134 : FVec F S32 .f32 := Host.absf main_arg27
  let main_cst_52 : FVec F S_ .f32 := constant S_ .f32 0x7F800000#32
  let main_v135 : FVec F S32 .f32 := broadcastInDim S32 ![] bcast_S_S32 main_cst_52
  let main_v136 : IVec S32 1 := cmpf .olt main_v134 main_v135
  fn_part8 (F := F) main_arg28 main_arg29 main_arg30 main_arg31 main_arg32 main_arg33 main_v133 main_v136

def fn_part6 {F : FTy → Type} [FloatOps F] (main_arg21 : FVec F S32 .f32) (main_arg22 : FVec F S32x64 .f32) (main_arg23 : FVec F S64 .f32) (main_arg24 : FVec F S4x16 .f32) (main_arg25 : FVec F S16 .f32) (main_arg26 : FVec F S16x32 .f32) (main_arg27 : FVec F S32 .f32) (main_arg28 : FVec F S384x512 .f32) (main_arg29 : FVec F S512 .f32) (main_arg30 : FVec F S512x512 .f32) (main_arg31 : FVec F S512 .f32) (main_arg32 : FVec F S512 .f32) (main_arg33 : FVec F S512 .f32) (main_v98 : IVec S_ 1) (main_v101 : IVec S12x32 1) (main_c_39 : IVec S_ 1) : IVec S_ 1 :=
  let main_v102 : IVec S_ 1 := (fun x v => Host.reduce IntOp.andi x v reducesTo_S12x32_S_d0_1 h_S_) main_v101 main_c_39
  let main_v103 : IVec S_ 1 := andi main_v98 main_v102
  let main_v104 : FVec F S32 .f32 := Host.absf main_arg21
  let main_cst_40 : FVec F S_ .f32 := constant S_ .f32 0x7F800000#32
  let main_v105 : FVec F S32 .f32 := broadcastInDim S32 ![] bcast_S_S32 main_cst_40
  let main_v106 : IVec S32 1 := cmpf .olt main_v104 main_v105
  let main_c_41 : IVec S_ 1 := constantI S_ 1 1#1
  let main_v107 : IVec S_ 1 := (fun x v => Host.reduce IntOp.andi x v reducesTo_S32_S_d0 h_S_) main_v106 main_c_41
  let main_v108 : IVec S_ 1 := andi main_v103 main_v107
  let main_v109 : FVec F S32x64 .f32 := Host.absf main_arg22
  let main_cst_42 : FVec F S_ .f32 := constant S_ .f32 0x7F800000#32
  let main_v110 : FVec F S32x64 .f32 := broadcastInDim S32x64 ![] bcast_S_S32x64 main_cst_42
  let main_v111 : IVec S32x64 1 := cmpf .olt main_v109 main_v110
  let main_c_43 : IVec S_ 1 := constantI S_ 1 1#1
  let main_v112 : IVec S_ 1 := (fun x v => Host.reduce IntOp.andi x v reducesTo_S32x64_S_d0_1 h_S_) main_v111 main_c_43
  let main_v113 : IVec S_ 1 := andi main_v108 main_v112
  let main_v114 : FVec F S64 .f32 := Host.absf main_arg23
  let main_cst_44 : FVec F S_ .f32 := constant S_ .f32 0x7F800000#32
  let main_v115 : FVec F S64 .f32 := broadcastInDim S64 ![] bcast_S_S64 main_cst_44
  let main_v116 : IVec S64 1 := cmpf .olt main_v114 main_v115
  let main_c_45 : IVec S_ 1 := constantI S_ 1 1#1
  let main_v117 : IVec S_ 1 := (fun x v => Host.reduce IntOp.andi x v reducesTo_S64_S_d0 h_S_) main_v116 main_c_45
  let main_v118 : IVec S_ 1 := andi main_v113 main_v117
  let main_v119 : FVec F S4x16 .f32 := Host.absf main_arg24
  fn_part7 (F := F) main_arg25 main_arg26 main_arg27 main_arg28 main_arg29 main_arg30 main_arg31 main_arg32 main_arg33 main_v118 main_v119

def fn_part5 {F : FTy → Type} [FloatOps F] (main_arg18 : FVec F S16x32 .f32) (main_arg19 : FVec F S32 .f32) (main_arg20 : FVec F S12x32 .f32) (main_arg21 : FVec F S32 .f32) (main_arg22 : FVec F S32x64 .f32) (main_arg23 : FVec F S64 .f32) (main_arg24 : FVec F S4x16 .f32) (main_arg25 : FVec F S16 .f32) (main_arg26 : FVec F S16x32 .f32) (main_arg27 : FVec F S32 .f32) (main_arg28 : FVec F S384x512 .f32) (main_arg29 : FVec F S512 .f32) (main_arg30 : FVec F S512x512 .f32) (main_arg31 : FVec F S512 .f32) (main_arg32 : FVec F S512 .f32) (main_arg33 : FVec F S512 .f32) (main_v83 : IVec S_ 1) (main_v84 : FVec F S16 .f32) (main_cst_32 : FVec F S_ .f32) : IVec S_ 1 :=
  let main_v85 : FVec F S16 .f32 := broadcastInDim S16 ![] bcast_S_S16 main_cst_32
  let main_v86 : IVec S16 1 := cmpf .olt main_v84 main_v85
  let main_c_33 : IVec S_ 1 := constantI S_ 1 1#1
  let main_v87 : IVec S_ 1 := (fun x v => Host.reduce IntOp.andi x v reducesTo_S16_S_d0 h_S_) main_v86 main_c_33
  let main_v88 : IVec S_ 1 := andi main_v83 main_v87
  let main_v89 : FVec F S16x32 .f32 := Host.absf main_arg18
  let main_cst_34 : FVec F S_ .f32 := constant S_ .f32 0x7F800000#32
  let main_v90 : FVec F S16x32 .f32 := broadcastInDim S16x32 ![] bcast_S_S16x32 main_cst_34
  let main_v91 : IVec S16x32 1 := cmpf .olt main_v89 main_v90
  let main_c_35 : IVec S_ 1 := constantI S_ 1 1#1
  let main_v92 : IVec S_ 1 := (fun x v => Host.reduce IntOp.andi x v reducesTo_S16x32_S_d0_1 h_S_) main_v91 main_c_35
  let main_v93 : IVec S_ 1 := andi main_v88 main_v92
  let main_v94 : FVec F S32 .f32 := Host.absf main_arg19
  let main_cst_36 : FVec F S_ .f32 := constant S_ .f32 0x7F800000#32
  let main_v95 : FVec F S32 .f32 := broadcastInDim S32 ![] bcast_S_S32 main_cst_36
  let main_v96 : IVec S32 1 := cmpf .olt main_v94 main_v95
  let main_c_37 : IVec S_ 1 := constantI S_ 1 1#1
  let main_v97 : IVec S_ 1 := (fun x v => Host.reduce IntOp.andi x v reducesTo_S32_S_d0 h_S_) main_v96 main_c_37
  let main_v98 : IVec S_ 1 := andi main_v93 main_v97
  let main_v99 : FVec F S12x32 .f32 := Host.absf main_arg20
  let main_cst_38 : FVec F S_ .f32 := constant S_ .f32 0x7F800000#32
  let main_v100 : FVec F S12x32 .f32 := broadcastInDim S12x32 ![] bcast_S_S12x32 main_cst_38
  let main_v101 : IVec S12x32 1 := cmpf .olt main_v99 main_v100
  let main_c_39 : IVec S_ 1 := constantI S_ 1 1#1
  fn_part6 (F := F) main_arg21 main_arg22 main_arg23 main_arg24 main_arg25 main_arg26 main_arg27 main_arg28 main_arg29 main_arg30 main_arg31 main_arg32 main_arg33 main_v98 main_v101 main_c_39

def fn_part4 {F : FTy → Type} [FloatOps F] (main_arg14 : FVec F S64x128 .f32) (main_arg15 : FVec F S128 .f32) (main_arg16 : FVec F S4x16 .f32) (main_arg17 : FVec F S16 .f32) (main_arg18 : FVec F S16x32 .f32) (main_arg19 : FVec F S32 .f32) (main_arg20 : FVec F S12x32 .f32) (main_arg21 : FVec F S32 .f32) (main_arg22 : FVec F S32x64 .f32) (main_arg23 : FVec F S64 .f32) (main_arg24 : FVec F S4x16 .f32) (main_arg25 : FVec F S16 .f32) (main_arg26 : FVec F S16x32 .f32) (main_arg27 : FVec F S32 .f32) (main_arg28 : FVec F S384x512 .f32) (main_arg29 : FVec F S512 .f32) (main_arg30 : FVec F S512x512 .f32) (main_arg31 : FVec F S512 .f32) (main_arg32 : FVec F S512 .f32) (main_arg33 : FVec F S512 .f32) (main_v63 : IVec S_ 1) (main_v67 : IVec S_ 1) : IVec S_ 1 :=
  let main_v68 : IVec S_ 1 := andi main_v63 main_v67
  let main_v69 : FVec F S64x128 .f32 := Host.absf main_arg14
  let main_cst_26 : FVec F S_ .f32 := constant S_ .f32 0x7F800000#32
  let main_v70 : FVec F S64x128 .f32 := broadcastInDim S64x128 ![] bcast_S_S64x128 main_cst_26
  let main_v71 : IVec S64x128 1 := cmpf .olt main_v69 main_v70
  let main_c_27 : IVec S_ 1 := constantI S_ 1 1#1
  let main_v72 : IVec S_ 1 := (fun x v => Host.reduce IntOp.andi x v reducesTo_S64x128_S_d0_1 h_S_) main_v71 main_c_27
  let main_v73 : IVec S_ 1 := andi main_v68 main_v72
  let main_v74 : FVec F S128 .f32 := Host.absf main_arg15
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S4x16 .f32 := Host.absf main_arg16
  let main_cst_30 : FVec F S_ .f32 := constant S_ .f32 0x7F800000#32
  let main_v80 : FVec F S4x16 .f32 := broadcastInDim S4x16 ![] bcast_S_S4x16 main_cst_30
  let main_v81 : IVec S4x16 1 := cmpf .olt main_v79 main_v80
  let main_c_31 : IVec S_ 1 := constantI S_ 1 1#1
  let main_v82 : IVec S_ 1 := (fun x v => Host.reduce IntOp.andi x v reducesTo_S4x16_S_d0_1 h_S_) main_v81 main_c_31
  let main_v83 : IVec S_ 1 := andi main_v78 main_v82
  let main_v84 : FVec F S16 .f32 := Host.absf main_arg17
  let main_cst_32 : FVec F S_ .f32 := constant S_ .f32 0x7F800000#32
  fn_part5 (F := F) main_arg18 main_arg19 main_arg20 main_arg21 main_arg22 main_arg23 main_arg24 main_arg25 main_arg26 main_arg27 main_arg28 main_arg29 main_arg30 main_arg31 main_arg32 main_arg33 main_v83 main_v84 main_cst_32

def fn_part3 {F : FTy → Type} [FloatOps F] (main_arg11 : FVec F S64 .f32) (main_arg12 : FVec F S24x64 .f32) (main_arg13 : FVec F S64 .f32) (main_arg14 : FVec F S64x128 .f32) (main_arg15 : FVec F S128 .f32) (main_arg16 : FVec F S4x16 .f32) (main_arg17 : FVec F S16 .f32) (main_arg18 : FVec F S16x32 .f32) (main_arg19 : FVec F S32 .f32) (main_arg20 : FVec F S12x32 .f32) (main_arg21 : FVec F S32 .f32) (main_arg22 : FVec F S32x64 .f32) (main_arg23 : FVec F S64 .f32) (main_arg24 : FVec F S4x16 .f32) (main_arg25 : FVec F S16 .f32) (main_arg26 : FVec F S16x32 .f32) (main_arg27 : FVec F S32 .f32) (main_arg28 : FVec F S384x512 .f32) (main_arg29 : FVec F S512 .f32) (main_arg30 : FVec F S512x512 .f32) (main_arg31 : FVec F S512 .f32) (main_arg32 : FVec F S512 .f32) (main_arg33 : FVec F S512 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg11
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S24x64 .f32 := Host.absf main_arg12
  let main_cst_22 : FVec F S_ .f32 := constant S_ .f32 0x7F800000#32
  let main_v60 : FVec F S24x64 .f32 := broadcastInDim S24x64 ![] bcast_S_S24x64 main_cst_22
  let main_v61 : IVec S24x64 1 := cmpf .olt main_v59 main_v60
  let main_c_23 : IVec S_ 1 := constantI S_ 1 1#1
  let main_v62 : IVec S_ 1 := (fun x v => Host.reduce IntOp.andi x v reducesTo_S24x64_S_d0_1 h_S_) main_v61 main_c_23
  let main_v63 : IVec S_ 1 := andi main_v58 main_v62
  let main_v64 : FVec F S64 .f32 := Host.absf main_arg13
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg14 main_arg15 main_arg16 main_arg17 main_arg18 main_arg19 main_arg20 main_arg21 main_arg22 main_arg23 main_arg24 main_arg25 main_arg26 main_arg27 main_arg28 main_arg29 main_arg30 main_arg31 main_arg32 main_arg33 main_v63 main_v67

def fn_part2 {F : FTy → Type} [FloatOps F] (main_arg7 : FVec F S64 .f32) (main_arg8 : FVec F S18x64 .f32) (main_arg9 : FVec F S64 .f32) (main_arg10 : FVec F S64x64 .f32) (main_arg11 : FVec F S64 .f32) (main_arg12 : FVec F S24x64 .f32) (main_arg13 : FVec F S64 .f32) (main_arg14 : FVec F S64x128 .f32) (main_arg15 : FVec F S128 .f32) (main_arg16 : FVec F S4x16 .f32) (main_arg17 : FVec F S16 .f32) (main_arg18 : FVec F S16x32 .f32) (main_arg19 : FVec F S32 .f32) (main_arg20 : FVec F S12x32 .f32) (main_arg21 : FVec F S32 .f32) (main_arg22 : FVec F S32x64 .f32) (main_arg23 : FVec F S64 .f32) (main_arg24 : FVec F S4x16 .f32) (main_arg25 : FVec F S16 .f32) (main_arg26 : FVec F S16x32 .f32) (main_arg27 : FVec F S32 .f32) (main_arg28 : FVec F S384x512 .f32) (main_arg29 : FVec F S512 .f32) (main_arg30 : FVec F S512x512 .f32) (main_arg31 : FVec F S512 .f32) (main_arg32 : FVec F S512 .f32) (main_arg33 : FVec F S512 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S18x64 .f32 := Host.absf main_arg8
  let main_cst_14 : FVec F S_ .f32 := constant S_ .f32 0x7F800000#32
  let main_v40 : FVec F S18x64 .f32 := broadcastInDim S18x64 ![] bcast_S_S18x64 main_cst_14
  let main_v41 : IVec S18x64 1 := cmpf .olt main_v39 main_v40
  let main_c_15 : IVec S_ 1 := constantI S_ 1 1#1
  let main_v42 : IVec S_ 1 := (fun x v => Host.reduce IntOp.andi x v reducesTo_S18x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg10
  let main_cst_18 : FVec F S_ .f32 := constant S_ .f32 0x7F800000#32
  let main_v50 : FVec F S64x64 .f32 := broadcastInDim S64x64 ![] bcast_S_S64x64 main_cst_18
  fn_part3 (F := F) main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_v48 main_v49 main_v50

def fn_part1 {F : FTy → Type} [FloatOps F] (main_arg4 : FVec F S8x32 .f32) (main_arg5 : FVec F S32 .f32) (main_arg6 : FVec F S32x64 .f32) (main_arg7 : FVec F S64 .f32) (main_arg8 : FVec F S18x64 .f32) (main_arg9 : FVec F S64 .f32) (main_arg10 : FVec F S64x64 .f32) (main_arg11 : FVec F S64 .f32) (main_arg12 : FVec F S24x64 .f32) (main_arg13 : FVec F S64 .f32) (main_arg14 : FVec F S64x128 .f32) (main_arg15 : FVec F S128 .f32) (main_arg16 : FVec F S4x16 .f32) (main_arg17 : FVec F S16 .f32) (main_arg18 : FVec F S16x32 .f32) (main_arg19 : FVec F S32 .f32) (main_arg20 : FVec F S12x32 .f32) (main_arg21 : FVec F S32 .f32) (main_arg22 : FVec F S32x64 .f32) (main_arg23 : FVec F S64 .f32) (main_arg24 : FVec F S4x16 .f32) (main_arg25 : FVec F S16 .f32) (main_arg26 : FVec F S16x32 .f32) (main_arg27 : FVec F S32 .f32) (main_arg28 : FVec F S384x512 .f32) (main_arg29 : FVec F S512 .f32) (main_arg30 : FVec F S512x512 .f32) (main_arg31 : FVec F S512 .f32) (main_arg32 : FVec F S512 .f32) (main_arg33 : FVec F S512 .f32) (main_v13 : IVec S_ 1) (main_v16 : IVec S131072x2 1) : IVec S_ 1 :=
  let main_c_5 : IVec S_ 1 := constantI S_ 1 1#1
  let main_v17 : IVec S_ 1 := (fun x v => Host.reduce IntOp.andi x v reducesTo_S131072x2_S_d0_1 h_S_) main_v16 main_c_5
  let main_v18 : IVec S_ 1 := andi main_v13 main_v17
  let main_v19 : FVec F S8x32 .f32 := Host.absf main_arg4
  let main_cst_6 : FVec F S_ .f32 := constant S_ .f32 0x7F800000#32
  let main_v20 : FVec F S8x32 .f32 := broadcastInDim S8x32 ![] bcast_S_S8x32 main_cst_6
  let main_v21 : IVec S8x32 1 := cmpf .olt main_v19 main_v20
  let main_c_7 : IVec S_ 1 := constantI S_ 1 1#1
  let main_v22 : IVec S_ 1 := (fun x v => Host.reduce IntOp.andi x v reducesTo_S8x32_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x64 .f32 := Host.absf main_arg6
  let main_cst_10 : FVec F S_ .f32 := constant S_ .f32 0x7F800000#32
  let main_v30 : FVec F S32x64 .f32 := broadcastInDim S32x64 ![] bcast_S_S32x64 main_cst_10
  let main_v31 : IVec S32x64 1 := cmpf .olt main_v29 main_v30
  let main_c_11 : IVec S_ 1 := constantI S_ 1 1#1
  let main_v32 : IVec S_ 1 := (fun x v => Host.reduce IntOp.andi x v reducesTo_S32x64_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_v33

def fn {F : FTy → Type} [FloatOps F] (main_arg0 : FVec F S131072x25 .f32) (main_arg1 : FVec F S131072x2 .f32) (main_arg2 : FVec F S131072x6 .f32) (main_arg3 : FVec F S131072x2 .f32) (main_arg4 : FVec F S8x32 .f32) (main_arg5 : FVec F S32 .f32) (main_arg6 : FVec F S32x64 .f32) (main_arg7 : FVec F S64 .f32) (main_arg8 : FVec F S18x64 .f32) (main_arg9 : FVec F S64 .f32) (main_arg10 : FVec F S64x64 .f32) (main_arg11 : FVec F S64 .f32) (main_arg12 : FVec F S24x64 .f32) (main_arg13 : FVec F S64 .f32) (main_arg14 : FVec F S64x128 .f32) (main_arg15 : FVec F S128 .f32) (main_arg16 : FVec F S4x16 .f32) (main_arg17 : FVec F S16 .f32) (main_arg18 : FVec F S16x32 .f32) (main_arg19 : FVec F S32 .f32) (main_arg20 : FVec F S12x32 .f32) (main_arg21 : FVec F S32 .f32) (main_arg22 : FVec F S32x64 .f32) (main_arg23 : FVec F S64 .f32) (main_arg24 : FVec F S4x16 .f32) (main_arg25 : FVec F S16 .f32) (main_arg26 : FVec F S16x32 .f32) (main_arg27 : FVec F S32 .f32) (main_arg28 : FVec F S384x512 .f32) (main_arg29 : FVec F S512 .f32) (main_arg30 : FVec F S512x512 .f32) (main_arg31 : FVec F S512 .f32) (main_arg32 : FVec F S512 .f32) (main_arg33 : FVec F S512 .f32) : IVec S_ 1 :=
  let main_v0 : FVec F S131072x25 .f32 := Host.absf main_arg0
  let main_cst : FVec F S_ .f32 := constant S_ .f32 0x7F800000#32
  let main_v1 : FVec F S131072x25 .f32 := broadcastInDim S131072x25 ![] bcast_S_S131072x25 main_cst
  let main_v2 : IVec S131072x25 1 := cmpf .olt main_v0 main_v1
  let main_c : IVec S_ 1 := constantI S_ 1 1#1
  let main_v3 : IVec S_ 1 := (fun x v => Host.reduce IntOp.andi x v reducesTo_S131072x25_S_d0_1 h_S_) main_v2 main_c
  let main_v4 : FVec F S131072x2 .f32 := Host.absf main_arg1
  let main_cst_0 : FVec F S_ .f32 := constant S_ .f32 0x7F800000#32
  let main_v5 : FVec F S131072x2 .f32 := broadcastInDim S131072x2 ![] bcast_S_S131072x2 main_cst_0
  let main_v6 : IVec S131072x2 1 := cmpf .olt main_v4 main_v5
  let main_c_1 : IVec S_ 1 := constantI S_ 1 1#1
  let main_v7 : IVec S_ 1 := (fun x v => Host.reduce IntOp.andi x v reducesTo_S131072x2_S_d0_1 h_S_) main_v6 main_c_1
  let main_v8 : IVec S_ 1 := andi main_v3 main_v7
  let main_v9 : FVec F S131072x6 .f32 := Host.absf main_arg2
  let main_cst_2 : FVec F S_ .f32 := constant S_ .f32 0x7F800000#32
  let main_v10 : FVec F S131072x6 .f32 := broadcastInDim S131072x6 ![] bcast_S_S131072x6 main_cst_2
  let main_v11 : IVec S131072x6 1 := cmpf .olt main_v9 main_v10
  let main_c_3 : IVec S_ 1 := constantI S_ 1 1#1
  let main_v12 : IVec S_ 1 := (fun x v => Host.reduce IntOp.andi x v reducesTo_S131072x6_S_d0_1 h_S_) main_v11 main_c_3
  let main_v13 : IVec S_ 1 := andi main_v8 main_v12
  let main_v14 : FVec F S131072x2 .f32 := Host.absf main_arg3
  let main_cst_4 : FVec F S_ .f32 := constant S_ .f32 0x7F800000#32
  let main_v15 : FVec F S131072x2 .f32 := broadcastInDim S131072x2 ![] bcast_S_S131072x2 main_cst_4
  let main_v16 : IVec S131072x2 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_v13 main_v16
-- ==== Kernel.lean ====
abbrev S131072x25 : Shape := ⟨2, ![131072, 25]⟩
abbrev S131072x2 : Shape := ⟨2, ![131072, 2]⟩
abbrev S131072x6 : Shape := ⟨2, ![131072, 6]⟩
abbrev S8x32 : Shape := ⟨2, ![8, 32]⟩
abbrev S32 : Shape := ⟨1, ![32]⟩
abbrev S32x64 : Shape := ⟨2, ![32, 64]⟩
abbrev S64 : Shape := ⟨1, ![64]⟩
abbrev S18x64 : Shape := ⟨2, ![18, 64]⟩
abbrev S64x64 : Shape := ⟨2, ![64, 64]⟩
abbrev S24x64 : Shape := ⟨2, ![24, 64]⟩
abbrev S64x128 : Shape := ⟨2, ![64, 128]⟩
abbrev S128 : Shape := ⟨1, ![128]⟩
abbrev S4x16 : Shape := ⟨2, ![4, 16]⟩
abbrev S16 : Shape := ⟨1, ![16]⟩
abbrev S16x32 : Shape := ⟨2, ![16, 32]⟩
abbrev S12x32 : Shape := ⟨2, ![12, 32]⟩
abbrev S384x512 : Shape := ⟨2, ![384, 512]⟩
abbrev S512 : Shape := ⟨1, ![512]⟩
abbrev S512x512 : Shape := ⟨2, ![512, 512]⟩
abbrev S131072x512 : Shape := ⟨2, ![131072, 512]⟩
abbrev S2048x25 : Shape := ⟨2, ![2048, 25]⟩
abbrev S2048x2 : Shape := ⟨2, ![2048, 2]⟩
abbrev S2048x6 : Shape := ⟨2, ![2048, 6]⟩
abbrev S2048x512 : Shape := ⟨2, ![2048, 512]⟩
abbrev S2048x4 : Shape := ⟨2, ![2048, 4]⟩
abbrev S2048x1 : Shape := ⟨2, ![2048, 1]⟩
abbrev S2048x8 : Shape := ⟨2, ![2048, 8]⟩
abbrev S2048x24 : Shape := ⟨2, ![2048, 24]⟩
abbrev S2048x3 : Shape := ⟨2, ![2048, 3]⟩
abbrev S2048x18 : Shape := ⟨2, ![2048, 18]⟩
abbrev S2048x12 : Shape := ⟨2, ![2048, 12]⟩
abbrev S2048x32 : Shape := ⟨2, ![2048, 32]⟩
abbrev S1x32 : Shape := ⟨2, ![1, 32]⟩
abbrev S2048x64 : Shape := ⟨2, ![2048, 64]⟩
abbrev S1x64 : Shape := ⟨2, ![1, 64]⟩
abbrev S2048x128 : Shape := ⟨2, ![2048, 128]⟩
abbrev S1x128 : Shape := ⟨2, ![1, 128]⟩
abbrev S2048x16 : Shape := ⟨2, ![2048, 16]⟩
abbrev S1x16 : Shape := ⟨2, ![1, 16]⟩
abbrev S2048x384 : Shape := ⟨2, ![2048, 384]⟩
abbrev S1x512 : Shape := ⟨2, ![1, 512]⟩
abbrev S2048 : Shape := ⟨1, ![2048]⟩

abbrev nBuf : Space → Nat
  | .hbm => 35
  | .vmem => 40
  | .smem => 0
  | _ => 0

abbrev bufTy : (tb : Table) → Fin (tcTables nBuf tb) → BufTy
  | .hbm, ⟨0, _⟩ => ⟨S131072x25, .f32⟩
  | .hbm, ⟨1, _⟩ => ⟨S131072x2, .f32⟩
  | .hbm, ⟨2, _⟩ => ⟨S131072x6, .f32⟩
  | .hbm, ⟨3, _⟩ => ⟨S131072x2, .f32⟩
  | .hbm, ⟨4, _⟩ => ⟨S8x32, .f32⟩
  | .hbm, ⟨5, _⟩ => ⟨S32, .f32⟩
  | .hbm, ⟨6, _⟩ => ⟨S32x64, .f32⟩
  | .hbm, ⟨7, _⟩ => ⟨S64, .f32⟩
  | .hbm, ⟨8, _⟩ => ⟨S18x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S24x64, .f32⟩
  | .hbm, ⟨13, _⟩ => ⟨S64, .f32⟩
  | .hbm, ⟨14, _⟩ => ⟨S64x128, .f32⟩
  | .hbm, ⟨15, _⟩ => ⟨S128, .f32⟩
  | .hbm, ⟨16, _⟩ => ⟨S4x16, .f32⟩
  | .hbm, ⟨17, _⟩ => ⟨S16, .f32⟩
  | .hbm, ⟨18, _⟩ => ⟨S16x32, .f32⟩
  | .hbm, ⟨19, _⟩ => ⟨S32, .f32⟩
  | .hbm, ⟨20, _⟩ => ⟨S12x32, .f32⟩
  | .hbm, ⟨21, _⟩ => ⟨S32, .f32⟩
  | .hbm, ⟨22, _⟩ => ⟨S32x64, .f32⟩
  | .hbm, ⟨23, _⟩ => ⟨S64, .f32⟩
  | .hbm, ⟨24, _⟩ => ⟨S4x16, .f32⟩
  | .hbm, ⟨25, _⟩ => ⟨S16, .f32⟩
  | .hbm, ⟨26, _⟩ => ⟨S16x32, .f32⟩
  | .hbm, ⟨27, _⟩ => ⟨S32, .f32⟩
  | .hbm, ⟨28, _⟩ => ⟨S384x512, .f32⟩
  | .hbm, ⟨29, _⟩ => ⟨S512, .f32⟩
  | .hbm, ⟨30, _⟩ => ⟨S512x512, .f32⟩
  | .hbm, ⟨31, _⟩ => ⟨S512, .f32⟩
  | .hbm, ⟨32, _⟩ => ⟨S512, .f32⟩
  | .hbm, ⟨33, _⟩ => ⟨S512, .f32⟩
  | .hbm, ⟨34, _⟩ => ⟨S131072x512, .f32⟩
  | .local _ .vmem, ⟨0, _⟩ => ⟨S2048x25, .f32⟩
  | .local _ .vmem, ⟨1, _⟩ => ⟨S2048x25, .f32⟩
  | .local _ .vmem, ⟨2, _⟩ => ⟨S2048x2, .f32⟩
  | .local _ .vmem, ⟨3, _⟩ => ⟨S2048x2, .f32⟩
  | .local _ .vmem, ⟨4, _⟩ => ⟨S2048x6, .f32⟩
  | .local _ .vmem, ⟨5, _⟩ => ⟨S2048x6, .f32⟩
  | .local _ .vmem, ⟨6, _⟩ => ⟨S2048x2, .f32⟩
  | .local _ .vmem, ⟨7, _⟩ => ⟨S2048x2, .f32⟩
  | .local _ .vmem, ⟨8, _⟩ => ⟨S8x32, .f32⟩
  | .local _ .vmem, ⟨9, _⟩ => ⟨S32, .f32⟩
  | .local _ .vmem, ⟨10, _⟩ => ⟨S32x64, .f32⟩
  | .local _ .vmem, ⟨11, _⟩ => ⟨S64, .f32⟩
  | .local _ .vmem, ⟨12, _⟩ => ⟨S18x64, .f32⟩
  | .local _ .vmem, ⟨13, _⟩ => ⟨S64, .f32⟩
  | .local _ .vmem, ⟨14, _⟩ => ⟨S64x64, .f32⟩
  | .local _ .vmem, ⟨15, _⟩ => ⟨S64, .f32⟩
  | .local _ .vmem, ⟨16, _⟩ => ⟨S24x64, .f32⟩
  | .local _ .vmem, ⟨17, _⟩ => ⟨S64, .f32⟩
  | .local _ .vmem, ⟨18, _⟩ => ⟨S64x128, .f32⟩
  | .local _ .vmem, ⟨19, _⟩ => ⟨S128, .f32⟩
  | .local _ .vmem, ⟨20, _⟩ => ⟨S4x16, .f32⟩
  | .local _ .vmem, ⟨21, _⟩ => ⟨S16, .f32⟩
  | .local _ .vmem, ⟨22, _⟩ => ⟨S16x32, .f32⟩
  | .local _ .vmem, ⟨23, _⟩ => ⟨S32, .f32⟩
  | .local _ .vmem, ⟨24, _⟩ => ⟨S12x32, .f32⟩
  | .local _ .vmem, ⟨25, _⟩ => ⟨S32, .f32⟩
  | .local _ .vmem, ⟨26, _⟩ => ⟨S32x64, .f32⟩
  | .local _ .vmem, ⟨27, _⟩ => ⟨S64, .f32⟩
  | .local _ .vmem, ⟨28, _⟩ => ⟨S4x16, .f32⟩
  | .local _ .vmem, ⟨29, _⟩ => ⟨S16, .f32⟩
  | .local _ .vmem, ⟨30, _⟩ => ⟨S16x32, .f32⟩
  | .local _ .vmem, ⟨31, _⟩ => ⟨S32, .f32⟩
  | .local _ .vmem, ⟨32, _⟩ => ⟨S384x512, .f32⟩
  | .local _ .vmem, ⟨33, _⟩ => ⟨S512, .f32⟩
  | .local _ .vmem, ⟨34, _⟩ => ⟨S512x512, .f32⟩
  | .local _ .vmem, ⟨35, _⟩ => ⟨S512, .f32⟩
  | .local _ .vmem, ⟨36, _⟩ => ⟨S512, .f32⟩
  | .local _ .vmem, ⟨37, _⟩ => ⟨S512, .f32⟩
  | .local _ .vmem, ⟨38, _⟩ => ⟨S2048x512, .f32⟩
  | .local _ .vmem, ⟨39, _⟩ => ⟨S2048x512, .f32⟩
  | _, _ => ⟨S131072x25, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_v0 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg17_0 : Ref sig .tc := ⟨.vmem, 21, rfl⟩
abbrev cc0_stg18_0 : Ref sig .tc := ⟨.vmem, 22, rfl⟩
abbrev cc0_stg19_0 : Ref sig .tc := ⟨.vmem, 23, rfl⟩
abbrev cc0_stg20_0 : Ref sig .tc := ⟨.vmem, 24, rfl⟩
abbrev cc0_stg21_0 : Ref sig .tc := ⟨.vmem, 25, rfl⟩
abbrev cc0_stg22_0 : Ref sig .tc := ⟨.vmem, 26, rfl⟩
abbrev cc0_stg23_0 : Ref sig .tc := ⟨.vmem, 27, rfl⟩
abbrev cc0_stg24_0 : Ref sig .tc := ⟨.vmem, 28, rfl⟩
abbrev cc0_stg25_0 : Ref sig .tc := ⟨.vmem, 29, rfl⟩
abbrev cc0_stg26_0 : Ref sig .tc := ⟨.vmem, 30, rfl⟩
abbrev cc0_stg27_0 : Ref sig .tc := ⟨.vmem, 31, rfl⟩
abbrev cc0_stg28_0 : Ref sig .tc := ⟨.vmem, 32, rfl⟩
abbrev cc0_stg29_0 : Ref sig .tc := ⟨.vmem, 33, rfl⟩
abbrev cc0_stg30_0 : Ref sig .tc := ⟨.vmem, 34, rfl⟩
abbrev cc0_stg31_0 : Ref sig .tc := ⟨.vmem, 35, rfl⟩
abbrev cc0_stg32_0 : Ref sig .tc := ⟨.vmem, 36, rfl⟩
abbrev cc0_stg33_0 : Ref sig .tc := ⟨.vmem, 37, rfl⟩
abbrev cc0_stg34_0 : Ref sig .tc := ⟨.vmem, 38, rfl⟩
abbrev cc0_stg34_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem17_0 : DmaSem sig := 21
abbrev cc0_sem18_0 : DmaSem sig := 22
abbrev cc0_sem19_0 : DmaSem sig := 23
abbrev cc0_sem20_0 : DmaSem sig := 24
abbrev cc0_sem21_0 : DmaSem sig := 25
abbrev cc0_sem22_0 : DmaSem sig := 26
abbrev cc0_sem23_0 : DmaSem sig := 27
abbrev cc0_sem24_0 : DmaSem sig := 28
abbrev cc0_sem25_0 : DmaSem sig := 29
abbrev cc0_sem26_0 : DmaSem sig := 30
abbrev cc0_sem27_0 : DmaSem sig := 31
abbrev cc0_sem28_0 : DmaSem sig := 32
abbrev cc0_sem29_0 : DmaSem sig := 33
abbrev cc0_sem30_0 : DmaSem sig := 34
abbrev cc0_sem31_0 : DmaSem sig := 35
abbrev cc0_sem32_0 : DmaSem sig := 36
abbrev cc0_sem33_0 : DmaSem sig := 37
abbrev cc0_sem34_0 : DmaSem sig := 38
abbrev cc0_sem34_1 : DmaSem sig := 39

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_28 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_29 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_30 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_31 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_32 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_33 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_34 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x25 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x6 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S18x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S24x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S64x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S4x16 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S16 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S16x32 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S32 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S12x32 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S32 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S32x64 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S64 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S4x16 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S16 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S16x32 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S32 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 1 → Memref sig .tc .vmem S384x512 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]

abbrev stage0_29 : Fin 1 → Memref sig .tc .vmem S512 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))
abbrev reads0_29 : Fin grid0.rank → Bool := ![false]

abbrev stage0_30 : Fin 1 → Memref sig .tc .vmem S512x512 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))
abbrev reads0_30 : Fin grid0.rank → Bool := ![false]

abbrev stage0_31 : Fin 1 → Memref sig .tc .vmem S512 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))
abbrev reads0_31 : Fin grid0.rank → Bool := ![false]

abbrev stage0_32 : Fin 1 → Memref sig .tc .vmem S512 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))
abbrev reads0_32 : Fin grid0.rank → Bool := ![false]

abbrev stage0_33 : Fin 1 → Memref sig .tc .vmem S512 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))
abbrev reads0_33 : Fin grid0.rank → Bool := ![false]

abbrev stage0_34 : Fin 2 → Memref sig .tc .vmem S2048x512 .f32 := fun | 0 => Memref.whole cc0_stg34_0 | 1 => Memref.whole cc0_stg34_1 | ⟨_ + 2, h⟩ => absurd h (Nat.not_lt.2 (Nat.le_add_left _ _))
abbrev sem0_34 : Fin 2 → DmaSem sig := fun | 0 => cc0_sem34_0 | 1 => cc0_sem34_1 | ⟨_ + 2, h⟩ => absurd h (Nat.not_lt.2 (Nat.le_add_left _ _))
abbrev reads0_34 : Fin grid0.rank → Bool := ![true]

class Facts₀ : Prop where
  inb_S2048x25_S2048x25_0_0 : ∀ a, (![0, 0] : Fin 2 → Nat) a + S2048x25.size a ≤ S2048x25.size a
  h_S2048x25 : 0 < S2048x25.numel
  inb_S2048x2_S2048x2_0_0 : ∀ a, (![0, 0] : Fin 2 → Nat) a + S2048x2.size a ≤ S2048x2.size a
  h_S2048x2 : 0 < S2048x2.numel
  inb_S2048x6_S2048x6_0_0 : ∀ a, (![0, 0] : Fin 2 → Nat) a + S2048x6.size a ≤ S2048x6.size a
  h_S2048x6 : 0 < S2048x6.numel
  slices_S2048x25_o0_0_S2048x4 : S2048x25.Slices ![0, 0] S2048x4
  slices_S2048x4_o0_0_S2048x1 : S2048x4.Slices ![0, 0] S2048x1
  slices_S2048x4_o0_1_S2048x1 : S2048x4.Slices ![0, 1] S2048x1
  slices_S2048x4_o0_2_S2048x1 : S2048x4.Slices ![0, 2] S2048x1
  slices_S2048x4_o0_3_S2048x1 : S2048x4.Slices ![0, 3] S2048x1
  concatenates_S2048x1_S2048x1_S2048x1_S2048x1_S2048x1_S2048x1_S2048x1_S2048x1_S2048x8_d1 : Shape.Concatenates [S2048x1, S2048x1, S2048x1, S2048x1, S2048x1, S2048x1, S2048x1, S2048x1] S2048x8 1
  slices_S2048x25_o0_7_S2048x4 : S2048x25.Slices ![0, 7] S2048x4
  slices_S2048x25_o0_14_S2048x4 : S2048x25.Slices ![0, 14] S2048x4
  concatenates_S2048x8_S2048x8_S2048x8_S2048x24_d1 : Shape.Concatenates [S2048x8, S2048x8, S2048x8] S2048x24 1
  slices_S2048x25_o0_4_S2048x3 : S2048x25.Slices ![0, 4] S2048x3
  slices_S2048x3_o0_0_S2048x1 : S2048x3.Slices ![0, 0] S2048x1
  slices_S2048x3_o0_1_S2048x1 : S2048x3.Slices ![0, 1] S2048x1
  slices_S2048x3_o0_2_S2048x1 : S2048x3.Slices ![0, 2] S2048x1
  concatenates_S2048x1_S2048x1_S2048x1_S2048x1_S2048x1_S2048x1_S2048x6_d1 : Shape.Concatenates [S2048x1, S2048x1, S2048x1, S2048x1, S2048x1, S2048x1] S2048x6 1
  slices_S2048x25_o0_11_S2048x3 : S2048x25.Slices ![0, 11] S2048x3
  slices_S2048x25_o0_18_S2048x3 : S2048x25.Slices ![0, 18] S2048x3
  concatenates_S2048x6_S2048x6_S2048x6_S2048x18_d1 : Shape.Concatenates [S2048x6, S2048x6, S2048x6] S2048x18 1
  slices_S2048x25_o0_21_S2048x1 : S2048x25.Slices ![0, 21] S2048x1
  concatenates_S2048x1_S2048x1_S2048x2_d1 : Shape.Concatenates [S2048x1, S2048x1] S2048x2 1
  slices_S2048x25_o0_22_S2048x1 : S2048x25.Slices ![0, 22] S2048x1
  slices_S2048x2_o0_0_S2048x1 : S2048x2.Slices ![0, 0] S2048x1
  slices_S2048x2_o0_1_S2048x1 : S2048x2.Slices ![0, 1] S2048x1
  concatenates_S2048x1_S2048x1_S2048x1_S2048x1_S2048x4_d1 : Shape.Concatenates [S2048x1, S2048x1, S2048x1, S2048x1] S2048x4 1
  concatenates_S2048x2_S2048x2_S2048x4_S2048x8_d1 : Shape.Concatenates [S2048x2, S2048x2, S2048x4] S2048x8 1
  slices_S2048x25_o0_23_S2048x1 : S2048x25.Slices ![0, 23] S2048x1
  slices_S2048x25_o0_24_S2048x1 : S2048x25.Slices ![0, 24] S2048x1
  concatenates_S2048x2_S2048x2_S2048x4_d1 : Shape.Concatenates [S2048x2, S2048x2] S2048x4 1
  slices_S2048x6_o0_0_S2048x1 : S2048x6.Slices ![0, 0] S2048x1
  slices_S2048x6_o0_1_S2048x1 : S2048x6.Slices ![0, 1] S2048x1
  slices_S2048x6_o0_2_S2048x1 : S2048x6.Slices ![0, 2] S2048x1
  slices_S2048x6_o0_3_S2048x1 : S2048x6.Slices ![0, 3] S2048x1
  slices_S2048x6_o0_4_S2048x1 : S2048x6.Slices ![0, 4] S2048x1
  slices_S2048x6_o0_5_S2048x1 : S2048x6.Slices ![0, 5] S2048x1
  concatenates_S2048x1_S2048x1_S2048x1_S2048x1_S2048x1_S2048x1_S2048x1_S2048x1_S2048x1_S2048x1_S2048x1_S2048x1_S2048x12_d1 : Shape.Concatenates [S2048x1, S2048x1, S2048x1, S2048x1, S2048x1, S2048x1, S2048x1, S2048x1, S2048x1, S2048x1, S2048x1, S2048x1] S2048x12 1
  inb_S8x32_S8x32_0_0 : ∀ a, (![0, 0] : Fin 2 → Nat) a + S8x32.size a ≤ S8x32.size a
  h_S8x32 : 0 < S8x32.numel
  inb_S32_S32_0 : ∀ a, (![0] : Fin 1 → Nat) a + S32.size a ≤ S32.size a
  h_S32 : 0 < S32.numel
  inb_S32x64_S32x64_0_0 : ∀ a, (![0, 0] : Fin 2 → Nat) a + S32x64.size a ≤ S32x64.size a
  h_S32x64 : 0 < S32x64.numel
  inb_S64_S64_0 : ∀ a, (![0] : Fin 1 → Nat) a + S64.size a ≤ S64.size a
  h_S64 : 0 < S64.numel
  bitsLt_bf16_f32 : FTy.bits .bf16 < FTy.bits .f32
  shapeCasts_S32_S1x32 : S32.ShapeCasts S1x32
  broadcasts_S1x32_S2048x32 : S1x32.Broadcasts S2048x32
  shapeCasts_S64_S1x64 : S64.ShapeCasts S1x64
  broadcasts_S1x64_S2048x64 : S1x64.Broadcasts S2048x64
  inb_S18x64_S18x64_0_0 : ∀ a, (![0, 0] : Fin 2 → Nat) a + S18x64.size a ≤ S18x64.size a
  h_S18x64 : 0 < S18x64.numel
  inb_S64x64_S64x64_0_0 : ∀ a, (![0, 0] : Fin 2 → Nat) a + S64x64.size a ≤ S64x64.size a
  h_S64x64 : 0 < S64x64.numel
  inb_S24x64_S24x64_0_0 : ∀ a, (![0, 0] : Fin 2 → Nat) a + S24x64.size a ≤ S24x64.size a
  h_S24x64 : 0 < S24x64.numel
  inb_S64x128_S64x128_0_0 : ∀ a, (![0, 0] : Fin 2 → Nat) a + S64x128.size a ≤ S64x128.size a
  h_S64x128 : 0 < S64x128.numel
  inb_S128_S128_0 : ∀ a, (![0] : Fin 1 → Nat) a + S128.size a ≤ S128.size a
  h_S128 : 0 < S128.numel
  shapeCasts_S128_S1x128 : S128.ShapeCasts S1x128
  broadcasts_S1x128_S2048x128 : S1x128.Broadcasts S2048x128
  inb_S4x16_S4x16_0_0 : ∀ a, (![0, 0] : Fin 2 → Nat) a + S4x16.size a ≤ S4x16.size a
  h_S4x16 : 0 < S4x16.numel
  inb_S16_S16_0 : ∀ a, (![0] : Fin 1 → Nat) a + S16.size a ≤ S16.size a
  h_S16 : 0 < S16.numel
  inb_S16x32_S16x32_0_0 : ∀ a, (![0, 0] : Fin 2 → Nat) a + S16x32.size a ≤ S16x32.size a
  h_S16x32 : 0 < S16x32.numel
  shapeCasts_S16_S1x16 : S16.ShapeCasts S1x16
  broadcasts_S1x16_S2048x16 : S1x16.Broadcasts S2048x16
  inb_S12x32_S12x32_0_0 : ∀ a, (![0, 0] : Fin 2 → Nat) a + S12x32.size a ≤ S12x32.size a
  h_S12x32 : 0 < S12x32.numel
  concatenates_S2048x64_S2048x64_S2048x128_S2048x32_S2048x64_S2048x32_S2048x384_d1 : Shape.Concatenates [S2048x64, S2048x64, S2048x128, S2048x32, S2048x64, S2048x32] S2048x384 1
  inb_S384x512_S384x512_0_0 : ∀ a, (![0, 0] : Fin 2 → Nat) a + S384x512.size a ≤ S384x512.size a
  h_S384x512 : 0 < S384x512.numel
  inb_S512_S512_0 : ∀ a, (![0] : Fin 1 → Nat) a + S512.size a ≤ S512.size a
  h_S512 : 0 < S512.numel
  shapeCasts_S512_S1x512 : S512.ShapeCasts S1x512
  broadcasts_S1x512_S2048x512 : S1x512.Broadcasts S2048x512
  inb_S512x512_S512x512_0_0 : ∀ a, (![0, 0] : Fin 2 → Nat) a + S512x512.size a ≤ S512x512.size a
  h_S512x512 : 0 < S512x512.numel
  reduces_S2048x512_S2048 : S2048x512.Reduces [1] S2048
  shapeCasts_S2048_S2048x1 : S2048.ShapeCasts S2048x1
  broadcasts_S2048x1_S2048x512 : S2048x1.Broadcasts S2048x512
  inb_S2048x512_S2048x512_0_0 : ∀ a, (![0, 0] : Fin 2 → Nat) a + S2048x512.size a ≤ S2048x512.size a
  h_S2048x512 : 0 < S2048x512.numel
  dot_S2048x8_S8x32_S2048x32_1_0_0_1_n_n_wf : DotDims.WF S2048x8 S8x32 S2048x32 [1] [0] [0] [1] [] []
  dot_S2048x32_S32x64_S2048x64_1_0_0_1_n_n_wf : DotDims.WF S2048x32 S32x64 S2048x64 [1] [0] [0] [1] [] []
  dot_S2048x18_S18x64_S2048x64_1_0_0_1_n_n_wf : DotDims.WF S2048x18 S18x64 S2048x64 [1] [0] [0] [1] [] []
  dot_S2048x64_S64x64_S2048x64_1_0_0_1_n_n_wf : DotDims.WF S2048x64 S64x64 S2048x64 [1] [0] [0] [1] [] []
  dot_S2048x24_S24x64_S2048x64_1_0_0_1_n_n_wf : DotDims.WF S2048x24 S24x64 S2048x64 [1] [0] [0] [1] [] []
  dot_S2048x64_S64x128_S2048x128_1_0_0_1_n_n_wf : DotDims.WF S2048x64 S64x128 S2048x128 [1] [0] [0] [1] [] []
  dot_S2048x4_S4x16_S2048x16_1_0_0_1_n_n_wf : DotDims.WF S2048x4 S4x16 S2048x16 [1] [0] [0] [1] [] []
  dot_S2048x16_S16x32_S2048x32_1_0_0_1_n_n_wf : DotDims.WF S2048x16 S16x32 S2048x32 [1] [0] [0] [1] [] []
  dot_S2048x12_S12x32_S2048x32_1_0_0_1_n_n_wf : DotDims.WF S2048x12 S12x32 S2048x32 [1] [0] [0] [1] [] []
  dot_S2048x384_S384x512_S2048x512_1_0_0_1_n_n_wf : DotDims.WF S2048x384 S384x512 S2048x512 [1] [0] [0] [1] [] []
  dot_S2048x512_S512x512_S2048x512_1_0_0_1_n_n_wf : DotDims.WF S2048x512 S512x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x25.size a ≤ S131072x25.size a
  hwx0_0 : ∀ i : grid0.Coords, EltTy.bits .f32 = 32 ∨ (Rect.block (s := S131072x25) S2048x25.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x2.size a ≤ S131072x2.size a
  hwx0_1 : ∀ i : grid0.Coords, EltTy.bits .f32 = 32 ∨ (Rect.block (s := S131072x2) S2048x2.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x6.size a ≤ S131072x6.size a
  hwx0_2 : ∀ i : grid0.Coords, EltTy.bits .f32 = 32 ∨ (Rect.block (s := S131072x6) S2048x6.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x2.size a ≤ S131072x2.size a
  hwx0_3 : ∀ i : grid0.Coords, EltTy.bits .f32 = 32 ∨ (Rect.block (s := S131072x2) S2048x2.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x32.size a ≤ S8x32.size a
  hwx0_4 : ∀ i : grid0.Coords, EltTy.bits .f32 = 32 ∨ (Rect.block (s := S8x32) S8x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32.size a ≤ S32.size a
  hwx0_5 : ∀ i : grid0.Coords, EltTy.bits .f32 = 32 ∨ (Rect.block (s := S32) S32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x64.size a ≤ S32x64.size a
  hwx0_6 : ∀ i : grid0.Coords, EltTy.bits .f32 = 32 ∨ (Rect.block (s := S32x64) S32x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64.size a ≤ S64.size a
  hwx0_7 : ∀ i : grid0.Coords, EltTy.bits .f32 = 32 ∨ (Rect.block (s := S64) S64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S18x64.size a ≤ S18x64.size a
  hwx0_8 : ∀ i : grid0.Coords, EltTy.bits .f32 = 32 ∨ (Rect.block (s := S18x64) S18x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64.size a ≤ S64.size a
  hwx0_9 : ∀ i : grid0.Coords, EltTy.bits .f32 = 32 ∨ (Rect.block (s := S64) S64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64x64.size a ≤ S64x64.size a
  hwx0_10 : ∀ i : grid0.Coords, EltTy.bits .f32 = 32 ∨ (Rect.block (s := S64x64) S64x64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S64.size a ≤ S64.size a
  hwx0_11 : ∀ i : grid0.Coords, EltTy.bits .f32 = 32 ∨ (Rect.block (s := S64) S64.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S24x64.size a ≤ S24x64.size a
  hwx0_12 : ∀ i : grid0.Coords, EltTy.bits .f32 = 32 ∨ (Rect.block (s := S24x64) S24x64.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S64.size a ≤ S64.size a
  hwx0_13 : ∀ i : grid0.Coords, EltTy.bits .f32 = 32 ∨ (Rect.block (s := S64) S64.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S64x128.size a ≤ S64x128.size a
  hwx0_14 : ∀ i : grid0.Coords, EltTy.bits .f32 = 32 ∨ (Rect.block (s := S64x128) S64x128.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S128.size a ≤ S128.size a
  hwx0_15 : ∀ i : grid0.Coords, EltTy.bits .f32 = 32 ∨ (Rect.block (s := S128) S128.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S4x16.size a ≤ S4x16.size a
  hwx0_16 : ∀ i : grid0.Coords, EltTy.bits .f32 = 32 ∨ (Rect.block (s := S4x16) S4x16.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S16.size a ≤ S16.size a
  hwx0_17 : ∀ i : grid0.Coords, EltTy.bits .f32 = 32 ∨ (Rect.block (s := S16) S16.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S16x32.size a ≤ S16x32.size a
  hwx0_18 : ∀ i : grid0.Coords, EltTy.bits .f32 = 32 ∨ (Rect.block (s := S16x32) S16x32.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S32.size a ≤ S32.size a
  hwx0_19 : ∀ i : grid0.Coords, EltTy.bits .f32 = 32 ∨ (Rect.block (s := S32) S32.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S12x32.size a ≤ S12x32.size a
  hwx0_20 : ∀ i : grid0.Coords, EltTy.bits .f32 = 32 ∨ (Rect.block (s := S12x32) S12x32.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S32.size a ≤ S32.size a
  hwx0_21 : ∀ i : grid0.Coords, EltTy.bits .f32 = 32 ∨ (Rect.block (s := S32) S32.size (cc0_transform_21 i) (hinb0_21 i)).WholeWords (EltTy.packing .f32)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S32x64.size a ≤ S32x64.size a
  hwx0_22 : ∀ i : grid0.Coords, EltTy.bits .f32 = 32 ∨ (Rect.block (s := S32x64) S32x64.size (cc0_transform_22 i) (hinb0_22 i)).WholeWords (EltTy.packing .f32)
  hstage0_23 : ∀ j, (stage0_23 j).IsWhole
  nbuf0_23 : grid0.bufCount reads0_23 true = 1
  hreads0_23 : ∀ i i' : grid0.Coords, (∀ a, reads0_23 a = true → i a = i' a) → cc0_transform_23 i = cc0_transform_23 i'
  hinb0_23 : ∀ (i : grid0.Coords) a, (cc0_transform_23 i a + 1) * S64.size a ≤ S64.size a
  hwx0_23 : ∀ i : grid0.Coords, EltTy.bits .f32 = 32 ∨ (Rect.block (s := S64) S64.size (cc0_transform_23 i) (hinb0_23 i)).WholeWords (EltTy.packing .f32)
  hstage0_24 : ∀ j, (stage0_24 j).IsWhole
  nbuf0_24 : grid0.bufCount reads0_24 true = 1
  hreads0_24 : ∀ i i' : grid0.Coords, (∀ a, reads0_24 a = true → i a = i' a) → cc0_transform_24 i = cc0_transform_24 i'
  hinb0_24 : ∀ (i : grid0.Coords) a, (cc0_transform_24 i a + 1) * S4x16.size a ≤ S4x16.size a
  hwx0_24 : ∀ i : grid0.Coords, EltTy.bits .f32 = 32 ∨ (Rect.block (s := S4x16) S4x16.size (cc0_transform_24 i) (hinb0_24 i)).WholeWords (EltTy.packing .f32)
  hstage0_25 : ∀ j, (stage0_25 j).IsWhole
  nbuf0_25 : grid0.bufCount reads0_25 true = 1
  hreads0_25 : ∀ i i' : grid0.Coords, (∀ a, reads0_25 a = true → i a = i' a) → cc0_transform_25 i = cc0_transform_25 i'
  hinb0_25 : ∀ (i : grid0.Coords) a, (cc0_transform_25 i a + 1) * S16.size a ≤ S16.size a
  hwx0_25 : ∀ i : grid0.Coords, EltTy.bits .f32 = 32 ∨ (Rect.block (s := S16) S16.size (cc0_transform_25 i) (hinb0_25 i)).WholeWords (EltTy.packing .f32)
  hstage0_26 : ∀ j, (stage0_26 j).IsWhole
  nbuf0_26 : grid0.bufCount reads0_26 true = 1
  hreads0_26 : ∀ i i' : grid0.Coords, (∀ a, reads0_26 a = true → i a = i' a) → cc0_transform_26 i = cc0_transform_26 i'
  hinb0_26 : ∀ (i : grid0.Coords) a, (cc0_transform_26 i a + 1) * S16x32.size a ≤ S16x32.size a
  hwx0_26 : ∀ i : grid0.Coords, EltTy.bits .f32 = 32 ∨ (Rect.block (s := S16x32) S16x32.size (cc0_transform_26 i) (hinb0_26 i)).WholeWords (EltTy.packing .f32)
  hstage0_27 : ∀ j, (stage0_27 j).IsWhole
  nbuf0_27 : grid0.bufCount reads0_27 true = 1
  hreads0_27 : ∀ i i' : grid0.Coords, (∀ a, reads0_27 a = true → i a = i' a) → cc0_transform_27 i = cc0_transform_27 i'
  hinb0_27 : ∀ (i : grid0.Coords) a, (cc0_transform_27 i a + 1) * S32.size a ≤ S32.size a
  hwx0_27 : ∀ i : grid0.Coords, EltTy.bits .f32 = 32 ∨ (Rect.block (s := S32) S32.size (cc0_transform_27 i) (hinb0_27 i)).WholeWords (EltTy.packing .f32)
  hstage0_28 : ∀ j, (stage0_28 j).IsWhole
  nbuf0_28 : grid0.bufCount reads0_28 true = 1
  hreads0_28 : ∀ i i' : grid0.Coords, (∀ a, reads0_28 a = true → i a = i' a) → cc0_transform_28 i = cc0_transform_28 i'
  hinb0_28 : ∀ (i : grid0.Coords) a, (cc0_transform_28 i a + 1) * S384x512.size a ≤ S384x512.size a
  hwx0_28 : ∀ i : grid0.Coords, EltTy.bits .f32 = 32 ∨ (Rect.block (s := S384x512) S384x512.size (cc0_transform_28 i) (hinb0_28 i)).WholeWords (EltTy.packing .f32)
  hstage0_29 : ∀ j, (stage0_29 j).IsWhole
  nbuf0_29 : grid0.bufCount reads0_29 true = 1
  hreads0_29 : ∀ i i' : grid0.Coords, (∀ a, reads0_29 a = true → i a = i' a) → cc0_transform_29 i = cc0_transform_29 i'
  hinb0_29 : ∀ (i : grid0.Coords) a, (cc0_transform_29 i a + 1) * S512.size a ≤ S512.size a
  hwx0_29 : ∀ i : grid0.Coords, EltTy.bits .f32 = 32 ∨ (Rect.block (s := S512) S512.size (cc0_transform_29 i) (hinb0_29 i)).WholeWords (EltTy.packing .f32)
  hstage0_30 : ∀ j, (stage0_30 j).IsWhole
  nbuf0_30 : grid0.bufCount reads0_30 true = 1
  hreads0_30 : ∀ i i' : grid0.Coords, (∀ a, reads0_30 a = true → i a = i' a) → cc0_transform_30 i = cc0_transform_30 i'
  hinb0_30 : ∀ (i : grid0.Coords) a, (cc0_transform_30 i a + 1) * S512x512.size a ≤ S512x512.size a
  hwx0_30 : ∀ i : grid0.Coords, EltTy.bits .f32 = 32 ∨ (Rect.block (s := S512x512) S512x512.size (cc0_transform_30 i) (hinb0_30 i)).WholeWords (EltTy.packing .f32)
  hstage0_31 : ∀ j, (stage0_31 j).IsWhole
  nbuf0_31 : grid0.bufCount reads0_31 true = 1
  hreads0_31 : ∀ i i' : grid0.Coords, (∀ a, reads0_31 a = true → i a = i' a) → cc0_transform_31 i = cc0_transform_31 i'
  hinb0_31 : ∀ (i : grid0.Coords) a, (cc0_transform_31 i a + 1) * S512.size a ≤ S512.size a
  hwx0_31 : ∀ i : grid0.Coords, EltTy.bits .f32 = 32 ∨ (Rect.block (s := S512) S512.size (cc0_transform_31 i) (hinb0_31 i)).WholeWords (EltTy.packing .f32)
  hstage0_32 : ∀ j, (stage0_32 j).IsWhole
  nbuf0_32 : grid0.bufCount reads0_32 true = 1
  hreads0_32 : ∀ i i' : grid0.Coords, (∀ a, reads0_32 a = true → i a = i' a) → cc0_transform_32 i = cc0_transform_32 i'
  hinb0_32 : ∀ (i : grid0.Coords) a, (cc0_transform_32 i a + 1) * S512.size a ≤ S512.size a
  hwx0_32 : ∀ i : grid0.Coords, EltTy.bits .f32 = 32 ∨ (Rect.block (s := S512) S512.size (cc0_transform_32 i) (hinb0_32 i)).WholeWords (EltTy.packing .f32)
  hstage0_33 : ∀ j, (stage0_33 j).IsWhole
  nbuf0_33 : grid0.bufCount reads0_33 true = 1
  hreads0_33 : ∀ i i' : grid0.Coords, (∀ a, reads0_33 a = true → i a = i' a) → cc0_transform_33 i = cc0_transform_33 i'
  hinb0_33 : ∀ (i : grid0.Coords) a, (cc0_transform_33 i a + 1) * S512.size a ≤ S512.size a
  hwx0_33 : ∀ i : grid0.Coords, EltTy.bits .f32 = 32 ∨ (Rect.block (s := S512) S512.size (cc0_transform_33 i) (hinb0_33 i)).WholeWords (EltTy.packing .f32)
  hstage0_34 : ∀ j, (stage0_34 j).IsWhole
  nbuf0_34 : grid0.bufCount reads0_34 false = 2
  hreads0_34 : ∀ i i' : grid0.Coords, (∀ a, reads0_34 a = true → i a = i' a) → cc0_transform_34 i = cc0_transform_34 i'
  hinb0_34 : ∀ (i : grid0.Coords) a, (cc0_transform_34 i a + 1) * S2048x512.size a ≤ S131072x512.size a
  hwx0_34 : ∀ i : grid0.Coords, EltTy.bits .f32 = 32 ∨ (Rect.block (s := S131072x512) S2048x512.size (cc0_transform_34 i) (hinb0_34 i)).WholeWords (EltTy.packing .f32)

variable [Facts₀]

def dot_S2048x8_S8x32_S2048x32_1_0_0_1_n_n : DotDims S2048x8 S8x32 S2048x32 where
  lhsContracting := [1]
  rhsContracting := [0]
  lhsNonContracting := [0]
  rhsNonContracting := [1]
  lhsBatch := []
  rhsBatch := []
  wf := dot_S2048x8_S8x32_S2048x32_1_0_0_1_n_n_wf
def dot_S2048x32_S32x64_S2048x64_1_0_0_1_n_n : DotDims S2048x32 S32x64 S2048x64 where
  lhsContracting := [1]
  rhsContracting := [0]
  lhsNonContracting := [0]
  rhsNonContracting := [1]
  lhsBatch := []
  rhsBatch := []
  wf := dot_S2048x32_S32x64_S2048x64_1_0_0_1_n_n_wf
def dot_S2048x18_S18x64_S2048x64_1_0_0_1_n_n : DotDims S2048x18 S18x64 S2048x64 where
  lhsContracting := [1]
  rhsContracting := [0]
  lhsNonContracting := [0]
  rhsNonContracting := [1]
  lhsBatch := []
  rhsBatch := []
  wf := dot_S2048x18_S18x64_S2048x64_1_0_0_1_n_n_wf
def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf
def dot_S2048x24_S24x64_S2048x64_1_0_0_1_n_n : DotDims S2048x24 S24x64 S2048x64 where
  lhsContracting := [1]
  rhsContracting := [0]
  lhsNonContracting := [0]
  rhsNonContracting := [1]
  lhsBatch := []
  rhsBatch := []
  wf := dot_S2048x24_S24x64_S2048x64_1_0_0_1_n_n_wf
def dot_S2048x64_S64x128_S2048x128_1_0_0_1_n_n : DotDims S2048x64 S64x128 S2048x128 where
  lhsContracting := [1]
  rhsContracting := [0]
  lhsNonContracting := [0]
  rhsNonContracting := [1]
  lhsBatch := []
  rhsBatch := []
  wf := dot_S2048x64_S64x128_S2048x128_1_0_0_1_n_n_wf
def dot_S2048x4_S4x16_S2048x16_1_0_0_1_n_n : DotDims S2048x4 S4x16 S2048x16 where
  lhsContracting := [1]
  rhsContracting := [0]
  lhsNonContracting := [0]
  rhsNonContracting := [1]
  lhsBatch := []
  rhsBatch := []
  wf := dot_S2048x4_S4x16_S2048x16_1_0_0_1_n_n_wf
def dot_S2048x16_S16x32_S2048x32_1_0_0_1_n_n : DotDims S2048x16 S16x32 S2048x32 where
  lhsContracting := [1]
  rhsContracting := [0]
  lhsNonContracting := [0]
  rhsNonContracting := [1]
  lhsBatch := []
  rhsBatch := []
  wf := dot_S2048x16_S16x32_S2048x32_1_0_0_1_n_n_wf
def dot_S2048x12_S12x32_S2048x32_1_0_0_1_n_n : DotDims S2048x12 S12x32 S2048x32 where
  lhsContracting := [1]
  rhsContracting := [0]
  lhsNonContracting := [0]
  rhsNonContracting := [1]
  lhsBatch := []
  rhsBatch := []
  wf := dot_S2048x12_S12x32_S2048x32_1_0_0_1_n_n_wf
def dot_S2048x384_S384x512_S2048x512_1_0_0_1_n_n : DotDims S2048x384 S384x512 S2048x512 where
  lhsContracting := [1]
  rhsContracting := [0]
  lhsNonContracting := [0]
  rhsNonContracting := [1]
  lhsBatch := []
  rhsBatch := []
  wf := dot_S2048x384_S384x512_S2048x512_1_0_0_1_n_n_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf

abbrev win0_0 : Pipeline.Window sig grid0 :=
  Pipeline.Window.ofSpec (Memref.whole main_arg0) S2048x25.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x6.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2048x2.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S8x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S32x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S18x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S64x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S24x64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S64.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S64x128.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg15) S128.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg16) S4x16.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg17) S16.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_arg18) S16x32.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_arg19) S32.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_arg20) S12x32.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_arg21) S32.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_arg22) S32x64.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_arg23) S64.size cc0_transform_23 reads0_23 false true 1 stage0_23 sem0_23
    hrank0 hreads0_23 hinb0_23 nbuf0_23 (Memref.isWhole_whole _) hwx0_23 hstage0_23

abbrev win0_24 : Pipeline.Window sig grid0 :=
  Pipeline.Window.ofSpec (Memref.whole main_arg24) S4x16.size cc0_transform_24 reads0_24 false true 1 stage0_24 sem0_24
    hrank0 hreads0_24 hinb0_24 nbuf0_24 (Memref.isWhole_whole _) hwx0_24 hstage0_24

abbrev win0_25 : Pipeline.Window sig grid0 :=
  Pipeline.Window.ofSpec (Memref.whole main_arg25) S16.size cc0_transform_25 reads0_25 false true 1 stage0_25 sem0_25
    hrank0 hreads0_25 hinb0_25 nbuf0_25 (Memref.isWhole_whole _) hwx0_25 hstage0_25

abbrev win0_26 : Pipeline.Window sig grid0 :=
  Pipeline.Window.ofSpec (Memref.whole main_arg26) S16x32.size cc0_transform_26 reads0_26 false true 1 stage0_26 sem0_26
    hrank0 hreads0_26 hinb0_26 nbuf0_26 (Memref.isWhole_whole _) hwx0_26 hstage0_26

abbrev win0_27 : Pipeline.Window sig grid0 :=
  Pipeline.Window.ofSpec (Memref.whole main_arg27) S32.size cc0_transform_27 reads0_27 false true 1 stage0_27 sem0_27
    hrank0 hreads0_27 hinb0_27 nbuf0_27 (Memref.isWhole_whole _) hwx0_27 hstage0_27

abbrev win0_28 : Pipeline.Window sig grid0 :=
  Pipeline.Window.ofSpec (Memref.whole main_arg28) S384x512.size cc0_transform_28 reads0_28 false true 1 stage0_28 sem0_28
    hrank0 hreads0_28 hinb0_28 nbuf0_28 (Memref.isWhole_whole _) hwx0_28 hstage0_28

abbrev win0_29 : Pipeline.Window sig grid0 :=
  Pipeline.Window.ofSpec (Memref.whole main_arg29) S512.size cc0_transform_29 reads0_29 false true 1 stage0_29 sem0_29
    hrank0 hreads0_29 hinb0_29 nbuf0_29 (Memref.isWhole_whole _) hwx0_29 hstage0_29

abbrev win0_30 : Pipeline.Window sig grid0 :=
  Pipeline.Window.ofSpec (Memref.whole main_arg30) S512x512.size cc0_transform_30 reads0_30 false true 1 stage0_30 sem0_30
    hrank0 hreads0_30 hinb0_30 nbuf0_30 (Memref.isWhole_whole _) hwx0_30 hstage0_30

abbrev win0_31 : Pipeline.Window sig grid0 :=
  Pipeline.Window.ofSpec (Memref.whole main_arg31) S512.size cc0_transform_31 reads0_31 false true 1 stage0_31 sem0_31
    hrank0 hreads0_31 hinb0_31 nbuf0_31 (Memref.isWhole_whole _) hwx0_31 hstage0_31

abbrev win0_32 : Pipeline.Window sig grid0 :=
  Pipeline.Window.ofSpec (Memref.whole main_arg32) S512.size cc0_transform_32 reads0_32 false true 1 stage0_32 sem0_32
    hrank0 hreads0_32 hinb0_32 nbuf0_32 (Memref.isWhole_whole _) hwx0_32 hstage0_32

abbrev win0_33 : Pipeline.Window sig grid0 :=
  Pipeline.Window.ofSpec (Memref.whole main_arg33) S512.size cc0_transform_33 reads0_33 false true 1 stage0_33 sem0_33
    hrank0 hreads0_33 hinb0_33 nbuf0_33 (Memref.isWhole_whole _) hwx0_33 hstage0_33

abbrev win0_34 : Pipeline.Window sig grid0 :=
  Pipeline.Window.ofSpec (Memref.whole main_v0) S2048x512.size cc0_transform_34 reads0_34 true false 2 stage0_34 sem0_34
    hrank0 hreads0_34 hinb0_34 nbuf0_34 (Memref.isWhole_whole _) hwx0_34 hstage0_34

abbrev win0 : Fin 35 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | 26 => win0_26 | 27 => win0_27 | 28 => win0_28 | 29 => win0_29 | 30 => win0_30 | 31 => win0_31 | 32 => win0_32 | 33 => win0_33 | 34 => win0_34 | ⟨_ + 35, h⟩ => absurd h (Nat.not_lt.2 (Nat.le_add_left _ _))
abbrev spec0 : Fin 35 → Pipeline.WinSpec sig grid0.rank := fun w => (win0 w).toWinSpec

class Facts : Prop extends Facts₀ where

variable [Facts]
-- ==== ReferenceIdeal.lean ====
abbrev S131072x25 : Shape := ⟨2, ![131072, 25]⟩
abbrev S131072x2 : Shape := ⟨2, ![131072, 2]⟩
abbrev S131072x6 : Shape := ⟨2, ![131072, 6]⟩
abbrev S8x32 : Shape := ⟨2, ![8, 32]⟩
abbrev S32 : Shape := ⟨1, ![32]⟩
abbrev S32x64 : Shape := ⟨2, ![32, 64]⟩
abbrev S64 : Shape := ⟨1, ![64]⟩
abbrev S18x64 : Shape := ⟨2, ![18, 64]⟩
abbrev S64x64 : Shape := ⟨2, ![64, 64]⟩
abbrev S24x64 : Shape := ⟨2, ![24, 64]⟩
abbrev S64x128 : Shape := ⟨2, ![64, 128]⟩
abbrev S128 : Shape := ⟨1, ![128]⟩
abbrev S4x16 : Shape := ⟨2, ![4, 16]⟩
abbrev S16 : Shape := ⟨1, ![16]⟩
abbrev S16x32 : Shape := ⟨2, ![16, 32]⟩
abbrev S12x32 : Shape := ⟨2, ![12, 32]⟩
abbrev S384x512 : Shape := ⟨2, ![384, 512]⟩
abbrev S512 : Shape := ⟨1, ![512]⟩
abbrev S512x512 : Shape := ⟨2, ![512, 512]⟩
abbrev S_ : Shape := ⟨0, ![]⟩
abbrev S131072x25x1 : Shape := ⟨3, ![131072, 25, 1]⟩
abbrev S131072x25x2 : Shape := ⟨3, ![131072, 25, 2]⟩
abbrev S131072x50 : Shape := ⟨2, ![131072, 50]⟩
abbrev S131072x2x1 : Shape := ⟨3, ![131072, 2, 1]⟩
abbrev S131072x2x2 : Shape := ⟨3, ![131072, 2, 2]⟩
abbrev S131072x4 : Shape := ⟨2, ![131072, 4]⟩
abbrev S131072x6x1 : Shape := ⟨3, ![131072, 6, 1]⟩
abbrev S131072x6x2 : Shape := ⟨3, ![131072, 6, 2]⟩
abbrev S131072x12 : Shape := ⟨2, ![131072, 12]⟩
abbrev S131072x14 : Shape := ⟨2, ![131072, 14]⟩
abbrev S131072x8 : Shape := ⟨2, ![131072, 8]⟩
abbrev S131072x24 : Shape := ⟨2, ![131072, 24]⟩
abbrev S131072x18 : Shape := ⟨2, ![131072, 18]⟩
abbrev S131072x32 : Shape := ⟨2, ![131072, 32]⟩
abbrev S1x32 : Shape := ⟨2, ![1, 32]⟩
abbrev S131072x64 : Shape := ⟨2, ![131072, 64]⟩
abbrev S1x64 : Shape := ⟨2, ![1, 64]⟩
abbrev S131072x128 : Shape := ⟨2, ![131072, 128]⟩
abbrev S1x128 : Shape := ⟨2, ![1, 128]⟩
abbrev S131072x16 : Shape := ⟨2, ![131072, 16]⟩
abbrev S1x16 : Shape := ⟨2, ![1, 16]⟩
abbrev S131072x384 : Shape := ⟨2, ![131072, 384]⟩
abbrev S131072x512 : Shape := ⟨2, ![131072, 512]⟩
abbrev S1x512 : Shape := ⟨2, ![1, 512]⟩
abbrev S131072 : Shape := ⟨1, ![131072]⟩
abbrev S131072x1 : Shape := ⟨2, ![131072, 1]⟩

abbrev nBuf : Space → Nat
  | .hbm => 248
  | .vmem => 0
  | .smem => 0
  | _ => 0

abbrev hbmTy0_0 (i : Nat) : BufTy := match i % 128 with
  | 0 => ⟨S131072x25, .f32⟩
  | 1 => ⟨S131072x2, .f32⟩
  | 2 => ⟨S131072x6, .f32⟩
  | 3 => ⟨S131072x2, .f32⟩
  | 4 => ⟨S8x32, .f32⟩
  | 5 => ⟨S32, .f32⟩
  | 6 => ⟨S32x64, .f32⟩
  | 7 => ⟨S64, .f32⟩
  | 8 => ⟨S18x64, .f32⟩
  | 9 => ⟨S64, .f32⟩
  | 10 => ⟨S64x64, .f32⟩
  | 11 => ⟨S64, .f32⟩
  | 12 => ⟨S24x64, .f32⟩
  | 13 => ⟨S64, .f32⟩
  | 14 => ⟨S64x128, .f32⟩
  | 15 => ⟨S128, .f32⟩
  | 16 => ⟨S4x16, .f32⟩
  | 17 => ⟨S16, .f32⟩
  | 18 => ⟨S16x32, .f32⟩
  | 19 => ⟨S32, .f32⟩
  | 20 => ⟨S12x32, .f32⟩
  | 21 => ⟨S32, .f32⟩
  | 22 => ⟨S32x64, .f32⟩
  | 23 => ⟨S64, .f32⟩
  | 24 => ⟨S4x16, .f32⟩
  | 25 => ⟨S16, .f32⟩
  | 26 => ⟨S16x32, .f32⟩
  | 27 => ⟨S32, .f32⟩
  | 28 => ⟨S384x512, .f32⟩
  | 29 => ⟨S512, .f32⟩
  | 30 => ⟨S512x512, .f32⟩
  | 31 => ⟨S512, .f32⟩
  | 32 => ⟨S512, .f32⟩
  | 33 => ⟨S512, .f32⟩
  | 34 => ⟨S131072x25, .f32⟩
  | 35 => ⟨S131072x25, .f32⟩
  | 36 => ⟨S_, .f32⟩
  | 37 => ⟨S131072x25, .f32⟩
  | 38 => ⟨S131072x25, .f32⟩
  | 39 => ⟨S131072x25, .f32⟩
  | 40 => ⟨S131072x25, .f32⟩
  | 41 => ⟨S131072x25, .f32⟩
  | 42 => ⟨S_, .f32⟩
  | 43 => ⟨S131072x25, .f32⟩
  | 44 => ⟨S131072x25, .f32⟩
  | 45 => ⟨S_, .f32⟩
  | 46 => ⟨S131072x25, .f32⟩
  | 47 => ⟨S131072x25, .f32⟩
  | 48 => ⟨S131072x25x1, .f32⟩
  | 49 => ⟨S131072x25x1, .f32⟩
  | 50 => ⟨S131072x25x2, .f32⟩
  | 51 => ⟨S131072x50, .f32⟩
  | 52 => ⟨S131072x2, .f32⟩
  | 53 => ⟨S131072x2, .f32⟩
  | 54 => ⟨S_, .f32⟩
  | 55 => ⟨S131072x2, .f32⟩
  | 56 => ⟨S131072x2, .f32⟩
  | 57 => ⟨S131072x2, .f32⟩
  | 58 => ⟨S131072x2, .f32⟩
  | 59 => ⟨S131072x2, .f32⟩
  | 60 => ⟨S_, .f32⟩
  | 61 => ⟨S131072x2, .f32⟩
  | 62 => ⟨S131072x2, .f32⟩
  | 63 => ⟨S_, .f32⟩
  | 64 => ⟨S131072x2, .f32⟩
  | 65 => ⟨S131072x2, .f32⟩
  | 66 => ⟨S131072x2x1, .f32⟩
  | 67 => ⟨S131072x2x1, .f32⟩
  | 68 => ⟨S131072x2x2, .f32⟩
  | 69 => ⟨S131072x4, .f32⟩
  | 70 => ⟨S131072x6, .f32⟩
  | 71 => ⟨S131072x6, .f32⟩
  | 72 => ⟨S_, .f32⟩
  | 73 => ⟨S131072x6, .f32⟩
  | 74 => ⟨S131072x6, .f32⟩
  | 75 => ⟨S131072x6, .f32⟩
  | 76 => ⟨S131072x6, .f32⟩
  | 77 => ⟨S131072x6, .f32⟩
  | 78 => ⟨S_, .f32⟩
  | 79 => ⟨S131072x6, .f32⟩
  | 80 => ⟨S131072x6, .f32⟩
  | 81 => ⟨S_, .f32⟩
  | 82 => ⟨S131072x6, .f32⟩
  | 83 => ⟨S131072x6, .f32⟩
  | 84 => ⟨S131072x6x1, .f32⟩
  | 85 => ⟨S131072x6x1, .f32⟩
  | 86 => ⟨S131072x6x2, .f32⟩
  | 87 => ⟨S131072x12, .f32⟩
  | 88 => ⟨S131072x2, .f32⟩
  | 89 => ⟨S131072x2, .f32⟩
  | 90 => ⟨S_, .f32⟩
  | 91 => ⟨S131072x2, .f32⟩
  | 92 => ⟨S131072x2, .f32⟩
  | 93 => ⟨S131072x2, .f32⟩
  | 94 => ⟨S131072x2, .f32⟩
  | 95 => ⟨S131072x2, .f32⟩
  | 96 => ⟨S_, .f32⟩
  | 97 => ⟨S131072x2, .f32⟩
  | 98 => ⟨S131072x2, .f32⟩
  | 99 => ⟨S_, .f32⟩
  | 100 => ⟨S131072x2, .f32⟩
  | 101 => ⟨S131072x2, .f32⟩
  | 102 => ⟨S131072x2x1, .f32⟩
  | 103 => ⟨S131072x2x1, .f32⟩
  | 104 => ⟨S131072x2x2, .f32⟩
  | 105 => ⟨S131072x4, .f32⟩
  | 106 => ⟨S131072x14, .f32⟩
  | 107 => ⟨S131072x14, .f32⟩
  | 108 => ⟨S131072x14, .f32⟩
  | 109 => ⟨S131072x8, .f32⟩
  | 110 => ⟨S131072x8, .f32⟩
  | 111 => ⟨S131072x8, .f32⟩
  | 112 => ⟨S131072x24, .f32⟩
  | 113 => ⟨S131072x6, .f32⟩
  | 114 => ⟨S131072x6, .f32⟩
  | 115 => ⟨S131072x6, .f32⟩
  | 116 => ⟨S131072x18, .f32⟩
  | 117 => ⟨S131072x2, .f32⟩
  | 118 => ⟨S131072x2, .f32⟩
  | 119 => ⟨S131072x8, .f32⟩
  | 120 => ⟨S131072x2, .f32⟩
  | 121 => ⟨S131072x2, .f32⟩
  | 122 => ⟨S131072x4, .f32⟩
  | 123 => ⟨S131072x32, .f32⟩
  | 124 => ⟨S1x32, .f32⟩
  | 125 => ⟨S131072x32, .f32⟩
  | 126 => ⟨S131072x32, .f32⟩
  | 127 => ⟨S_, .f32⟩
  | _ => ⟨S131072x25, .f32⟩

abbrev hbmTy0_1 (i : Nat) : BufTy := match i % 128 with
  | 0 => ⟨S131072x32, .f32⟩
  | 1 => ⟨S131072x32, .f32⟩
  | 2 => ⟨S131072x64, .f32⟩
  | 3 => ⟨S1x64, .f32⟩
  | 4 => ⟨S131072x64, .f32⟩
  | 5 => ⟨S131072x64, .f32⟩
  | 6 => ⟨S_, .f32⟩
  | 7 => ⟨S131072x64, .f32⟩
  | 8 => ⟨S131072x64, .f32⟩
  | 9 => ⟨S131072x64, .f32⟩
  | 10 => ⟨S1x64, .f32⟩
  | 11 => ⟨S131072x64, .f32⟩
  | 12 => ⟨S131072x64, .f32⟩
  | 13 => ⟨S_, .f32⟩
  | 14 => ⟨S131072x64, .f32⟩
  | 15 => ⟨S131072x64, .f32⟩
  | 16 => ⟨S131072x64, .f32⟩
  | 17 => ⟨S1x64, .f32⟩
  | 18 => ⟨S131072x64, .f32⟩
  | 19 => ⟨S131072x64, .f32⟩
  | 20 => ⟨S_, .f32⟩
  | 21 => ⟨S131072x64, .f32⟩
  | 22 => ⟨S131072x64, .f32⟩
  | 23 => ⟨S131072x64, .f32⟩
  | 24 => ⟨S1x64, .f32⟩
  | 25 => ⟨S131072x64, .f32⟩
  | 26 => ⟨S131072x64, .f32⟩
  | 27 => ⟨S_, .f32⟩
  | 28 => ⟨S131072x64, .f32⟩
  | 29 => ⟨S131072x64, .f32⟩
  | 30 => ⟨S131072x128, .f32⟩
  | 31 => ⟨S1x128, .f32⟩
  | 32 => ⟨S131072x128, .f32⟩
  | 33 => ⟨S131072x128, .f32⟩
  | 34 => ⟨S_, .f32⟩
  | 35 => ⟨S131072x128, .f32⟩
  | 36 => ⟨S131072x128, .f32⟩
  | 37 => ⟨S131072x16, .f32⟩
  | 38 => ⟨S1x16, .f32⟩
  | 39 => ⟨S131072x16, .f32⟩
  | 40 => ⟨S131072x16, .f32⟩
  | 41 => ⟨S_, .f32⟩
  | 42 => ⟨S131072x16, .f32⟩
  | 43 => ⟨S131072x16, .f32⟩
  | 44 => ⟨S131072x32, .f32⟩
  | 45 => ⟨S1x32, .f32⟩
  | 46 => ⟨S131072x32, .f32⟩
  | 47 => ⟨S131072x32, .f32⟩
  | 48 => ⟨S_, .f32⟩
  | 49 => ⟨S131072x32, .f32⟩
  | 50 => ⟨S131072x32, .f32⟩
  | 51 => ⟨S131072x32, .f32⟩
  | 52 => ⟨S1x32, .f32⟩
  | 53 => ⟨S131072x32, .f32⟩
  | 54 => ⟨S131072x32, .f32⟩
  | 55 => ⟨S_, .f32⟩
  | 56 => ⟨S131072x32, .f32⟩
  | 57 => ⟨S131072x32, .f32⟩
  | 58 => ⟨S131072x64, .f32⟩
  | 59 => ⟨S1x64, .f32⟩
  | 60 => ⟨S131072x64, .f32⟩
  | 61 => ⟨S131072x64, .f32⟩
  | 62 => ⟨S_, .f32⟩
  | 63 => ⟨S131072x64, .f32⟩
  | 64 => ⟨S131072x64, .f32⟩
  | 65 => ⟨S131072x16, .f32⟩
  | 66 => ⟨S1x16, .f32⟩
  | 67 => ⟨S131072x16, .f32⟩
  | 68 => ⟨S131072x16, .f32⟩
  | 69 => ⟨S_, .f32⟩
  | 70 => ⟨S131072x16, .f32⟩
  | 71 => ⟨S131072x16, .f32⟩
  | 72 => ⟨S131072x32, .f32⟩
  | 73 => ⟨S1x32, .f32⟩
  | 74 => ⟨S131072x32, .f32⟩
  | 75 => ⟨S131072x32, .f32⟩
  | 76 => ⟨S_, .f32⟩
  | 77 => ⟨S131072x32, .f32⟩
  | 78 => ⟨S131072x32, .f32⟩
  | 79 => ⟨S131072x384, .f32⟩
  | 80 => ⟨S131072x512, .f32⟩
  | 81 => ⟨S1x512, .f32⟩
  | 82 => ⟨S131072x512, .f32⟩
  | 83 => ⟨S131072x512, .f32⟩
  | 84 => ⟨S_, .f32⟩
  | 85 => ⟨S131072x512, .f32⟩
  | 86 => ⟨S131072x512, .f32⟩
  | 87 => ⟨S131072x512, .f32⟩
  | 88 => ⟨S1x512, .f32⟩
  | 89 => ⟨S131072x512, .f32⟩
  | 90 => ⟨S131072x512, .f32⟩
  | 91 => ⟨S_, .f32⟩
  | 92 => ⟨S131072, .f32⟩
  | 93 => ⟨S131072x1, .f32⟩
  | 94 => ⟨S_, .f32⟩
  | 95 => ⟨S131072x1, .f32⟩
  | 96 => ⟨S131072x1, .f32⟩
  | 97 => ⟨S131072x512, .f32⟩
  | 98 => ⟨S131072x512, .f32⟩
  | 99 => ⟨S131072x512, .f32⟩
  | 100 => ⟨S_, .f32⟩
  | 101 => ⟨S131072, .f32⟩
  | 102 => ⟨S131072x1, .f32⟩
  | 103 => ⟨S_, .f32⟩
  | 104 => ⟨S131072x1, .f32⟩
  | 105 => ⟨S131072x1, .f32⟩
  | 106 => ⟨S131072x512, .f32⟩
  | 107 => ⟨S131072x512, .f32⟩
  | 108 => ⟨S_, .f32⟩
  | 109 => ⟨S131072x1, .f32⟩
  | 110 => ⟨S131072x1, .f32⟩
  | 111 => ⟨S131072x1, .f32⟩
  | 112 => ⟨S131072x512, .f32⟩
  | 113 => ⟨S131072x512, .f32⟩
  | 114 => ⟨S1x512, .f32⟩
  | 115 => ⟨S131072x512, .f32⟩
  | 116 => ⟨S131072x512, .f32⟩
  | 117 => ⟨S1x512, .f32⟩
  | 118 => ⟨S131072x512, .f32⟩
  | 119 => ⟨S131072x512, .f32⟩
  | _ => ⟨S131072x25, .f32⟩

abbrev hbmTy (i : Nat) : BufTy := match i / 128 with
  | 0 => hbmTy0_0 i
  | 1 => hbmTy0_1 i
  | _ => ⟨S131072x25, .f32⟩

abbrev bufTy : (tb : Table) → Fin (tcTables nBuf tb) → BufTy
  | .hbm, ⟨i, _⟩ => hbmTy i
  | _, _ => ⟨S131072x25, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_v0 : Ref sig .tc := ⟨.hbm, 34, rfl⟩
abbrev main_v1 : Ref sig .tc := ⟨.hbm, 35, rfl⟩
abbrev main_cst : Ref sig .tc := ⟨.hbm, 36, rfl⟩
abbrev main_v2 : Ref sig .tc := ⟨.hbm, 37, rfl⟩
abbrev main_v3 : Ref sig .tc := ⟨.hbm, 38, rfl⟩
abbrev main_v4 : Ref sig .tc := ⟨.hbm, 39, rfl⟩
abbrev main_v5 : Ref sig .tc := ⟨.hbm, 40, rfl⟩
abbrev main_v6 : Ref sig .tc := ⟨.hbm, 41, rfl⟩
abbrev main_cst_0 : Ref sig .tc := ⟨.hbm, 42, rfl⟩
abbrev main_v7 : Ref sig .tc := ⟨.hbm, 43, rfl⟩
abbrev main_v8 : Ref sig .tc := ⟨.hbm, 44, rfl⟩
abbrev main_cst_1 : Ref sig .tc := ⟨.hbm, 45, rfl⟩
abbrev main_v9 : Ref sig .tc := ⟨.hbm, 46, rfl⟩
abbrev main_v10 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_cst_2 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_cst_3 : Ref sig .tc := ⟨.hbm, 60, rfl⟩
abbrev main_v22 : Ref sig .tc := ⟨.hbm, 61, rfl⟩
abbrev main_v23 : Ref sig .tc := ⟨.hbm, 62, rfl⟩
abbrev main_cst_4 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_cst_5 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_cst_6 : Ref sig .tc := ⟨.hbm, 78, rfl⟩
abbrev main_v37 : Ref sig .tc := ⟨.hbm, 79, rfl⟩
abbrev main_v38 : Ref sig .tc := ⟨.hbm, 80, rfl⟩
abbrev main_cst_7 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_cst_8 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_cst_9 : Ref sig .tc := ⟨.hbm, 96, rfl⟩
abbrev main_v52 : Ref sig .tc := ⟨.hbm, 97, rfl⟩
abbrev main_v53 : Ref sig .tc := ⟨.hbm, 98, rfl⟩
abbrev main_cst_10 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_call0_cst : Ref sig .tc := ⟨.hbm, 127, rfl⟩
abbrev main_call0_v0 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_call1_cst : Ref sig .tc := ⟨.hbm, 134, rfl⟩
abbrev main_call1_v0 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_call2_cst : Ref sig .tc := ⟨.hbm, 141, rfl⟩
abbrev main_call2_v0 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_call3_cst : Ref sig .tc := ⟨.hbm, 148, rfl⟩
abbrev main_call3_v0 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_call4_cst : Ref sig .tc := ⟨.hbm, 155, rfl⟩
abbrev main_call4_v0 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_call5_cst : Ref sig .tc := ⟨.hbm, 162, rfl⟩
abbrev main_call5_v0 : Ref sig .tc := ⟨.hbm, 163, rfl⟩
abbrev main_v106 : Ref sig .tc := ⟨.hbm, 164, rfl⟩
abbrev main_v107 : Ref sig .tc := ⟨.hbm, 165, rfl⟩
abbrev main_v108 : Ref sig .tc := ⟨.hbm, 166, rfl⟩
abbrev main_v109 : Ref sig .tc := ⟨.hbm, 167, rfl⟩
abbrev main_v110 : Ref sig .tc := ⟨.hbm, 168, rfl⟩
abbrev main_call6_cst : Ref sig .tc := ⟨.hbm, 169, rfl⟩
abbrev main_call6_v0 : Ref sig .tc := ⟨.hbm, 170, rfl⟩
abbrev main_v111 : Ref sig .tc := ⟨.hbm, 171, rfl⟩
abbrev main_v112 : Ref sig .tc := ⟨.hbm, 172, rfl⟩
abbrev main_v113 : Ref sig .tc := ⟨.hbm, 173, rfl⟩
abbrev main_v114 : Ref sig .tc := ⟨.hbm, 174, rfl⟩
abbrev main_v115 : Ref sig .tc := ⟨.hbm, 175, rfl⟩
abbrev main_call7_cst : Ref sig .tc := ⟨.hbm, 176, rfl⟩
abbrev main_call7_v0 : Ref sig .tc := ⟨.hbm, 177, rfl⟩
abbrev main_v116 : Ref sig .tc := ⟨.hbm, 178, rfl⟩
abbrev main_v117 : Ref sig .tc := ⟨.hbm, 179, rfl⟩
abbrev main_v118 : Ref sig .tc := ⟨.hbm, 180, rfl⟩
abbrev main_v119 : Ref sig .tc := ⟨.hbm, 181, rfl⟩
abbrev main_v120 : Ref sig .tc := ⟨.hbm, 182, rfl⟩
abbrev main_call8_cst : Ref sig .tc := ⟨.hbm, 183, rfl⟩
abbrev main_call8_v0 : Ref sig .tc := ⟨.hbm, 184, rfl⟩
abbrev main_v121 : Ref sig .tc := ⟨.hbm, 185, rfl⟩
abbrev main_v122 : Ref sig .tc := ⟨.hbm, 186, rfl⟩
abbrev main_v123 : Ref sig .tc := ⟨.hbm, 187, rfl⟩
abbrev main_v124 : Ref sig .tc := ⟨.hbm, 188, rfl⟩
abbrev main_v125 : Ref sig .tc := ⟨.hbm, 189, rfl⟩
abbrev main_call9_cst : Ref sig .tc := ⟨.hbm, 190, rfl⟩
abbrev main_call9_v0 : Ref sig .tc := ⟨.hbm, 191, rfl⟩
abbrev main_v126 : Ref sig .tc := ⟨.hbm, 192, rfl⟩
abbrev main_v127 : Ref sig .tc := ⟨.hbm, 193, rfl⟩
abbrev main_v128 : Ref sig .tc := ⟨.hbm, 194, rfl⟩
abbrev main_v129 : Ref sig .tc := ⟨.hbm, 195, rfl⟩
abbrev main_v130 : Ref sig .tc := ⟨.hbm, 196, rfl⟩
abbrev main_call10_cst : Ref sig .tc := ⟨.hbm, 197, rfl⟩
abbrev main_call10_v0 : Ref sig .tc := ⟨.hbm, 198, rfl⟩
abbrev main_v131 : Ref sig .tc := ⟨.hbm, 199, rfl⟩
abbrev main_v132 : Ref sig .tc := ⟨.hbm, 200, rfl⟩
abbrev main_v133 : Ref sig .tc := ⟨.hbm, 201, rfl⟩
abbrev main_v134 : Ref sig .tc := ⟨.hbm, 202, rfl⟩
abbrev main_v135 : Ref sig .tc := ⟨.hbm, 203, rfl⟩
abbrev main_call11_cst : Ref sig .tc := ⟨.hbm, 204, rfl⟩
abbrev main_call11_v0 : Ref sig .tc := ⟨.hbm, 205, rfl⟩
abbrev main_v136 : Ref sig .tc := ⟨.hbm, 206, rfl⟩
abbrev main_v137 : Ref sig .tc := ⟨.hbm, 207, rfl⟩
abbrev main_v138 : Ref sig .tc := ⟨.hbm, 208, rfl⟩
abbrev main_v139 : Ref sig .tc := ⟨.hbm, 209, rfl⟩
abbrev main_v140 : Ref sig .tc := ⟨.hbm, 210, rfl⟩
abbrev main_v141 : Ref sig .tc := ⟨.hbm, 211, rfl⟩
abbrev main_call12_cst : Ref sig .tc := ⟨.hbm, 212, rfl⟩
abbrev main_call12_v0 : Ref sig .tc := ⟨.hbm, 213, rfl⟩
abbrev main_v142 : Ref sig .tc := ⟨.hbm, 214, rfl⟩
abbrev main_v143 : Ref sig .tc := ⟨.hbm, 215, rfl⟩
abbrev main_v144 : Ref sig .tc := ⟨.hbm, 216, rfl⟩
abbrev main_v145 : Ref sig .tc := ⟨.hbm, 217, rfl⟩
abbrev main_v146 : Ref sig .tc := ⟨.hbm, 218, rfl⟩
abbrev main_cst_11 : Ref sig .tc := ⟨.hbm, 219, rfl⟩
abbrev main_v147 : Ref sig .tc := ⟨.hbm, 220, rfl⟩
abbrev main_v148 : Ref sig .tc := ⟨.hbm, 221, rfl⟩
abbrev main_cst_12 : Ref sig .tc := ⟨.hbm, 222, rfl⟩
abbrev main_v149 : Ref sig .tc := ⟨.hbm, 223, rfl⟩
abbrev main_v150 : Ref sig .tc := ⟨.hbm, 224, rfl⟩
abbrev main_v151 : Ref sig .tc := ⟨.hbm, 225, rfl⟩
abbrev main_v152 : Ref sig .tc := ⟨.hbm, 226, rfl⟩
abbrev main_v153 : Ref sig .tc := ⟨.hbm, 227, rfl⟩
abbrev main_cst_13 : Ref sig .tc := ⟨.hbm, 228, rfl⟩
abbrev main_v154 : Ref sig .tc := ⟨.hbm, 229, rfl⟩
abbrev main_v155 : Ref sig .tc := ⟨.hbm, 230, rfl⟩
abbrev main_cst_14 : Ref sig .tc := ⟨.hbm, 231, rfl⟩
abbrev main_v156 : Ref sig .tc := ⟨.hbm, 232, rfl⟩
abbrev main_v157 : Ref sig .tc := ⟨.hbm, 233, rfl⟩
abbrev main_v158 : Ref sig .tc := ⟨.hbm, 234, rfl⟩
abbrev main_v159 : Ref sig .tc := ⟨.hbm, 235, rfl⟩
abbrev main_cst_15 : Ref sig .tc := ⟨.hbm, 236, rfl⟩
abbrev main_v160 : Ref sig .tc := ⟨.hbm, 237, rfl⟩
abbrev main_v161 : Ref sig .tc := ⟨.hbm, 238, rfl⟩
abbrev main_v162 : Ref sig .tc := ⟨.hbm, 239, rfl⟩
abbrev main_v163 : Ref sig .tc := ⟨.hbm, 240, rfl⟩
abbrev main_v164 : Ref sig .tc := ⟨.hbm, 241, rfl⟩
abbrev main_v165 : Ref sig .tc := ⟨.hbm, 242, rfl⟩
abbrev main_v166 : Ref sig .tc := ⟨.hbm, 243, rfl⟩
abbrev main_v167 : Ref sig .tc := ⟨.hbm, 244, rfl⟩
abbrev main_v168 : Ref sig .tc := ⟨.hbm, 245, rfl⟩
abbrev main_v169 : Ref sig .tc := ⟨.hbm, 246, rfl⟩
abbrev main_v170 : Ref sig .tc := ⟨.hbm, 247, rfl⟩

abbrev nD : Nat := 1
abbrev τ : Topo := Topo.v7x

variable {F : FTy → Type} [FloatOps F]

class Facts₀ : Prop where
  bcast_S_S131072x25 : S_.BroadcastsInDim S131072x25 (![] : Fin 0 → Fin S131072x25.rank)
  bcast_S131072x25_S131072x25x1_0_1 : S131072x25.BroadcastsInDim S131072x25x1 (![0, 1] : Fin 2 → Fin S131072x25x1.rank)
  concatenates_S131072x25x1_S131072x25x1_S131072x25x2_d2 : Shape.Concatenates [S131072x25x1, S131072x25x1] S131072x25x2 2
  shapeCasts_S131072x25x2_S131072x50 : S131072x25x2.ShapeCasts S131072x50
  bcast_S_S131072x2 : S_.BroadcastsInDim S131072x2 (![] : Fin 0 → Fin S131072x2.rank)
  bcast_S131072x2_S131072x2x1_0_1 : S131072x2.BroadcastsInDim S131072x2x1 (![0, 1] : Fin 2 → Fin S131072x2x1.rank)
  concatenates_S131072x2x1_S131072x2x1_S131072x2x2_d2 : Shape.Concatenates [S131072x2x1, S131072x2x1] S131072x2x2 2
  shapeCasts_S131072x2x2_S131072x4 : S131072x2x2.ShapeCasts S131072x4
  bcast_S_S131072x6 : S_.BroadcastsInDim S131072x6 (![] : Fin 0 → Fin S131072x6.rank)
  bcast_S131072x6_S131072x6x1_0_1 : S131072x6.BroadcastsInDim S131072x6x1 (![0, 1] : Fin 2 → Fin S131072x6x1.rank)
  concatenates_S131072x6x1_S131072x6x1_S131072x6x2_d2 : Shape.Concatenates [S131072x6x1, S131072x6x1] S131072x6x2 2
  shapeCasts_S131072x6x2_S131072x12 : S131072x6x2.ShapeCasts S131072x12
  slices_S131072x50_S131072x14_0_0 : S131072x50.Slices ![0, 0] S131072x14
  slices_S131072x50_S131072x14_0_14 : S131072x50.Slices ![0, 14] S131072x14
  slices_S131072x50_S131072x14_0_28 : S131072x50.Slices ![0, 28] S131072x14
  slices_S131072x14_S131072x8_0_0 : S131072x14.Slices ![0, 0] S131072x8
  concatenates_S131072x8_S131072x8_S131072x8_S131072x24_d1 : Shape.Concatenates [S131072x8, S131072x8, S131072x8] S131072x24 1
  slices_S131072x14_S131072x6_0_8 : S131072x14.Slices ![0, 8] S131072x6
  concatenates_S131072x6_S131072x6_S131072x6_S131072x18_d1 : Shape.Concatenates [S131072x6, S131072x6, S131072x6] S131072x18 1
  slices_S131072x50_S131072x2_0_42 : S131072x50.Slices ![0, 42] S131072x2
  slices_S131072x50_S131072x2_0_44 : S131072x50.Slices ![0, 44] S131072x2
  concatenates_S131072x2_S131072x2_S131072x4_S131072x8_d1 : Shape.Concatenates [S131072x2, S131072x2, S131072x4] S131072x8 1
  slices_S131072x50_S131072x2_0_46 : S131072x50.Slices ![0, 46] S131072x2
  slices_S131072x50_S131072x2_0_48 : S131072x50.Slices ![0, 48] S131072x2
  concatenates_S131072x2_S131072x2_S131072x4_d1 : Shape.Concatenates [S131072x2, S131072x2] S131072x4 1
  bcast_S32_S1x32_1 : S32.BroadcastsInDim S1x32 (![1] : Fin 1 → Fin S1x32.rank)
  bcast_S1x32_S131072x32_0_1 : S1x32.BroadcastsInDim S131072x32 (![0, 1] : Fin 2 → Fin S131072x32.rank)
  bcast_S_S131072x32 : S_.BroadcastsInDim S131072x32 (![] : Fin 0 → Fin S131072x32.rank)
  bcast_S64_S1x64_1 : S64.BroadcastsInDim S1x64 (![1] : Fin 1 → Fin S1x64.rank)
  bcast_S1x64_S131072x64_0_1 : S1x64.BroadcastsInDim S131072x64 (![0, 1] : Fin 2 → Fin S131072x64.rank)
  bcast_S_S131072x64 : S_.BroadcastsInDim S131072x64 (![] : Fin 0 → Fin S131072x64.rank)
  bcast_S128_S1x128_1 : S128.BroadcastsInDim S1x128 (![1] : Fin 1 → Fin S1x128.rank)
  bcast_S1x128_S131072x128_0_1 : S1x128.BroadcastsInDim S131072x128 (![0, 1] : Fin 2 → Fin S131072x128.rank)
  bcast_S_S131072x128 : S_.BroadcastsInDim S131072x128 (![] : Fin 0 → Fin S131072x128.rank)
  bcast_S16_S1x16_1 : S16.BroadcastsInDim S1x16 (![1] : Fin 1 → Fin S1x16.rank)
  bcast_S1x16_S131072x16_0_1 : S1x16.BroadcastsInDim S131072x16 (![0, 1] : Fin 2 → Fin S131072x16.rank)
  bcast_S_S131072x16 : S_.BroadcastsInDim S131072x16 (![] : Fin 0 → Fin S131072x16.rank)
  concatenates_S131072x64_S131072x64_S131072x128_S131072x32_S131072x64_S131072x32_S131072x384_d1 : Shape.Concatenates [S131072x64, S131072x64, S131072x128, S131072x32, S131072x64, S131072x32] S131072x384 1
  bcast_S512_S1x512_1 : S512.BroadcastsInDim S1x512 (![1] : Fin 1 → Fin S1x512.rank)
  bcast_S1x512_S131072x512_0_1 : S1x512.BroadcastsInDim S131072x512 (![0, 1] : Fin 2 → Fin S131072x512.rank)
  bcast_S_S131072x512 : S_.BroadcastsInDim S131072x512 (![] : Fin 0 → Fin S131072x512.rank)
  reducesTo_S131072x512_S131072_d1 : S131072x512.ReducesTo [1] S131072
  h_S_ : 0 < S_.numel
  bcast_S131072_S131072x1_0 : S131072.BroadcastsInDim S131072x1 (![0] : Fin 1 → Fin S131072x1.rank)
  bcast_S_S131072x1 : S_.BroadcastsInDim S131072x1 (![] : Fin 0 → Fin S131072x1.rank)
  bcast_S131072x1_S131072x512_0_1 : S131072x1.BroadcastsInDim S131072x512 (![0, 1] : Fin 2 → Fin S131072x512.rank)
  dot_S131072x8_S8x32_S131072x32_1_0_0_1_n_n_wf : DotDims.WF S131072x8 S8x32 S131072x32 [1] [0] [0] [1] [] []
  dot_S131072x32_S32x64_S131072x64_1_0_0_1_n_n_wf : DotDims.WF S131072x32 S32x64 S131072x64 [1] [0] [0] [1] [] []
  dot_S131072x18_S18x64_S131072x64_1_0_0_1_n_n_wf : DotDims.WF S131072x18 S18x64 S131072x64 [1] [0] [0] [1] [] []
  dot_S131072x64_S64x64_S131072x64_1_0_0_1_n_n_wf : DotDims.WF S131072x64 S64x64 S131072x64 [1] [0] [0] [1] [] []
  dot_S131072x24_S24x64_S131072x64_1_0_0_1_n_n_wf : DotDims.WF S131072x24 S24x64 S131072x64 [1] [0] [0] [1] [] []
  dot_S131072x64_S64x128_S131072x128_1_0_0_1_n_n_wf : DotDims.WF S131072x64 S64x128 S131072x128 [1] [0] [0] [1] [] []
  dot_S131072x4_S4x16_S131072x16_1_0_0_1_n_n_wf : DotDims.WF S131072x4 S4x16 S131072x16 [1] [0] [0] [1] [] []
  dot_S131072x16_S16x32_S131072x32_1_0_0_1_n_n_wf : DotDims.WF S131072x16 S16x32 S131072x32 [1] [0] [0] [1] [] []
  dot_S131072x12_S12x32_S131072x32_1_0_0_1_n_n_wf : DotDims.WF S131072x12 S12x32 S131072x32 [1] [0] [0] [1] [] []
  dot_S131072x384_S384x512_S131072x512_1_0_0_1_n_n_wf : DotDims.WF S131072x384 S384x512 S131072x512 [1] [0] [0] [1] [] []
  dot_S131072x512_S512x512_S131072x512_1_0_0_1_n_n_wf : DotDims.WF S131072x512 S512x512 S131072x512 [1] [0] [0] [1] [] []

variable [Facts₀]

def dot_S131072x8_S8x32_S131072x32_1_0_0_1_n_n : DotDims S131072x8 S8x32 S131072x32 where
  lhsContracting := [1]
  rhsContracting := [0]
  lhsNonContracting := [0]
  rhsNonContracting := [1]
  lhsBatch := []
  rhsBatch := []
  wf := dot_S131072x8_S8x32_S131072x32_1_0_0_1_n_n_wf
def dot_S131072x32_S32x64_S131072x64_1_0_0_1_n_n : DotDims S131072x32 S32x64 S131072x64 where
  lhsContracting := [1]
  rhsContracting := [0]
  lhsNonContracting := [0]
  rhsNonContracting := [1]
  lhsBatch := []
  rhsBatch := []
  wf := dot_S131072x32_S32x64_S131072x64_1_0_0_1_n_n_wf
def dot_S131072x18_S18x64_S131072x64_1_0_0_1_n_n : DotDims S131072x18 S18x64 S131072x64 where
  lhsContracting := [1]
  rhsContracting := [0]
  lhsNonContracting := [0]
  rhsNonContracting := [1]
  lhsBatch := []
  rhsBatch := []
  wf := dot_S131072x18_S18x64_S131072x64_1_0_0_1_n_n_wf
def dot_S131072x64_S64x64_S131072x64_1_0_0_1_n_n : DotDims S131072x64 S64x64 S131072x64 where
  lhsContracting := [1]
  rhsContracting := [0]
  lhsNonContracting := [0]
  rhsNonContracting := [1]
  lhsBatch := []
  rhsBatch := []
  wf := dot_S131072x64_S64x64_S131072x64_1_0_0_1_n_n_wf
def dot_S131072x24_S24x64_S131072x64_1_0_0_1_n_n : DotDims S131072x24 S24x64 S131072x64 where
  lhsContracting := [1]
  rhsContracting := [0]
  lhsNonContracting := [0]
  rhsNonContracting := [1]
  lhsBatch := []
  rhsBatch := []
  wf := dot_S131072x24_S24x64_S131072x64_1_0_0_1_n_n_wf
def dot_S131072x64_S64x128_S131072x128_1_0_0_1_n_n : DotDims S131072x64 S64x128 S131072x128 where
  lhsContracting := [1]
  rhsContracting := [0]
  lhsNonContracting := [0]
  rhsNonContracting := [1]
  lhsBatch := []
  rhsBatch := []
  wf := dot_S131072x64_S64x128_S131072x128_1_0_0_1_n_n_wf
def dot_S131072x4_S4x16_S131072x16_1_0_0_1_n_n : DotDims S131072x4 S4x16 S131072x16 where
  lhsContracting := [1]
  rhsContracting := [0]
  lhsNonContracting := [0]
  rhsNonContracting := [1]
  lhsBatch := []
  rhsBatch := []
  wf := dot_S131072x4_S4x16_S131072x16_1_0_0_1_n_n_wf
def dot_S131072x16_S16x32_S131072x32_1_0_0_1_n_n : DotDims S131072x16 S16x32 S131072x32 where
  lhsContracting := [1]
  rhsContracting := [0]
  lhsNonContracting := [0]
  rhsNonContracting := [1]
  lhsBatch := []
  rhsBatch := []
  wf := dot_S131072x16_S16x32_S131072x32_1_0_0_1_n_n_wf
def dot_S131072x12_S12x32_S131072x32_1_0_0_1_n_n : DotDims S131072x12 S12x32 S131072x32 where
  lhsContracting := [1]
  rhsContracting := [0]
  lhsNonContracting := [0]
  rhsNonContracting := [1]
  lhsBatch := []
  rhsBatch := []
  wf := dot_S131072x12_S12x32_S131072x32_1_0_0_1_n_n_wf
def dot_S131072x384_S384x512_S131072x512_1_0_0_1_n_n : DotDims S131072x384 S384x512 S131072x512 where
  lhsContracting := [1]
  rhsContracting := [0]
  lhsNonContracting := [0]
  rhsNonContracting := [1]
  lhsBatch := []
  rhsBatch := []
  wf := dot_S131072x384_S384x512_S131072x512_1_0_0_1_n_n_wf
def dot_S131072x512_S512x512_S131072x512_1_0_0_1_n_n : DotDims S131072x512 S512x512 S131072x512 where
  lhsContracting := [1]
  rhsContracting := [0]
  lhsNonContracting := [0]
  rhsNonContracting := [1]
  lhsBatch := []
  rhsBatch := []
  wf := dot_S131072x512_S512x512_S131072x512_1_0_0_1_n_n_wf

class Facts : Prop extends Facts₀ where

variable [Facts]
-- ==== Proof.WeightBlocks.lean ====
/-
  Every weight window of the kernel stages its WHOLE array at every grid point: its index map is constantly zero and
  its block has the array's extents, so the block's entry `y` sits at array index `0 * extent + 1 * y = y` on every axis. -/
import proofs.«147661_j65987877535816_1_alg».proof.Proof.KernelIdealFrame
import Idealize.ShloMosaic.PureOps.Ideal

noncomputable section

namespace Cert.KVal

open Cert.KernelIdeal Cert.KernelIdeal.Gen Cert.KernelIdeal.P.Gen
open Idealize.ShloMosaic Idealize.ShloMosaic.TcCoe Idealize.SL.Sem

variable (m : (ℓ : Loc nD τ sig) → Buf (Elt Ideal) ℓ)

theorem blk4 (c : Dev nD) (t : Fin cfg0.N) : iblk m c 4 t = V m c main_arg4 := by
  funext y
  show V m c main_arg4 (((cfg0.win 4).blk t).view.emb y) = V m c main_arg4 y
  refine congrArg _ (funext fun a => Fin.ext ?_)
  match a with
  | ⟨0, _⟩ => show win0_4.index t (0 : Fin 2) * 8 + 1 * (y 0).val = (y 0).val; rw [show win0_4.index t (0 : Fin 2) = 0 from rfl]; omega
  | ⟨1, _⟩ => show win0_4.index t (1 : Fin 2) * 32 + 1 * (y 1).val = (y 1).val; rw [show win0_4.index t (1 : Fin 2) = 0 from rfl]; omega

theorem blk5 (c : Dev nD) (t : Fin cfg0.N) : iblk m c 5 t = V m c main_arg5 := by
  funext y
  show V m c main_arg5 (((cfg0.win 5).blk t).view.emb y) = V m c main_arg5 y
  refine congrArg _ (funext fun a => Fin.ext ?_)
  match a with
  | ⟨0, _⟩ => show win0_5.index t (0 : Fin 1) * 32 + 1 * (y 0).val = (y 0).val; rw [show win0_5.index t (0 : Fin 1) = 0 from rfl]; omega

theorem blk6 (c : Dev nD) (t : Fin cfg0.N) : iblk m c 6 t = V m c main_arg6 := by
  funext y
  show V m c main_arg6 (((cfg0.win 6).blk t).view.emb y) = V m c main_arg6 y
  refine congrArg _ (funext fun a => Fin.ext ?_)
  match a with
  | ⟨0, _⟩ => show win0_6.index t (0 : Fin 2) * 32 + 1 * (y 0).val = (y 0).val; rw [show win0_6.index t (0 : Fin 2) = 0 from rfl]; omega
  | ⟨1, _⟩ => show win0_6.index t (1 : Fin 2) * 64 + 1 * (y 1).val = (y 1).val; rw [show win0_6.index t (1 : Fin 2) = 0 from rfl]; omega

theorem blk7 (c : Dev nD) (t : Fin cfg0.N) : iblk m c 7 t = V m c main_arg7 := by
  funext y
  show V m c main_arg7 (((cfg0.win 7).blk t).view.emb y) = V m c main_arg7 y
  refine congrArg _ (funext fun a => Fin.ext ?_)
  match a with
  | ⟨0, _⟩ => show win0_7.index t (0 : Fin 1) * 64 + 1 * (y 0).val = (y 0).val; rw [show win0_7.index t (0 : Fin 1) = 0 from rfl]; omega

theorem blk8 (c : Dev nD) (t : Fin cfg0.N) : iblk m c 8 t = V m c main_arg8 := by
  funext y
  show V m c main_arg8 (((cfg0.win 8).blk t).view.emb y) = V m c main_arg8 y
  refine congrArg _ (funext fun a => Fin.ext ?_)
  match a with
  | ⟨0, _⟩ => show win0_8.index t (0 : Fin 2) * 18 + 1 * (y 0).val = (y 0).val; rw [show win0_8.index t (0 : Fin 2) = 0 from rfl]; omega
  | ⟨1, _⟩ => show win0_8.index t (1 : Fin 2) * 64 + 1 * (y 1).val = (y 1).val; rw [show win0_8.index t (1 : Fin 2) = 0 from rfl]; omega

theorem blk9 (c : Dev nD) (t : Fin cfg0.N) : iblk m c 9 t = V m c main_arg9 := by
  funext y
  show V m c main_arg9 (((cfg0.win 9).blk t).view.emb y) = V m c main_arg9 y
  refine congrArg _ (funext fun a => Fin.ext ?_)
  match a with
  | ⟨0, _⟩ => show win0_9.index t (0 : Fin 1) * 64 + 1 * (y 0).val = (y 0).val; rw [show win0_9.index t (0 : Fin 1) = 0 from rfl]; omega

theorem blk10 (c : Dev nD) (t : Fin cfg0.N) : iblk m c 10 t = V m c main_arg10 := by
  funext y
  show V m c main_arg10 (((cfg0.win 10).blk t).view.emb y) = V m c main_arg10 y
  refine congrArg _ (funext fun a => Fin.ext ?_)
  match a with
  | ⟨0, _⟩ => show win0_10.index t (0 : Fin 2) * 64 + 1 * (y 0).val = (y 0).val; rw [show win0_10.index t (0 : Fin 2) = 0 from rfl]; omega
  | ⟨1, _⟩ => show win0_10.index t (1 : Fin 2) * 64 + 1 * (y 1).val = (y 1).val; rw [show win0_10.index t (1 : Fin 2) = 0 from rfl]; omega

theorem blk11 (c : Dev nD) (t : Fin cfg0.N) : iblk m c 11 t = V m c main_arg11 := by
  funext y
  show V m c main_arg11 (((cfg0.win 11).blk t).view.emb y) = V m c main_arg11 y
  refine congrArg _ (funext fun a => Fin.ext ?_)
  match a with
  | ⟨0, _⟩ => show win0_11.index t (0 : Fin 1) * 64 + 1 * (y 0).val = (y 0).val; rw [show win0_11.index t (0 : Fin 1) = 0 from rfl]; omega

theorem blk12 (c : Dev nD) (t : Fin cfg0.N) : iblk m c 12 t = V m c main_arg12 := by
  funext y
  show V m c main_arg12 (((cfg0.win 12).blk t).view.emb y) = V m c main_arg12 y
  refine congrArg _ (funext fun a => Fin.ext ?_)
  match a with
  | ⟨0, _⟩ => show win0_12.index t (0 : Fin 2) * 24 + 1 * (y 0).val = (y 0).val; rw [show win0_12.index t (0 : Fin 2) = 0 from rfl]; omega
  | ⟨1, _⟩ => show win0_12.index t (1 : Fin 2) * 64 + 1 * (y 1).val = (y 1).val; rw [show win0_12.index t (1 : Fin 2) = 0 from rfl]; omega

theorem blk13 (c : Dev nD) (t : Fin cfg0.N) : iblk m c 13 t = V m c main_arg13 := by
  funext y
  show V m c main_arg13 (((cfg0.win 13).blk t).view.emb y) = V m c main_arg13 y
  refine congrArg _ (funext fun a => Fin.ext ?_)
  match a with
  | ⟨0, _⟩ => show win0_13.index t (0 : Fin 1) * 64 + 1 * (y 0).val = (y 0).val; rw [show win0_13.index t (0 : Fin 1) = 0 from rfl]; omega

theorem blk14 (c : Dev nD) (t : Fin cfg0.N) : iblk m c 14 t = V m c main_arg14 := by
  funext y
  show V m c main_arg14 (((cfg0.win 14).blk t).view.emb y) = V m c main_arg14 y
  refine congrArg _ (funext fun a => Fin.ext ?_)
  match a with
  | ⟨0, _⟩ => show win0_14.index t (0 : Fin 2) * 64 + 1 * (y 0).val = (y 0).val; rw [show win0_14.index t (0 : Fin 2) = 0 from rfl]; omega
  | ⟨1, _⟩ => show win0_14.index t (1 : Fin 2) * 128 + 1 * (y 1).val = (y 1).val; rw [show win0_14.index t (1 : Fin 2) = 0 from rfl]; omega

theorem blk15 (c : Dev nD) (t : Fin cfg0.N) : iblk m c 15 t = V m c main_arg15 := by
  funext y
  show V m c main_arg15 (((cfg0.win 15).blk t).view.emb y) = V m c main_arg15 y
  refine congrArg _ (funext fun a => Fin.ext ?_)
  match a with
  | ⟨0, _⟩ => show win0_15.index t (0 : Fin 1) * 128 + 1 * (y 0).val = (y 0).val; rw [show win0_15.index t (0 : Fin 1) = 0 from rfl]; omega

theorem blk16 (c : Dev nD) (t : Fin cfg0.N) : iblk m c 16 t = V m c main_arg16 := by
  funext y
  show V m c main_arg16 (((cfg0.win 16).blk t).view.emb y) = V m c main_arg16 y
  refine congrArg _ (funext fun a => Fin.ext ?_)
  match a with
  | ⟨0, _⟩ => show win0_16.index t (0 : Fin 2) * 4 + 1 * (y 0).val = (y 0).val; rw [show win0_16.index t (0 : Fin 2) = 0 from rfl]; omega
  | ⟨1, _⟩ => show win0_16.index t (1 : Fin 2) * 16 + 1 * (y 1).val = (y 1).val; rw [show win0_16.index t (1 : Fin 2) = 0 from rfl]; omega

theorem blk17 (c : Dev nD) (t : Fin cfg0.N) : iblk m c 17 t = V m c main_arg17 := by
  funext y
  show V m c main_arg17 (((cfg0.win 17).blk t).view.emb y) = V m c main_arg17 y
  refine congrArg _ (funext fun a => Fin.ext ?_)
  match a with
  | ⟨0, _⟩ => show win0_17.index t (0 : Fin 1) * 16 + 1 * (y 0).val = (y 0).val; rw [show win0_17.index t (0 : Fin 1) = 0 from rfl]; omega

theorem blk18 (c : Dev nD) (t : Fin cfg0.N) : iblk m c 18 t = V m c main_arg18 := by
  funext y
  show V m c main_arg18 (((cfg0.win 18).blk t).view.emb y) = V m c main_arg18 y
  refine congrArg _ (funext fun a => Fin.ext ?_)
  match a with
  | ⟨0, _⟩ => show win0_18.index t (0 : Fin 2) * 16 + 1 * (y 0).val = (y 0).val; rw [show win0_18.index t (0 : Fin 2) = 0 from rfl]; omega
  | ⟨1, _⟩ => show win0_18.index t (1 : Fin 2) * 32 + 1 * (y 1).val = (y 1).val; rw [show win0_18.index t (1 : Fin 2) = 0 from rfl]; omega

theorem blk19 (c : Dev nD) (t : Fin cfg0.N) : iblk m c 19 t = V m c main_arg19 := by
  funext y
  show V m c main_arg19 (((cfg0.win 19).blk t).view.emb y) = V m c main_arg19 y
  refine congrArg _ (funext fun a => Fin.ext ?_)
  match a with
  | ⟨0, _⟩ => show win0_19.index t (0 : Fin 1) * 32 + 1 * (y 0).val = (y 0).val; rw [show win0_19.index t (0 : Fin 1) = 0 from rfl]; omega

theorem blk20 (c : Dev nD) (t : Fin cfg0.N) : iblk m c 20 t = V m c main_arg20 := by
  funext y
  show V m c main_arg20 (((cfg0.win 20).blk t).view.emb y) = V m c main_arg20 y
  refine congrArg _ (funext fun a => Fin.ext ?_)
  match a with
  | ⟨0, _⟩ => show win0_20.index t (0 : Fin 2) * 12 + 1 * (y 0).val = (y 0).val; rw [show win0_20.index t (0 : Fin 2) = 0 from rfl]; omega
  | ⟨1, _⟩ => show win0_20.index t (1 : Fin 2) * 32 + 1 * (y 1).val = (y 1).val; rw [show win0_20.index t (1 : Fin 2) = 0 from rfl]; omega

theorem blk21 (c : Dev nD) (t : Fin cfg0.N) : iblk m c 21 t = V m c main_arg21 := by
  funext y
  show V m c main_arg21 (((cfg0.win 21).blk t).view.emb y) = V m c main_arg21 y
  refine congrArg _ (funext fun a => Fin.ext ?_)
  match a with
  | ⟨0, _⟩ => show win0_21.index t (0 : Fin 1) * 32 + 1 * (y 0).val = (y 0).val; rw [show win0_21.index t (0 : Fin 1) = 0 from rfl]; omega

theorem blk22 (c : Dev nD) (t : Fin cfg0.N) : iblk m c 22 t = V m c main_arg22 := by
  funext y
  show V m c main_arg22 (((cfg0.win 22).blk t).view.emb y) = V m c main_arg22 y
  refine congrArg _ (funext fun a => Fin.ext ?_)
  match a with
  | ⟨0, _⟩ => show win0_22.index t (0 : Fin 2) * 32 + 1 * (y 0).val = (y 0).val; rw [show win0_22.index t (0 : Fin 2) = 0 from rfl]; omega
  | ⟨1, _⟩ => show win0_22.index t (1 : Fin 2) * 64 + 1 * (y 1).val = (y 1).val; rw [show win0_22.index t (1 : Fin 2) = 0 from rfl]; omega

theorem blk23 (c : Dev nD) (t : Fin cfg0.N) : iblk m c 23 t = V m c main_arg23 := by
  funext y
  show V m c main_arg23 (((cfg0.win 23).blk t).view.emb y) = V m c main_arg23 y
  refine congrArg _ (funext fun a => Fin.ext ?_)
  match a with
  | ⟨0, _⟩ => show win0_23.index t (0 : Fin 1) * 64 + 1 * (y 0).val = (y 0).val; rw [show win0_23.index t (0 : Fin 1) = 0 from rfl]; omega

theorem blk24 (c : Dev nD) (t : Fin cfg0.N) : iblk m c 24 t = V m c main_arg24 := by
  funext y
  show V m c main_arg24 (((cfg0.win 24).blk t).view.emb y) = V m c main_arg24 y
  refine congrArg _ (funext fun a => Fin.ext ?_)
  match a with
  | ⟨0, _⟩ => show win0_24.index t (0 : Fin 2) * 4 + 1 * (y 0).val = (y 0).val; rw [show win0_24.index t (0 : Fin 2) = 0 from rfl]; omega
  | ⟨1, _⟩ => show win0_24.index t (1 : Fin 2) * 16 + 1 * (y 1).val = (y 1).val; rw [show win0_24.index t (1 : Fin 2) = 0 from rfl]; omega

theorem blk25 (c : Dev nD) (t : Fin cfg0.N) : iblk m c 25 t = V m c main_arg25 := by
  funext y
  show V m c main_arg25 (((cfg0.win 25).blk t).view.emb y) = V m c main_arg25 y
  refine congrArg _ (funext fun a => Fin.ext ?_)
  match a with
  | ⟨0, _⟩ => show win0_25.index t (0 : Fin 1) * 16 + 1 * (y 0).val = (y 0).val; rw [show win0_25.index t (0 : Fin 1) = 0 from rfl]; omega

theorem blk26 (c : Dev nD) (t : Fin cfg0.N) : iblk m c 26 t = V m c main_arg26 := by
  funext y
  show V m c main_arg26 (((cfg0.win 26).blk t).view.emb y) = V m c main_arg26 y
  refine congrArg _ (funext fun a => Fin.ext ?_)
  match a with
  | ⟨0, _⟩ => show win0_26.index t (0 : Fin 2) * 16 + 1 * (y 0).val = (y 0).val; rw [show win0_26.index t (0 : Fin 2) = 0 from rfl]; omega
  | ⟨1, _⟩ => show win0_26.index t (1 : Fin 2) * 32 + 1 * (y 1).val = (y 1).val; rw [show win0_26.index t (1 : Fin 2) = 0 from rfl]; omega

theorem blk27 (c : Dev nD) (t : Fin cfg0.N) : iblk m c 27 t = V m c main_arg27 := by
  funext y
  show V m c main_arg27 (((cfg0.win 27).blk t).view.emb y) = V m c main_arg27 y
  refine congrArg _ (funext fun a => Fin.ext ?_)
  match a with
  | ⟨0, _⟩ => show win0_27.index t (0 : Fin 1) * 32 + 1 * (y 0).val = (y 0).val; rw [show win0_27.index t (0 : Fin 1) = 0 from rfl]; omega

theorem blk28 (c : Dev nD) (t : Fin cfg0.N) : iblk m c 28 t = V m c main_arg28 := by
  funext y
  show V m c main_arg28 (((cfg0.win 28).blk t).view.emb y) = V m c main_arg28 y
  refine congrArg _ (funext fun a => Fin.ext ?_)
  match a with
  | ⟨0, _⟩ => show win0_28.index t (0 : Fin 2) * 384 + 1 * (y 0).val = (y 0).val; rw [show win0_28.index t (0 : Fin 2) = 0 from rfl]; omega
  | ⟨1, _⟩ => show win0_28.index t (1 : Fin 2) * 512 + 1 * (y 1).val = (y 1).val; rw [show win0_28.index t (1 : Fin 2) = 0 from rfl]; omega

theorem blk29 (c : Dev nD) (t : Fin cfg0.N) : iblk m c 29 t = V m c main_arg29 := by
  funext y
  show V m c main_arg29 (((cfg0.win 29).blk t).view.emb y) = V m c main_arg29 y
  refine congrArg _ (funext fun a => Fin.ext ?_)
  match a with
  | ⟨0, _⟩ => show win0_29.index t (0 : Fin 1) * 512 + 1 * (y 0).val = (y 0).val; rw [show win0_29.index t (0 : Fin 1) = 0 from rfl]; omega

theorem blk30 (c : Dev nD) (t : Fin cfg0.N) : iblk m c 30 t = V m c main_arg30 := by
  funext y
  show V m c main_arg30 (((cfg0.win 30).blk t).view.emb y) = V m c main_arg30 y
  refine congrArg _ (funext fun a => Fin.ext ?_)
  match a with
  | ⟨0, _⟩ => show win0_30.index t (0 : Fin 2) * 512 + 1 * (y 0).val = (y 0).val; rw [show win0_30.index t (0 : Fin 2) = 0 from rfl]; omega
  | ⟨1, _⟩ => show win0_30.index t (1 : Fin 2) * 512 + 1 * (y 1).val = (y 1).val; rw [show win0_30.index t (1 : Fin 2) = 0 from rfl]; omega

theorem blk31 (c : Dev nD) (t : Fin cfg0.N) : iblk m c 31 t = V m c main_arg31 := by
  funext y
  show V m c main_arg31 (((cfg0.win 31).blk t).view.emb y) = V m c main_arg31 y
  refine congrArg _ (funext fun a => Fin.ext ?_)
  match a with
  | ⟨0, _⟩ => show win0_31.index t (0 : Fin 1) * 512 + 1 * (y 0).val = (y 0).val; rw [show win0_31.index t (0 : Fin 1) = 0 from rfl]; omega

theorem blk32 (c : Dev nD) (t : Fin cfg0.N) : iblk m c 32 t = V m c main_arg32 := by
  funext y
  show V m c main_arg32 (((cfg0.win 32).blk t).view.emb y) = V m c main_arg32 y
  refine congrArg _ (funext fun a => Fin.ext ?_)
  match a with
  | ⟨0, _⟩ => show win0_32.index t (0 : Fin 1) * 512 + 1 * (y 0).val = (y 0).val; rw [show win0_32.index t (0 : Fin 1) = 0 from rfl]; omega

theorem blk33 (c : Dev nD) (t : Fin cfg0.N) : iblk m c 33 t = V m c main_arg33 := by
  funext y
  show V m c main_arg33 (((cfg0.win 33).blk t).view.emb y) = V m c main_arg33 y
  refine congrArg _ (funext fun a => Fin.ext ?_)
  match a with
  | ⟨0, _⟩ => show win0_33.index t (0 : Fin 1) * 512 + 1 * (y 0).val = (y 0).val; rw [show win0_33.index t (0 : Fin 1) = 0 from rfl]; omega

end Cert.KVal

end
-- ==== Proof.RowSpec.lean ====
/-
  The mathematics of one batch row.

  Both programs map row `R` of the four sensor arrays, with the shared weights, to row `R` of the result, and the rows
  do not interact. This module states that row map once, over the extended reals, with no program in sight:

  * every sensor reading `x` is encoded as the pair `tanh x`, `σ (log (|x| + tiny))` (`σ` the logistic function), the
    pairs laid side by side (`il`: entry `2k` is the first member of reading `k`'s pair, entry `2k+1` the second);
  * six groups of encoded readings are cut out of the encoded proprioception row (`arm`, `wrist`, `finger` — which
    also takes the encoded tactile row —, `head`) or are whole encoded rows (end effector, internal state);
  * each group goes through its own two-layer perceptron with `max · 0` after both layers (`mlp2`), the six results
    are laid side by side (`fuse`), a third perceptron follows (`max · 0` after its first layer only), and the
    result is normalised over its 512 entries (`lnorm`: mean, mean square deviation, reciprocal square root,
    gain and bias).
-/
import Idealize.ShloMosaic.PureOps.Ideal
import Idealize.ShloMosaic.Lib.ValueIdx

noncomputable section

namespace Cert.RowSpec

open Idealize.ShloMosaic Idealize.ShloMosaic.ValueIdx

/-- A rank-two array of extended reals. -/
abbrev Mat (N K : Nat) := (⟨2, ![N, K]⟩ : Shape).Idx → EReal
/-- A rank-one array of extended reals. -/
abbrev Vc (K : Nat) := (⟨1, ![K]⟩ : Shape).Idx → EReal

/-- Row `r` of a rank-two array. -/
def row {N K : Nat} (X : Mat N K) (r : Fin N) : Fin K → EReal := fun k => X (ix2 r k)

/-- The small positive shift under the logarithm. -/
def tiny : EReal := Ideal.ofBits .f32 0x322BCC77#32
/-- The number of normalised entries, as the divisor of the two means. -/
def c512 : EReal := Ideal.ofBits .f32 0x44000000#32
/-- The shift under the reciprocal square root. -/
def lnEps : EReal := Ideal.ofBits .f32 0x3727C5AC#32

/-- First member of a reading's pair. -/
def encM (x : EReal) : EReal := Ideal.tanh x
/-- Second member of a reading's pair: `1 / (1 + exp (- log (|x| + tiny)))`. -/
def encE (x : EReal) : EReal := Ideal.logistic (Ideal.log (max x (-x) + tiny))

/-- Member `b mod 2` of a reading's pair. -/
def enc (b : Nat) (x : EReal) : EReal := if b % 2 = 0 then encM x else encE x

/-- The encoded row: the pairs of the readings side by side. -/
def il {K : Nat} (x : Fin K → EReal) (j : Fin (2 * K)) : EReal := enc j.val (x ⟨j.val / 2, by have := j.isLt; omega⟩)

/-- Arm group: entries `14 a + b` (`a < 3`, `b < 8`) of the encoded proprioception row. -/
def arm (p : Fin 25 → EReal) (j : Fin 24) : EReal := il p ⟨14 * (j.val / 8) + j.val % 8, by have := j.isLt; omega⟩
/-- Wrist group: entries `14 a + 8 + b` (`a < 3`, `b < 6`) of the encoded proprioception row. -/
def wrist (p : Fin 25 → EReal) (j : Fin 18) : EReal := il p ⟨14 * (j.val / 6) + 8 + j.val % 6, by have := j.isLt; omega⟩
/-- Finger group: entries 42 … 45 of the encoded proprioception row, then the encoded tactile row. -/
def finger (p : Fin 25 → EReal) (t : Fin 2 → EReal) (j : Fin 8) : EReal :=
  if h : j.val < 4 then il p ⟨42 + j.val, by omega⟩ else il t ⟨j.val - 4, by have := j.isLt; omega⟩
/-- Head group: entries 46 … 49 of the encoded proprioception row. -/
def head (p : Fin 25 → EReal) (j : Fin 4) : EReal := il p ⟨46 + j.val, by have := j.isLt; omega⟩

/-- One perceptron layer before its nonlinearity. -/
def lin {K M : Nat} (W : Mat K M) (b : Vc M) (x : Fin K → EReal) (j : Fin M) : EReal :=
  (∑ k : Fin K, x k * W (ix2 k j)) + b (ix1 j)
/-- One perceptron layer with `max · 0`. -/
def dense {K M : Nat} (W : Mat K M) (b : Vc M) (x : Fin K → EReal) (j : Fin M) : EReal := max (lin W b x j) 0
/-- Two layers, `max · 0` after both. -/
def mlp2 {K H M : Nat} (W₁ : Mat K H) (b₁ : Vc H) (W₂ : Mat H M) (b₂ : Vc M) (x : Fin K → EReal) : Fin M → EReal :=
  dense W₂ b₂ (dense W₁ b₁ x)

/-- The six branch results side by side: widths 64, 64, 128, 32, 64, 32. -/
def fuse (f w : Fin 64 → EReal) (a : Fin 128 → EReal) (h : Fin 32 → EReal) (e : Fin 64 → EReal) (i : Fin 32 → EReal)
    (j : Fin 384) : EReal :=
  if h₁ : j.val < 64 then f ⟨j.val, h₁⟩
  else if h₂ : j.val < 128 then w ⟨j.val - 64, by omega⟩
  else if h₃ : j.val < 256 then a ⟨j.val - 128, by omega⟩
  else if h₄ : j.val < 288 then h ⟨j.val - 256, by omega⟩
  else if h₅ : j.val < 352 then e ⟨j.val - 288, by omega⟩
  else i ⟨j.val - 352, by have := j.isLt; omega⟩

/-- The mean of the 512 entries. -/
def mean512 (z : Fin 512 → EReal) : EReal := Ideal.div (∑ k : Fin 512, z k) c512
/-- Normalisation over the 512 entries, with gain `g` and bias `b`. -/
def lnorm (g b : Vc 512) (z : Fin 512 → EReal) (j : Fin 512) : EReal :=
  (z j - mean512 z) * Ideal.rsqrt (mean512 (fun k => (z k - mean512 z) * (z k - mean512 z)) + lnEps) * g (ix1 j) + b (ix1 j)

/-- The weights and biases, in the order of the programs' arguments 4 … 33. -/
structure Weights where
  fW1 : Mat 8 32
  fb1 : Vc 32
  fW2 : Mat 32 64
  fb2 : Vc 64
  wW1 : Mat 18 64
  wb1 : Vc 64
  wW2 : Mat 64 64
  wb2 : Vc 64
  aW1 : Mat 24 64
  ab1 : Vc 64
  aW2 : Mat 64 128
  ab2 : Vc 128
  hW1 : Mat 4 16
  hb1 : Vc 16
  hW2 : Mat 16 32
  hb2 : Vc 32
  eW1 : Mat 12 32
  eb1 : Vc 32
  eW2 : Mat 32 64
  eb2 : Vc 64
  iW1 : Mat 4 16
  ib1 : Vc 16
  iW2 : Mat 16 32
  ib2 : Vc 32
  uW1 : Mat 384 512
  ub1 : Vc 512
  uW2 : Mat 512 512
  ub2 : Vc 512
  g : Vc 512
  b : Vc 512

/-- The fused branch results of one row. -/
def fusedRow (θ : Weights) (p : Fin 25 → EReal) (t : Fin 2 → EReal) (e : Fin 6 → EReal) (i : Fin 2 → EReal) : Fin 384 → EReal :=
  fuse (mlp2 θ.fW1 θ.fb1 θ.fW2 θ.fb2 (finger p t)) (mlp2 θ.wW1 θ.wb1 θ.wW2 θ.wb2 (wrist p))
    (mlp2 θ.aW1 θ.ab1 θ.aW2 θ.ab2 (arm p)) (mlp2 θ.hW1 θ.hb1 θ.hW2 θ.hb2 (head p))
    (mlp2 θ.eW1 θ.eb1 θ.eW2 θ.eb2 (il e)) (mlp2 θ.iW1 θ.ib1 θ.iW2 θ.ib2 (il i))

/-- The row before normalisation. -/
def preNorm (θ : Weights) (p : Fin 25 → EReal) (t : Fin 2 → EReal) (e : Fin 6 → EReal) (i : Fin 2 → EReal) : Fin 512 → EReal :=
  lin θ.uW2 θ.ub2 (dense θ.uW1 θ.ub1 (fusedRow θ p t e i))

/-- The whole row map. -/
def outRow (θ : Weights) (p : Fin 25 → EReal) (t : Fin 2 → EReal) (e : Fin 6 → EReal) (i : Fin 2 → EReal) : Fin 512 → EReal :=
  lnorm θ.g θ.b (preNorm θ p t e i)

/-- The whole result array: row `R` is the row map of row `R` of the sensor arrays. -/
def outArr {N : Nat} (θ : Weights) (P : Mat N 25) (T : Mat N 2) (E : Mat N 6) (I : Mat N 2) : Mat N 512 :=
  fun y => outRow θ (row P (y 0)) (row T (y 0)) (row E (y 0)) (row I (y 0)) (y 1)

end Cert.RowSpec

end
-- ==== Proof.LibDense.lean ====
/-
  A matrix product with no batch axis, read at an entry, is the sum over the contracted coordinate of the products of
  the left operand's row entries with the right operand's column entries; and a perceptron layer built on it
  (product into zero, the bias row added to every row, `max · 0`) is the row map `dense` of the operand's row.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import proofs.«147661_j65987877535816_1_alg».proof.Proof.RowSpec

noncomputable section

namespace Cert.RowSpec

open Idealize.ShloMosaic Idealize.ShloMosaic.ValueIdx

/-- The contraction sum of a plain `N×K` by `K×M` product at entry `(r, c)`, re-indexed by the contracted coordinate. -/
theorem plain_sum {N K M : Nat} (x : Mat N K) (W : Mat K M) (r : Fin N) (c : Fin M) :
    (∑ k : (DotDims.plain N K M).contr.Idx,
        x ((DotDims.plain N K M).lhsIdx (ix2 r c) k) * W ((DotDims.plain N K M).rhsIdx (ix2 r c) k))
      = ∑ k : Fin K, x (ix2 r k) * W (ix2 k c) := by
  refine (Equiv.sum_comp (contrEquiv1 (DotDims.plain N K M) K rfl rfl).symm _).symm.trans ?_
  refine Finset.sum_congr rfl fun k _ => ?_
  have hk := contrEquiv1_symm_val (DotDims.plain N K M) K rfl rfl k
  congr 1
  · refine congrArg x (funext fun a => Fin.ext ?_)
    match a with
    | ⟨0, _⟩ => rfl
    | ⟨1, _⟩ => exact hk
  · refine congrArg W (funext fun a => Fin.ext ?_)
    match a with
    | ⟨0, _⟩ => exact hk
    | ⟨1, _⟩ => rfl

/-- The bias row laid under every row, read at an entry. -/
theorem biasRow_apply {N M : Nat} (b : Vc M) (hsc : (⟨1, ![M]⟩ : Shape).ShapeCasts ⟨2, ![1, M]⟩)
    (hbc : (⟨2, ![1, M]⟩ : Shape).Broadcasts ⟨2, ![N, M]⟩) (r : Fin N) (c : Fin M) :
    broadcastTo ⟨2, ![N, M]⟩ (shapeCast ⟨2, ![1, M]⟩ b hsc) hbc (ix2 r c) = b (ix1 c) := by
  rw [broadcastTo_1b_ab_apply, shapeCast_a_1a_apply]

/-- A kernel layer before its nonlinearity: the product into zero of the operands (a change of float format is the
    identity on the extended reals) plus the bias row, at an entry, is `lin` of the operand's row. -/
theorem klin_apply {N K M : Nat} (d : DotDims ⟨2, ![N, K]⟩ ⟨2, ![K, M]⟩ ⟨2, ![N, M]⟩) (hd : d = DotDims.plain N K M)
    (x : Mat N K) (W : Mat K M) (b : Vc M) (hb : FTy.bf16.bits < FTy.f32.bits)
    (hsc : (⟨1, ![M]⟩ : Shape).ShapeCasts ⟨2, ![1, M]⟩) (hbc : (⟨2, ![1, M]⟩ : Shape).Broadcasts ⟨2, ![N, M]⟩)
    (r : Fin N) (c : Fin M) :
    addf (F := Ideal) (matmul d none (truncf (F := Ideal) .bf16 (x : FVec Ideal ⟨2, ![N, K]⟩ .f32) hb)
          (truncf (F := Ideal) .bf16 (W : FVec Ideal ⟨2, ![K, M]⟩ .f32) hb) (constant ⟨2, ![N, M]⟩ .f32 0x00000000#32))
        (broadcastTo ⟨2, ![N, M]⟩ (shapeCast ⟨2, ![1, M]⟩ (b : FVec Ideal ⟨1, ![M]⟩ .f32) hsc) hbc) (ix2 r c)
      = lin W b (row x r) c := by
  subst hd
  rw [addf_apply, biasRow_apply]
  simp only [matmul]
  rw [Ideal.matmul_constant_zero_apply]
  exact congrArg (· + b (ix1 c)) (plain_sum x W r c)

/-- The same layer with `max · 0`: `dense` of the operand's row. -/
theorem kdense_apply {N K M : Nat} (d : DotDims ⟨2, ![N, K]⟩ ⟨2, ![K, M]⟩ ⟨2, ![N, M]⟩) (hd : d = DotDims.plain N K M)
    (x : Mat N K) (W : Mat K M) (b : Vc M) (hb : FTy.bf16.bits < FTy.f32.bits)
    (hsc : (⟨1, ![M]⟩ : Shape).ShapeCasts ⟨2, ![1, M]⟩) (hbc : (⟨2, ![1, M]⟩ : Shape).Broadcasts ⟨2, ![N, M]⟩)
    (r : Fin N) (c : Fin M) :
    maximumf (F := Ideal) (addf (F := Ideal) (matmul d none (truncf (F := Ideal) .bf16 (x : FVec Ideal ⟨2, ![N, K]⟩ .f32) hb)
          (truncf (F := Ideal) .bf16 (W : FVec Ideal ⟨2, ![K, M]⟩ .f32) hb) (constant ⟨2, ![N, M]⟩ .f32 0x00000000#32))
        (broadcastTo ⟨2, ![N, M]⟩ (shapeCast ⟨2, ![1, M]⟩ (b : FVec Ideal ⟨1, ![M]⟩ .f32) hsc) hbc))
        (broadcast ⟨2, ![N, M]⟩ (Scalar.ofBits (F := Ideal) .f32 0x00000000#32)) (ix2 r c)
      = dense W b (row x r) c := by
  rw [maximumf_apply, klin_apply d hd x W b hb hsc hbc r c, broadcast_apply]
  show max _ (Ideal.ofBits .f32 0x00000000#32) = max _ 0
  rw [Ideal.ofBits_zero_f32]

/-- The host's bias row (a rank-one array given a leading unit axis, then laid under every row), read at an entry. -/
theorem hbiasRow_apply {N M : Nat} (b : Vc M) (h1 : (⟨1, ![M]⟩ : Shape).BroadcastsInDim ⟨2, ![1, M]⟩ ![1])
    (h2 : (⟨2, ![1, M]⟩ : Shape).BroadcastsInDim ⟨2, ![N, M]⟩ ![0, 1]) (hN : N ≠ 1 ∨ True) (r : Fin N) (c : Fin M) :
    broadcastInDim ⟨2, ![N, M]⟩ ![0, 1] h2 (broadcastInDim ⟨2, ![1, M]⟩ ![1] h1 b) (ix2 r c) = b (ix1 c) := by
  refine (broadcastInDim_apply _ h2 _ (ix2 r c) (ix2 (0 : Fin 1) c) (fun a => ?_)).trans ?_
  · match a with
    | ⟨0, _⟩ => show (0 : Nat) = if (1 : Nat) = 1 then 0 else _; rw [if_pos rfl]
    | ⟨1, _⟩ =>
      show c.val = if M = 1 then 0 else c.val
      split
      · have := c.isLt; omega
      · rfl
  · refine broadcastInDim_apply _ h1 b (ix2 (0 : Fin 1) c) (ix1 c) (fun a => ?_)
    match a with
    | ⟨0, _⟩ =>
      show c.val = if M = 1 then 0 else c.val
      split
      · have := c.isLt; omega
      · rfl

/-- A host layer before its nonlinearity, at an entry: `lin` of the operand's row. -/
theorem hlin_apply {N K M : Nat} (d : DotDims ⟨2, ![N, K]⟩ ⟨2, ![K, M]⟩ ⟨2, ![N, M]⟩) (hd : d = DotDims.plain N K M)
    (x : Mat N K) (W : Mat K M) (b : Vc M) (h1 : (⟨1, ![M]⟩ : Shape).BroadcastsInDim ⟨2, ![1, M]⟩ ![1])
    (h2 : (⟨2, ![1, M]⟩ : Shape).BroadcastsInDim ⟨2, ![N, M]⟩ ![0, 1]) (r : Fin N) (c : Fin M) :
    addf (F := Ideal) (Host.dotGeneral (φ₁ := .f32) (φ₂ := .f32) d none (x : FVec Ideal ⟨2, ![N, K]⟩ .f32) (W : FVec Ideal ⟨2, ![K, M]⟩ .f32))
        (broadcastInDim ⟨2, ![N, M]⟩ ![0, 1] h2 (broadcastInDim ⟨2, ![1, M]⟩ ![1] h1 (b : FVec Ideal ⟨1, ![M]⟩ .f32))) (ix2 r c)
      = lin W b (row x r) c := by
  subst hd
  rw [addf_apply, hbiasRow_apply b h1 h2 (Or.inr trivial)]
  simp only [Host.dotGeneral]
  rw [Ideal.dotGeneral_apply]
  exact congrArg (· + b (ix1 c)) (plain_sum x W r c)

/-- The same with the host's `max · 0` (the zero a scalar laid over the whole array): `dense` of the operand's row. -/
theorem hdense_apply {N K M : Nat} (d : DotDims ⟨2, ![N, K]⟩ ⟨2, ![K, M]⟩ ⟨2, ![N, M]⟩) (hd : d = DotDims.plain N K M)
    (x : Mat N K) (W : Mat K M) (b : Vc M) (h1 : (⟨1, ![M]⟩ : Shape).BroadcastsInDim ⟨2, ![1, M]⟩ ![1])
    (h2 : (⟨2, ![1, M]⟩ : Shape).BroadcastsInDim ⟨2, ![N, M]⟩ ![0, 1])
    (h0 : (⟨0, ![]⟩ : Shape).BroadcastsInDim ⟨2, ![N, M]⟩ ![]) (r : Fin N) (c : Fin M) :
    maximumf (F := Ideal) (addf (F := Ideal) (Host.dotGeneral (φ₁ := .f32) (φ₂ := .f32) d none (x : FVec Ideal ⟨2, ![N, K]⟩ .f32) (W : FVec Ideal ⟨2, ![K, M]⟩ .f32))
        (broadcastInDim ⟨2, ![N, M]⟩ ![0, 1] h2 (broadcastInDim ⟨2, ![1, M]⟩ ![1] h1 (b : FVec Ideal ⟨1, ![M]⟩ .f32))))
        (broadcastInDim ⟨2, ![N, M]⟩ ![] h0 (constant (F := Ideal) ⟨0, ![]⟩ .f32 0x00000000#32)) (ix2 r c)
      = dense W b (row x r) c := by
  rw [maximumf_apply, hlin_apply d hd x W b h1 h2 r c, broadcastInDim_scalar_apply, constant_apply]
  show max _ (Ideal.ofBits .f32 0x00000000#32) = max _ 0
  rw [Ideal.ofBits_zero_f32]

end Cert.RowSpec

end
-- ==== Proof.KGroups.lean ====
/-
  The kernel's six groups of encoded readings, read at an entry of a block: each is the row map of `RowSpec`
  applied to the block's row.

  Every group is built the same way. The two encodings of the loaded block (`tanh x` and `σ (log (|x| + tiny))`,
  entry by entry) are cut into bands of neighbouring columns, every band into its single columns, and the single
  columns of the two encodings are laid side by side alternately, so that columns `2c` and `2c + 1` of a band of
  pairs hold the two members of the pair of reading `c` of the band; the bands of pairs are then laid side by side.
  Reading such a value at row `r` and column `j` therefore walks down a chain: the piece of the outer
  concatenation whose columns contain `j`, inside it the single column, the band the column was cut from, and the
  band's place in the encoded block. Each step is one instance of the two facts below (a concatenation along the
  columns read at a column, a cut along the columns read at a column); the chain ends at one entry of an encoding
  of the block, which is the member `j mod 2` of the pair of the reading that `RowSpec` names, by unfolding.
-/
import proofs.«147661_j65987877535816_1_alg».proof.Proof.Gen.KernelIdeal.Skeleton
import proofs.«147661_j65987877535816_1_alg».proof.Proof.RowSpec
import Idealize.ShloMosaic.Lib.ValueIdx
import Idealize.ShloMosaic.Lib.ValueLayout
import Idealize.ShloMosaic.Lib.Pipeline.Value

noncomputable section

namespace Cert.KRow

open Cert.KernelIdeal Cert.KernelIdeal.Gen Cert.RowSpec Idealize.ShloMosaic Idealize.ShloMosaic.ValueIdx

/-- Matrices laid side by side, read at row `a` and column `j`: if the pieces before piece `k` take up `pre` columns
    and `j = pre + i` with `i` a column of piece `k`, the value is piece `k` at row `a` and column `i`. -/
theorem cat_cols_apply {α : Type} {n0 M m : Nat} (xs : List ((s : Shape) × (s.Idx → α)))
    (h : Shape.Concatenates (xs.map (·.1)) ⟨2, ![n0, M]⟩ 1) (a : Fin n0) (j : Fin M)
    (k : Nat) (x₁ : (⟨2, ![n0, m]⟩ : Shape).Idx → α) (hxk : xs[k]? = some ⟨⟨2, ![n0, m]⟩, x₁⟩)
    (pre : Nat)
    (hpre : (((xs.take k).map (·.1)).map fun s : Shape =>
      if h : s.rank = (⟨2, ![n0, M]⟩ : Shape).rank then s.size ((1 : Fin 2).cast h.symm) else 0).sum = pre)
    (i : Fin m) (ha : pre + i.val = j.val) :
    concatenate ⟨2, ![n0, M]⟩ 1 xs h (ix2 a j) = x₁ (ix2 a i) := by
  obtain ⟨hk, hxk'⟩ := List.getElem?_eq_some_iff.1 hxk
  exact concatenate_apply_piece 1 xs h (ix2 a j) k hk _ x₁ hxk' rfl pre hpre (ix2 a i)
    (fun b hb => match b with | ⟨0, _⟩ => rfl | ⟨1, _⟩ => absurd rfl hb) ha

/-- One step down a concatenation along the columns: piece `k`, whose columns start at `pre`, at its column `i`. -/
local macro "piece" k:num "from" pre:num "at" i:num : tactic =>
  `(tactic| refine (cat_cols_apply _ _ _ _ $k _ rfl $pre (by rfl) ⟨$i, by omega⟩ (by rfl)).trans ?_)

/-- One step down a cut along the columns: the band starting at column `o` of its source, read at the band's
    column that is column `c` of the source. -/
local macro "band" o:num "source" c:num : tactic =>
  `(tactic| refine (slice2_axis1_apply $o _ _ _ _ ⟨$c, by omega⟩ (by rfl)).trans ?_)

variable (v0 : Vec Ideal S2048x25 .f32) (v1 : Vec Ideal S2048x2 .f32) (v2 : Vec Ideal S2048x6 .f32)
  (v3 : Vec Ideal S2048x2 .f32) (r : Fin 2048)

/-- The arm group: band `q` of pairs (`q < 3`) is cut from columns `7 q … 7 q + 3` of the two encodings, so column
    `8 q + b` holds member `b mod 2` of the pair of reading `7 q + b / 2`: entry `14 q + b` of the encoded row. -/
theorem arm_apply (j : Fin 24) :
    k0_pay19 (F := Ideal) (k0_pay2 v0) (k0_pay3 v0) (k0_pay10 v0) (k0_pay11 v0) (k0_pay12 v0) (k0_pay13 v0) (k0_pay14 v0)
        (k0_pay15 v0) (k0_pay16 v0) (k0_pay17 v0) (k0_pay18 v0) (ix2 r j) = arm (row v0 r) j := by
  unfold k0_pay19 k0_pay10 k0_pay13 k0_pay14 k0_pay15 k0_pay16 k0_pay17 k0_pay18 k0_pay11 k0_pay12
  fin_cases j
  · piece 0 from 0 at 0; piece 0 from 0 at 0; band 0 source 0; band 0 source 0; rfl
  · piece 0 from 0 at 1; piece 1 from 1 at 0; band 0 source 0; band 0 source 0; rfl
  · piece 0 from 0 at 2; piece 2 from 2 at 0; band 1 source 1; band 0 source 1; rfl
  · piece 0 from 0 at 3; piece 3 from 3 at 0; band 1 source 1; band 0 source 1; rfl
  · piece 0 from 0 at 4; piece 4 from 4 at 0; band 2 source 2; band 0 source 2; rfl
  · piece 0 from 0 at 5; piece 5 from 5 at 0; band 2 source 2; band 0 source 2; rfl
  · piece 0 from 0 at 6; piece 6 from 6 at 0; band 3 source 3; band 0 source 3; rfl
  · piece 0 from 0 at 7; piece 7 from 7 at 0; band 3 source 3; band 0 source 3; rfl
  · piece 1 from 8 at 0; piece 0 from 0 at 0; band 0 source 0; band 7 source 7; rfl
  · piece 1 from 8 at 1; piece 1 from 1 at 0; band 0 source 0; band 7 source 7; rfl
  · piece 1 from 8 at 2; piece 2 from 2 at 0; band 1 source 1; band 7 source 8; rfl
  · piece 1 from 8 at 3; piece 3 from 3 at 0; band 1 source 1; band 7 source 8; rfl
  · piece 1 from 8 at 4; piece 4 from 4 at 0; band 2 source 2; band 7 source 9; rfl
  · piece 1 from 8 at 5; piece 5 from 5 at 0; band 2 source 2; band 7 source 9; rfl
  · piece 1 from 8 at 6; piece 6 from 6 at 0; band 3 source 3; band 7 source 10; rfl
  · piece 1 from 8 at 7; piece 7 from 7 at 0; band 3 source 3; band 7 source 10; rfl
  · piece 2 from 16 at 0; piece 0 from 0 at 0; band 0 source 0; band 14 source 14; rfl
  · piece 2 from 16 at 1; piece 1 from 1 at 0; band 0 source 0; band 14 source 14; rfl
  · piece 2 from 16 at 2; piece 2 from 2 at 0; band 1 source 1; band 14 source 15; rfl
  · piece 2 from 16 at 3; piece 3 from 3 at 0; band 1 source 1; band 14 source 15; rfl
  · piece 2 from 16 at 4; piece 4 from 4 at 0; band 2 source 2; band 14 source 16; rfl
  · piece 2 from 16 at 5; piece 5 from 5 at 0; band 2 source 2; band 14 source 16; rfl
  · piece 2 from 16 at 6; piece 6 from 6 at 0; band 3 source 3; band 14 source 17; rfl
  · piece 2 from 16 at 7; piece 7 from 7 at 0; band 3 source 3; band 14 source 17; rfl

/-- The wrist group: band `q` of pairs (`q < 3`) is cut from columns `7 q + 4 … 7 q + 6` of the two encodings, so
    column `6 q + b` holds member `b mod 2` of the pair of reading `7 q + 4 + b / 2`: entry `14 q + 8 + b`. -/
theorem wrist_apply (j : Fin 18) :
    k0_pay20 (F := Ideal) (k0_pay2 v0) (k0_pay3 v0) (ix2 r j) = wrist (row v0 r) j := by
  unfold k0_pay20
  fin_cases j
  · piece 0 from 0 at 0; piece 0 from 0 at 0; band 0 source 0; band 4 source 4; rfl
  · piece 0 from 0 at 1; piece 1 from 1 at 0; band 0 source 0; band 4 source 4; rfl
  · piece 0 from 0 at 2; piece 2 from 2 at 0; band 1 source 1; band 4 source 5; rfl
  · piece 0 from 0 at 3; piece 3 from 3 at 0; band 1 source 1; band 4 source 5; rfl
  · piece 0 from 0 at 4; piece 4 from 4 at 0; band 2 source 2; band 4 source 6; rfl
  · piece 0 from 0 at 5; piece 5 from 5 at 0; band 2 source 2; band 4 source 6; rfl
  · piece 1 from 6 at 0; piece 0 from 0 at 0; band 0 source 0; band 11 source 11; rfl
  · piece 1 from 6 at 1; piece 1 from 1 at 0; band 0 source 0; band 11 source 11; rfl
  · piece 1 from 6 at 2; piece 2 from 2 at 0; band 1 source 1; band 11 source 12; rfl
  · piece 1 from 6 at 3; piece 3 from 3 at 0; band 1 source 1; band 11 source 12; rfl
  · piece 1 from 6 at 4; piece 4 from 4 at 0; band 2 source 2; band 11 source 13; rfl
  · piece 1 from 6 at 5; piece 5 from 5 at 0; band 2 source 2; band 11 source 13; rfl
  · piece 2 from 12 at 0; piece 0 from 0 at 0; band 0 source 0; band 18 source 18; rfl
  · piece 2 from 12 at 1; piece 1 from 1 at 0; band 0 source 0; band 18 source 18; rfl
  · piece 2 from 12 at 2; piece 2 from 2 at 0; band 1 source 1; band 18 source 19; rfl
  · piece 2 from 12 at 3; piece 3 from 3 at 0; band 1 source 1; band 18 source 19; rfl
  · piece 2 from 12 at 4; piece 4 from 4 at 0; band 2 source 2; band 18 source 20; rfl
  · piece 2 from 12 at 5; piece 5 from 5 at 0; band 2 source 2; band 18 source 20; rfl

/-- The finger group: the pairs of readings 21 and 22 of the proprioception row (entries 42 … 45 of its encoded
    row), then the two pairs of the tactile row. -/
theorem finger_apply (j : Fin 8) :
    k0_pay21 (F := Ideal) (k0_pay2 v0) (k0_pay3 v0) (k0_pay4 v1) (k0_pay5 v1) (ix2 r j) = finger (row v0 r) (row v1 r) j := by
  unfold k0_pay21
  fin_cases j
  · piece 0 from 0 at 0; piece 0 from 0 at 0; band 21 source 21; rfl
  · piece 0 from 0 at 1; piece 1 from 1 at 0; band 21 source 21; rfl
  · piece 1 from 2 at 0; piece 0 from 0 at 0; band 22 source 22; rfl
  · piece 1 from 2 at 1; piece 1 from 1 at 0; band 22 source 22; rfl
  · piece 2 from 4 at 0; piece 0 from 0 at 0; band 0 source 0; rfl
  · piece 2 from 4 at 1; piece 1 from 1 at 0; band 0 source 0; rfl
  · piece 2 from 4 at 2; piece 2 from 2 at 0; band 1 source 1; rfl
  · piece 2 from 4 at 3; piece 3 from 3 at 0; band 1 source 1; rfl

/-- The head group: the pairs of readings 23 and 24 of the proprioception row (entries 46 … 49 of its encoded row). -/
theorem head_apply (j : Fin 4) :
    k0_pay25 (F := Ideal) (k0_pay22 (k0_pay2 v0) (k0_pay3 v0)) (k0_pay23 (k0_pay2 v0)) (k0_pay24 (k0_pay3 v0)) (ix2 r j)
      = head (row v0 r) j := by
  unfold k0_pay25 k0_pay22 k0_pay23 k0_pay24
  fin_cases j
  · piece 0 from 0 at 0; piece 0 from 0 at 0; band 23 source 23; rfl
  · piece 0 from 0 at 1; piece 1 from 1 at 0; band 23 source 23; rfl
  · piece 1 from 2 at 0; piece 0 from 0 at 0; band 24 source 24; rfl
  · piece 1 from 2 at 1; piece 1 from 1 at 0; band 24 source 24; rfl

/-- The end-effector group: the six pairs of the row, side by side. -/
theorem ee_apply (j : Fin 12) :
    k0_pay26 (F := Ideal) (k0_pay6 v2) (k0_pay7 v2) (ix2 r j) = il (row v2 r) j := by
  unfold k0_pay26
  fin_cases j
  · piece 0 from 0 at 0; band 0 source 0; rfl
  · piece 1 from 1 at 0; band 0 source 0; rfl
  · piece 2 from 2 at 0; band 1 source 1; rfl
  · piece 3 from 3 at 0; band 1 source 1; rfl
  · piece 4 from 4 at 0; band 2 source 2; rfl
  · piece 5 from 5 at 0; band 2 source 2; rfl
  · piece 6 from 6 at 0; band 3 source 3; rfl
  · piece 7 from 7 at 0; band 3 source 3; rfl
  · piece 8 from 8 at 0; band 4 source 4; rfl
  · piece 9 from 9 at 0; band 4 source 4; rfl
  · piece 10 from 10 at 0; band 5 source 5; rfl
  · piece 11 from 11 at 0; band 5 source 5; rfl

/-- The internal-state group: the two pairs of the row, side by side. -/
theorem internal_apply (j : Fin 4) :
    k0_pay27 (F := Ideal) (k0_pay8 v3) (k0_pay9 v3) (ix2 r j) = il (row v3 r) j := by
  unfold k0_pay27
  fin_cases j
  · piece 0 from 0 at 0; band 0 source 0; rfl
  · piece 1 from 1 at 0; band 0 source 0; rfl
  · piece 2 from 2 at 0; band 1 source 1; rfl
  · piece 3 from 3 at 0; band 1 source 1; rfl

end Cert.KRow

end
-- ==== Proof.KLayers.lean ====
/-
  The kernel's perceptrons, the fused row and the normalisation, read at an entry of a block, and with the groups
  of `KGroups` the whole body: the stored block's entry `(r, j)` is the row map `outRow` of row `r` of the four
  sensor blocks.
-/
import proofs.«147661_j65987877535816_1_alg».proof.Proof.Gen.KernelIdeal.Skeleton
import proofs.«147661_j65987877535816_1_alg».proof.Proof.RowSpec
import proofs.«147661_j65987877535816_1_alg».proof.Proof.LibDense
import proofs.«147661_j65987877535816_1_alg».proof.Proof.KGroups
import Idealize.ShloMosaic.PureOps.Ideal.Laws
import Idealize.ShloMosaic.Lib.ValueLayout
import Idealize.ShloMosaic.Lib.Pipeline.Value

noncomputable section

namespace Cert.KRow

open Cert.KernelIdeal Cert.KernelIdeal.Gen Cert.RowSpec Idealize.ShloMosaic Idealize.ShloMosaic.ValueIdx

/-- A column `[a, 1]` laid beside itself `b` times reads, at `(p, c)`, the column's entry `p`. -/
theorem bcastCol_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array given a trailing unit axis reads, at `(p, 0)`, the operand at `p`. -/
theorem castCol_apply {α : Type} {a : ℕ} (x : (⟨1, ![a]⟩ : Shape).Idx → α)
    (h : (⟨1, ![a]⟩ : Shape).ShapeCasts ⟨2, ![a, 1]⟩) (p : Fin a) :
    shapeCast ⟨2, ![a, 1]⟩ x h (ix2 p (0 : Fin 1)) = x (ix1 p) :=
  shapeCast_apply x h _ _ (by
    rw [Shape.rowMajor_val_two, Shape.rowMajor_val_one]
    show p.val = p.val * 1 + 0
    omega)

/-- The sum of a `[2048, 512]` array over its second axis, as a column: entry `(r, 0)` is the sum of row `r`. -/
theorem rowSum_apply (v : FVec Ideal S2048x512 .f32) (r : Fin 2048) :
    shapeCast S2048x1 (multiReduction .add [1] S2048 v 0x00000000#32 reduces_S2048x512_S2048 (.inl rfl) rfl)
        shapeCasts_S2048_S2048x1 (ix2 r (0 : Fin 1)) = ∑ k : Fin 512, v (ix2 r k) := by
  refine (castCol_apply _ _ r).trans ?_
  refine (Ideal.multiReduction_add_single v _ _ _ _ (ix1 r)).trans ?_
  refine Finset.sum_congr rfl fun k _ => congrArg v (funext fun a => Fin.ext ?_)
  match a with
  | ⟨0, _⟩ => rfl
  | ⟨1, _⟩ => rfl

/-- Six blocks of widths 64, 64, 128, 32, 64, 32 laid side by side along the second axis read, at `(r, j)`, the
    side-by-side arrangement `fuse` of their rows `r`: column `j` falls in the block whose span holds it, at the
    column less the widths before it. -/
theorem fuse_apply (f w : FVec Ideal S2048x64 .f32) (a : FVec Ideal S2048x128 .f32) (h : FVec Ideal S2048x32 .f32)
    (e : FVec Ideal S2048x64 .f32) (i : FVec Ideal S2048x32 .f32)
    (hc : Shape.Concatenates (([⟨S2048x64, f⟩, ⟨S2048x64, w⟩, ⟨S2048x128, a⟩, ⟨S2048x32, h⟩, ⟨S2048x64, e⟩, ⟨S2048x32, i⟩] :
        List ((s : Shape) × (s.Idx → EReal))).map (·.1)) S2048x384 1)
    (r : Fin 2048) (j : Fin 384) :
    concatenate S2048x384 1 [⟨S2048x64, f⟩, ⟨S2048x64, w⟩, ⟨S2048x128, a⟩, ⟨S2048x32, h⟩, ⟨S2048x64, e⟩, ⟨S2048x32, i⟩] hc (ix2 r j)
      = fuse (row f r) (row w r) (row a r) (row h r) (row e r) (row i r) j := by
  have hj := j.isLt
  unfold fuse
  split_ifs with h₁ h₂ h₃ h₄ h₅
  · exact concatenate_apply_piece 1 _ hc (ix2 r j) 0 (by simp) S2048x64 f rfl rfl 0 rfl (ix2 r ⟨j.val, h₁⟩)
      (fun b hb => by
        match b with
        | ⟨0, _⟩ => rfl
        | ⟨1, _⟩ => exact absurd rfl hb)
      (by show 0 + j.val = j.val; omega)
  · exact concatenate_apply_piece 1 _ hc (ix2 r j) 1 (by simp) S2048x64 w rfl rfl 64 rfl (ix2 r ⟨j.val - 64, by omega⟩)
      (fun b hb => by
        match b with
        | ⟨0, _⟩ => rfl
        | ⟨1, _⟩ => exact absurd rfl hb)
      (by show 64 + (j.val - 64) = j.val; omega)
  · exact concatenate_apply_piece 1 _ hc (ix2 r j) 2 (by simp) S2048x128 a rfl rfl 128 rfl (ix2 r ⟨j.val - 128, by omega⟩)
      (fun b hb => by
        match b with
        | ⟨0, _⟩ => rfl
        | ⟨1, _⟩ => exact absurd rfl hb)
      (by show 128 + (j.val - 128) = j.val; omega)
  · exact concatenate_apply_piece 1 _ hc (ix2 r j) 3 (by simp) S2048x32 h rfl rfl 256 rfl (ix2 r ⟨j.val - 256, by omega⟩)
      (fun b hb => by
        match b with
        | ⟨0, _⟩ => rfl
        | ⟨1, _⟩ => exact absurd rfl hb)
      (by show 256 + (j.val - 256) = j.val; omega)
  · exact concatenate_apply_piece 1 _ hc (ix2 r j) 4 (by simp) S2048x64 e rfl rfl 288 rfl (ix2 r ⟨j.val - 288, by omega⟩)
      (fun b hb => by
        match b with
        | ⟨0, _⟩ => rfl
        | ⟨1, _⟩ => exact absurd rfl hb)
      (by show 288 + (j.val - 288) = j.val; omega)
  · exact concatenate_apply_piece 1 _ hc (ix2 r j) 5 (by simp) S2048x32 i rfl rfl 352 rfl (ix2 r ⟨j.val - 352, by omega⟩)
      (fun b hb => by
        match b with
        | ⟨0, _⟩ => rfl
        | ⟨1, _⟩ => exact absurd rfl hb)
      (by show 352 + (j.val - 352) = j.val; omega)

theorem pay28_apply (X : FVec Ideal S2048x8 .f32) (W₁ : Vec Ideal S8x32 .f32) (b₁ : Vec Ideal S32 .f32)
    (W₂ : Vec Ideal S32x64 .f32) (b₂ : Vec Ideal S64 .f32) (r : Fin 2048) (j : Fin 64) :
    k0_pay28 (F := Ideal) X W₁ b₁ W₂ b₂ (ix2 r j) = mlp2 W₁ b₁ W₂ b₂ (row X r) j := by
  unfold k0_pay28
  refine (kdense_apply _ rfl _ _ _ _ _ _ r j).trans ?_
  refine congrArg (fun x => dense W₂ b₂ x j) (funext fun k => ?_)
  exact kdense_apply _ rfl _ _ _ _ _ _ r k

theorem pay29_apply (X : FVec Ideal S2048x18 .f32) (W₁ : Vec Ideal S18x64 .f32) (b₁ : Vec Ideal S64 .f32)
    (W₂ : Vec Ideal S64x64 .f32) (b₂ : Vec Ideal S64 .f32) (r : Fin 2048) (j : Fin 64) :
    k0_pay29 (F := Ideal) X W₁ b₁ W₂ b₂ (ix2 r j) = mlp2 W₁ b₁ W₂ b₂ (row X r) j := by
  unfold k0_pay29
  refine (kdense_apply _ rfl _ _ _ _ _ _ r j).trans ?_
  refine congrArg (fun x => dense W₂ b₂ x j) (funext fun k => ?_)
  exact kdense_apply _ rfl _ _ _ _ _ _ r k

theorem pay30_apply (X : FVec Ideal S2048x24 .f32) (W₁ : Vec Ideal S24x64 .f32) (b₁ : Vec Ideal S64 .f32)
    (W₂ : Vec Ideal S64x128 .f32) (b₂ : Vec Ideal S128 .f32) (r : Fin 2048) (j : Fin 128) :
    k0_pay30 (F := Ideal) X W₁ b₁ W₂ b₂ (ix2 r j) = mlp2 W₁ b₁ W₂ b₂ (row X r) j := by
  unfold k0_pay30
  refine (kdense_apply _ rfl _ _ _ _ _ _ r j).trans ?_
  refine congrArg (fun x => dense W₂ b₂ x j) (funext fun k => ?_)
  exact kdense_apply _ rfl _ _ _ _ _ _ r k

theorem pay31_apply (X : FVec Ideal S2048x4 .f32) (W₁ : Vec Ideal S4x16 .f32) (b₁ : Vec Ideal S16 .f32)
    (W₂ : Vec Ideal S16x32 .f32) (b₂ : Vec Ideal S32 .f32) (r : Fin 2048) (j : Fin 32) :
    k0_pay31 (F := Ideal) X W₁ b₁ W₂ b₂ (ix2 r j) = mlp2 W₁ b₁ W₂ b₂ (row X r) j := by
  unfold k0_pay31
  refine (kdense_apply _ rfl _ _ _ _ _ _ r j).trans ?_
  refine congrArg (fun x => dense W₂ b₂ x j) (funext fun k => ?_)
  exact kdense_apply _ rfl _ _ _ _ _ _ r k

theorem pay32_apply (X : FVec Ideal S2048x12 .f32) (W₁ : Vec Ideal S12x32 .f32) (b₁ : Vec Ideal S32 .f32)
    (W₂ : Vec Ideal S32x64 .f32) (b₂ : Vec Ideal S64 .f32) (r : Fin 2048) (j : Fin 64) :
    k0_pay32 (F := Ideal) X W₁ b₁ W₂ b₂ (ix2 r j) = mlp2 W₁ b₁ W₂ b₂ (row X r) j := by
  unfold k0_pay32
  refine (kdense_apply _ rfl _ _ _ _ _ _ r j).trans ?_
  refine congrArg (fun x => dense W₂ b₂ x j) (funext fun k => ?_)
  exact kdense_apply _ rfl _ _ _ _ _ _ r k

/-- The row before normalisation: the sixth branch, the six branch results side by side, the third perceptron. -/
theorem pay33_apply (v126 : FVec Ideal S2048x4 .f32) (v146 : FVec Ideal S2048x64 .f32) (v166 : FVec Ideal S2048x64 .f32) (v186 : FVec Ideal S2048x128 .f32) (v206 : FVec Ideal S2048x32 .f32) (v226 : FVec Ideal S2048x64 .f32) (v227 : Vec Ideal S4x16 .f32) (v228 : Vec Ideal S16 .f32) (v229 : Vec Ideal S16x32 .f32) (v230 : Vec Ideal S32 .f32) (v249 : Vec Ideal S384x512 .f32) (v252 : Vec Ideal S512 .f32) (v259 : Vec Ideal S512x512 .f32) (v262 : Vec Ideal S512 .f32) (r : Fin 2048) (j : Fin 512) :
    k0_pay33 (F := Ideal) v126 v146 v166 v186 v206 v226 v227 v228 v229 v230 v249 v252 v259 v262 (ix2 r j)
      = lin v259 v262 (dense v249 v252 (fuse (row v146 r) (row v166 r) (row v186 r) (row v206 r) (row v226 r)
          (mlp2 v227 v228 v229 v230 (row v126 r)))) j := by
  unfold k0_pay33
  refine (klin_apply _ rfl _ _ _ _ _ _ r j).trans ?_
  refine congrArg (fun x => lin v259 v262 x j) (funext fun k => ?_)
  refine (kdense_apply _ rfl _ _ _ _ _ _ r k).trans ?_
  refine congrArg (fun x => dense v249 v252 x k) (funext fun m => ?_)
  refine (fuse_apply _ _ _ _ _ _ _ r m).trans ?_
  refine congrArg (fun x => fuse (row v146 r) (row v166 r) (row v186 r) (row v206 r) (row v226 r) x m) (funext fun n => ?_)
  refine (kdense_apply _ rfl _ _ _ _ _ _ r n).trans ?_
  refine congrArg (fun x => dense v229 v230 x n) (funext fun q => ?_)
  exact kdense_apply _ rfl _ _ _ _ _ _ r q

/-- The mean of the row. -/
theorem pay34_apply (v126 : FVec Ideal S2048x4 .f32) (v146 : FVec Ideal S2048x64 .f32) (v166 : FVec Ideal S2048x64 .f32) (v186 : FVec Ideal S2048x128 .f32) (v206 : FVec Ideal S2048x32 .f32) (v226 : FVec Ideal S2048x64 .f32) (v227 : Vec Ideal S4x16 .f32) (v228 : Vec Ideal S16 .f32) (v229 : Vec Ideal S16x32 .f32) (v230 : Vec Ideal S32 .f32) (v249 : Vec Ideal S384x512 .f32) (v252 : Vec Ideal S512 .f32) (v259 : Vec Ideal S512x512 .f32) (v262 : Vec Ideal S512 .f32) (r : Fin 2048) (z : Fin 512 → EReal)
    (hz : ∀ j, k0_pay33 (F := Ideal) v126 v146 v166 v186 v206 v226 v227 v228 v229 v230 v249 v252 v259 v262 (ix2 r j) = z j) :
    k0_pay34 (F := Ideal) v126 v146 v166 v186 v206 v226 v227 v228 v229 v230 v249 v252 v259 v262 (ix2 r (0 : Fin 1)) = mean512 z := by
  unfold k0_pay34
  refine (divf_apply _ _ _).trans ?_
  refine congrArg (fun s => Ideal.div s c512) ?_
  refine (rowSum_apply _ r).trans ?_
  exact Finset.sum_congr rfl fun k _ => hz k

/-- The sum of the squared deviations from the mean. -/
theorem pay35_apply (v126 : FVec Ideal S2048x4 .f32) (v146 : FVec Ideal S2048x64 .f32) (v166 : FVec Ideal S2048x64 .f32) (v186 : FVec Ideal S2048x128 .f32) (v206 : FVec Ideal S2048x32 .f32) (v226 : FVec Ideal S2048x64 .f32) (v227 : Vec Ideal S4x16 .f32) (v228 : Vec Ideal S16 .f32) (v229 : Vec Ideal S16x32 .f32) (v230 : Vec Ideal S32 .f32) (v249 : Vec Ideal S384x512 .f32) (v252 : Vec Ideal S512 .f32) (v259 : Vec Ideal S512x512 .f32) (v262 : Vec Ideal S512 .f32) (r : Fin 2048) (z : Fin 512 → EReal)
    (hz : ∀ j, k0_pay33 (F := Ideal) v126 v146 v166 v186 v206 v226 v227 v228 v229 v230 v249 v252 v259 v262 (ix2 r j) = z j) :
    k0_pay35 (F := Ideal) v126 v146 v166 v186 v206 v226 v227 v228 v229 v230 v249 v252 v259 v262 (ix2 r (0 : Fin 1)) = ∑ k : Fin 512, (z k - mean512 z) * (z k - mean512 z) := by
  have hm := pay34_apply v126 v146 v166 v186 v206 v226 v227 v228 v229 v230 v249 v252 v259 v262 r z hz
  unfold k0_pay35
  refine (rowSum_apply _ r).trans ?_
  refine Finset.sum_congr rfl fun k _ => ?_
  rw [mulf_apply, subf_apply, bcastCol_apply, hz k, hm]

/-- The last stretch: deviation times reciprocal square root, gain and bias. -/
theorem pay1_apply (v265 : FVec Ideal S2048x512 .f32) (v269 v274 : FVec Ideal S2048x1 .f32) (v284 v288 : Vec Ideal S512 .f32)
    (r : Fin 2048) (j : Fin 512) :
    k0_pay1 (F := Ideal) v265 v269 v274 v284 v288 (ix2 r j)
      = (v265 (ix2 r j) - v269 (ix2 r (0 : Fin 1))) * Ideal.rsqrt (Ideal.div (v274 (ix2 r (0 : Fin 1))) c512 + lnEps)
          * v284 (ix1 j) + v288 (ix1 j) := by
  unfold k0_pay1
  rw [addf_apply, biasRow_apply, mulf_apply, biasRow_apply, mulf_apply, subf_apply, bcastCol_apply, bcastCol_apply]
  rfl

/-- THE BODY: the stored value at entry `(r, j)` of the block is the row map of row `r` of the sensor blocks. -/
theorem body_apply (x0 : Vec Ideal S2048x25 .f32) (x1 : Vec Ideal S2048x2 .f32) (x2 : Vec Ideal S2048x6 .f32) (x3 : Vec Ideal S2048x2 .f32) (x4 : Vec Ideal S8x32 .f32) (x5 : Vec Ideal S32 .f32) (x6 : Vec Ideal S32x64 .f32) (x7 : Vec Ideal S64 .f32) (x8 : Vec Ideal S18x64 .f32) (x9 : Vec Ideal S64 .f32) (x10 : Vec Ideal S64x64 .f32) (x11 : Vec Ideal S64 .f32) (x12 : Vec Ideal S24x64 .f32) (x13 : Vec Ideal S64 .f32) (x14 : Vec Ideal S64x128 .f32) (x15 : Vec Ideal S128 .f32) (x16 : Vec Ideal S4x16 .f32) (x17 : Vec Ideal S16 .f32) (x18 : Vec Ideal S16x32 .f32) (x19 : Vec Ideal S32 .f32) (x20 : Vec Ideal S12x32 .f32) (x21 : Vec Ideal S32 .f32) (x22 : Vec Ideal S32x64 .f32) (x23 : Vec Ideal S64 .f32) (x24 : Vec Ideal S4x16 .f32) (x25 : Vec Ideal S16 .f32) (x26 : Vec Ideal S16x32 .f32) (x27 : Vec Ideal S32 .f32) (x28 : Vec Ideal S384x512 .f32) (x29 : Vec Ideal S512 .f32) (x30 : Vec Ideal S512x512 .f32) (x31 : Vec Ideal S512 .f32) (x32 : Vec Ideal S512 .f32) (x33 : Vec Ideal S512 .f32) (r : Fin 2048) (j : Fin 512) :
    k0_pay1 (F := Ideal) (k0_pay33 (k0_pay27 (k0_pay8 x3) (k0_pay9 x3)) (k0_pay28 (k0_pay21 (k0_pay2 x0) (k0_pay3 x0) (k0_pay4 x1) (k0_pay5 x1)) x4 x5 x6 x7) (k0_pay29 (k0_pay20 (k0_pay2 x0) (k0_pay3 x0)) x8 x9 x10 x11) (k0_pay30 (k0_pay19 (k0_pay2 x0) (k0_pay3 x0) (k0_pay10 x0) (k0_pay11 x0) (k0_pay12 x0) (k0_pay13 x0) (k0_pay14 x0) (k0_pay15 x0) (k0_pay16 x0) (k0_pay17 x0) (k0_pay18 x0)) x12 x13 x14 x15) (k0_pay31 (k0_pay25 (k0_pay22 (k0_pay2 x0) (k0_pay3 x0)) (k0_pay23 (k0_pay2 x0)) (k0_pay24 (k0_pay3 x0))) x16 x17 x18 x19) (k0_pay32 (k0_pay26 (k0_pay6 x2) (k0_pay7 x2)) x20 x21 x22 x23) x24 x25 x26 x27 x28 x29 x30 x31) (k0_pay34 (k0_pay27 (k0_pay8 x3) (k0_pay9 x3)) (k0_pay28 (k0_pay21 (k0_pay2 x0) (k0_pay3 x0) (k0_pay4 x1) (k0_pay5 x1)) x4 x5 x6 x7) (k0_pay29 (k0_pay20 (k0_pay2 x0) (k0_pay3 x0)) x8 x9 x10 x11) (k0_pay30 (k0_pay19 (k0_pay2 x0) (k0_pay3 x0) (k0_pay10 x0) (k0_pay11 x0) (k0_pay12 x0) (k0_pay13 x0) (k0_pay14 x0) (k0_pay15 x0) (k0_pay16 x0) (k0_pay17 x0) (k0_pay18 x0)) x12 x13 x14 x15) (k0_pay31 (k0_pay25 (k0_pay22 (k0_pay2 x0) (k0_pay3 x0)) (k0_pay23 (k0_pay2 x0)) (k0_pay24 (k0_pay3 x0))) x16 x17 x18 x19) (k0_pay32 (k0_pay26 (k0_pay6 x2) (k0_pay7 x2)) x20 x21 x22 x23) x24 x25 x26 x27 x28 x29 x30 x31) (k0_pay35 (k0_pay27 (k0_pay8 x3) (k0_pay9 x3)) (k0_pay28 (k0_pay21 (k0_pay2 x0) (k0_pay3 x0) (k0_pay4 x1) (k0_pay5 x1)) x4 x5 x6 x7) (k0_pay29 (k0_pay20 (k0_pay2 x0) (k0_pay3 x0)) x8 x9 x10 x11) (k0_pay30 (k0_pay19 (k0_pay2 x0) (k0_pay3 x0) (k0_pay10 x0) (k0_pay11 x0) (k0_pay12 x0) (k0_pay13 x0) (k0_pay14 x0) (k0_pay15 x0) (k0_pay16 x0) (k0_pay17 x0) (k0_pay18 x0)) x12 x13 x14 x15) (k0_pay31 (k0_pay25 (k0_pay22 (k0_pay2 x0) (k0_pay3 x0)) (k0_pay23 (k0_pay2 x0)) (k0_pay24 (k0_pay3 x0))) x16 x17 x18 x19) (k0_pay32 (k0_pay26 (k0_pay6 x2) (k0_pay7 x2)) x20 x21 x22 x23) x24 x25 x26 x27 x28 x29 x30 x31) x32 x33 (ix2 r j)
      = outRow ⟨x4, x5, x6, x7, x8, x9, x10, x11, x12, x13, x14, x15, x16, x17, x18, x19, x20, x21, x22, x23, x24, x25, x26, x27, x28, x29, x30, x31, x32, x33⟩ (row x0 r) (row x1 r) (row x2 r) (row x3 r) j := by
  -- the six groups of encoded readings of row `r`
  have hf : row (k0_pay21 (k0_pay2 x0) (k0_pay3 x0) (k0_pay4 x1) (k0_pay5 x1)) r = finger (row x0 r) (row x1 r) := funext fun k => finger_apply x0 x1 r k
  have hw : row (k0_pay20 (k0_pay2 x0) (k0_pay3 x0)) r = wrist (row x0 r) := funext fun k => wrist_apply x0 r k
  have ha : row (k0_pay19 (k0_pay2 x0) (k0_pay3 x0) (k0_pay10 x0) (k0_pay11 x0) (k0_pay12 x0) (k0_pay13 x0) (k0_pay14 x0) (k0_pay15 x0) (k0_pay16 x0) (k0_pay17 x0) (k0_pay18 x0)) r = arm (row x0 r) := funext fun k => arm_apply x0 r k
  have hh : row (k0_pay25 (k0_pay22 (k0_pay2 x0) (k0_pay3 x0)) (k0_pay23 (k0_pay2 x0)) (k0_pay24 (k0_pay3 x0))) r = head (row x0 r) := funext fun k => head_apply x0 r k
  have he : row (k0_pay26 (k0_pay6 x2) (k0_pay7 x2)) r = il (row x2 r) := funext fun k => ee_apply x2 r k
  have hi : row (k0_pay27 (k0_pay8 x3) (k0_pay9 x3)) r = il (row x3 r) := funext fun k => internal_apply x3 r k
  -- the first five branches of row `r`
  have e28 : row (k0_pay28 (k0_pay21 (k0_pay2 x0) (k0_pay3 x0) (k0_pay4 x1) (k0_pay5 x1)) x4 x5 x6 x7) r = mlp2 x4 x5 x6 x7 (finger (row x0 r) (row x1 r)) :=
    funext fun m => (pay28_apply _ _ _ _ _ r m).trans (by rw [hf])
  have e29 : row (k0_pay29 (k0_pay20 (k0_pay2 x0) (k0_pay3 x0)) x8 x9 x10 x11) r = mlp2 x8 x9 x10 x11 (wrist (row x0 r)) :=
    funext fun m => (pay29_apply _ _ _ _ _ r m).trans (by rw [hw])
  have e30 : row (k0_pay30 (k0_pay19 (k0_pay2 x0) (k0_pay3 x0) (k0_pay10 x0) (k0_pay11 x0) (k0_pay12 x0) (k0_pay13 x0) (k0_pay14 x0) (k0_pay15 x0) (k0_pay16 x0) (k0_pay17 x0) (k0_pay18 x0)) x12 x13 x14 x15) r = mlp2 x12 x13 x14 x15 (arm (row x0 r)) :=
    funext fun m => (pay30_apply _ _ _ _ _ r m).trans (by rw [ha])
  have e31 : row (k0_pay31 (k0_pay25 (k0_pay22 (k0_pay2 x0) (k0_pay3 x0)) (k0_pay23 (k0_pay2 x0)) (k0_pay24 (k0_pay3 x0))) x16 x17 x18 x19) r = mlp2 x16 x17 x18 x19 (head (row x0 r)) :=
    funext fun m => (pay31_apply _ _ _ _ _ r m).trans (by rw [hh])
  have e32 : row (k0_pay32 (k0_pay26 (k0_pay6 x2) (k0_pay7 x2)) x20 x21 x22 x23) r = mlp2 x20 x21 x22 x23 (il (row x2 r)) :=
    funext fun m => (pay32_apply _ _ _ _ _ r m).trans (by rw [he])
  -- the row before normalisation
  have hz : ∀ k, k0_pay33 (F := Ideal) (k0_pay27 (k0_pay8 x3) (k0_pay9 x3)) (k0_pay28 (k0_pay21 (k0_pay2 x0) (k0_pay3 x0) (k0_pay4 x1) (k0_pay5 x1)) x4 x5 x6 x7) (k0_pay29 (k0_pay20 (k0_pay2 x0) (k0_pay3 x0)) x8 x9 x10 x11) (k0_pay30 (k0_pay19 (k0_pay2 x0) (k0_pay3 x0) (k0_pay10 x0) (k0_pay11 x0) (k0_pay12 x0) (k0_pay13 x0) (k0_pay14 x0) (k0_pay15 x0) (k0_pay16 x0) (k0_pay17 x0) (k0_pay18 x0)) x12 x13 x14 x15) (k0_pay31 (k0_pay25 (k0_pay22 (k0_pay2 x0) (k0_pay3 x0)) (k0_pay23 (k0_pay2 x0)) (k0_pay24 (k0_pay3 x0))) x16 x17 x18 x19) (k0_pay32 (k0_pay26 (k0_pay6 x2) (k0_pay7 x2)) x20 x21 x22 x23) x24 x25 x26 x27 x28 x29 x30 x31 (ix2 r k)
      = preNorm (⟨x4, x5, x6, x7, x8, x9, x10, x11, x12, x13, x14, x15, x16, x17, x18, x19, x20, x21, x22, x23, x24, x25, x26, x27, x28, x29, x30, x31, x32, x33⟩ : Weights) (row x0 r) (row x1 r) (row x2 r) (row x3 r) k := by
    intro k
    rw [pay33_apply, e28, e29, e30, e31, e32, hi]
    rfl
  -- the mean, the squared deviations, and the last stretch
  rw [pay1_apply, pay34_apply _ _ _ _ _ _ _ _ _ _ _ _ _ _ r _ hz, pay35_apply _ _ _ _ _ _ _ _ _ _ _ _ _ _ r _ hz, hz j]
  rfl

end Cert.KRow

end
-- ==== Proof.KernelValue.lean ====
/-
  From the kernel's blocks to its whole result array.

  Grid point `t` (of 64) stages rows `2048 t … 2048 t + 2047` of the four sensor arrays and the whole of every weight
  array, and writes back rows `2048 t … 2048 t + 2047` of the result. The body's stored block is, entry by entry, the
  row map of the staged sensor rows (`KRow.body_apply`), so what point `t` writes back is block `t` of ONE array:
  `outArr` of the argument arrays. The 64 blocks tile the 131072 rows, so the result array ends holding `outArr`.
  (That a weight window stages its whole array at every point is `WeightBlocks`' `blk4` … `blk33`.)
-/
import proofs.«147661_j65987877535816_1_alg».proof.Proof.KernelIdealFrame
import proofs.«147661_j65987877535816_1_alg».proof.Proof.WeightBlocks
import proofs.«147661_j65987877535816_1_alg».proof.Proof.RowSpec
import proofs.«147661_j65987877535816_1_alg».proof.Proof.KLayers

noncomputable section

namespace Cert.KVal

open Cert.KernelIdeal Cert.KernelIdeal.Gen Cert.KernelIdeal.P.Gen Cert.RowSpec
open Idealize.ShloMosaic Idealize.ShloMosaic.TcCoe Idealize.SL.Sem Idealize.ShloMosaic.ValueIdx
open Idealize.ShloMosaic.Pipeline (Dat)

theorem hz2 : (![0, 0] : Fin 2 → Nat) = fun _ => 0 := funext fun a => by fin_cases a <;> rfl
theorem hz1 : (![0] : Fin 1 → Nat) = fun _ => 0 := funext fun a => by fin_cases a <;> rfl

/-- The body's stored block, as one array of 2048 rows: `outArr` of the staged blocks. -/
theorem out_eq (x0 : Vec Ideal S2048x25 .f32) (x1 : Vec Ideal S2048x2 .f32) (x2 : Vec Ideal S2048x6 .f32) (x3 : Vec Ideal S2048x2 .f32) (x4 : Vec Ideal S8x32 .f32) (x5 : Vec Ideal S32 .f32) (x6 : Vec Ideal S32x64 .f32) (x7 : Vec Ideal S64 .f32) (x8 : Vec Ideal S18x64 .f32) (x9 : Vec Ideal S64 .f32) (x10 : Vec Ideal S64x64 .f32) (x11 : Vec Ideal S64 .f32) (x12 : Vec Ideal S24x64 .f32) (x13 : Vec Ideal S64 .f32) (x14 : Vec Ideal S64x128 .f32) (x15 : Vec Ideal S128 .f32) (x16 : Vec Ideal S4x16 .f32) (x17 : Vec Ideal S16 .f32) (x18 : Vec Ideal S16x32 .f32) (x19 : Vec Ideal S32 .f32) (x20 : Vec Ideal S12x32 .f32) (x21 : Vec Ideal S32 .f32) (x22 : Vec Ideal S32x64 .f32) (x23 : Vec Ideal S64 .f32) (x24 : Vec Ideal S4x16 .f32) (x25 : Vec Ideal S16 .f32) (x26 : Vec Ideal S16x32 .f32) (x27 : Vec Ideal S32 .f32) (x28 : Vec Ideal S384x512 .f32) (x29 : Vec Ideal S512 .f32) (x30 : Vec Ideal S512x512 .f32) (x31 : Vec Ideal S512 .f32) (x32 : Vec Ideal S512 .f32) (x33 : Vec Ideal S512 .f32) :
    out0_34 (F := Ideal) x0 x1 x2 x3 x4 x5 x6 x7 x8 x9 x10 x11 x12 x13 x14 x15 x16 x17 x18 x19 x20 x21 x22 x23 x24 x25 x26 x27 x28 x29 x30 x31 x32 x33 = outArr (N := 2048) ⟨x4, x5, x6, x7, x8, x9, x10, x11, x12, x13, x14, x15, x16, x17, x18, x19, x20, x21, x22, x23, x24, x25, x26, x27, x28, x29, x30, x31, x32, x33⟩ x0 x1 x2 x3 := by
  unfold out0_34
  rw [View.canon_unit_zero hz2]
  simp only [View.ld_unit_zero (S := S2048x25) hz2, View.ld_unit_zero (S := S2048x2) hz2, View.ld_unit_zero (S := S2048x6) hz2, View.ld_unit_zero (S := S8x32) hz2, View.ld_unit_zero (S := S32) hz1, View.ld_unit_zero (S := S32x64) hz2, View.ld_unit_zero (S := S64) hz1, View.ld_unit_zero (S := S18x64) hz2, View.ld_unit_zero (S := S64x64) hz2, View.ld_unit_zero (S := S24x64) hz2, View.ld_unit_zero (S := S64x128) hz2, View.ld_unit_zero (S := S128) hz1, View.ld_unit_zero (S := S4x16) hz2, View.ld_unit_zero (S := S16) hz1, View.ld_unit_zero (S := S16x32) hz2, View.ld_unit_zero (S := S12x32) hz2, View.ld_unit_zero (S := S384x512) hz2, View.ld_unit_zero (S := S512) hz1, View.ld_unit_zero (S := S512x512) hz2]
  funext y
  obtain ⟨p, q, rfl⟩ : ∃ (p : Fin 2048) (q : Fin 512), y = ix2 p q := ⟨y 0, y 1, eq_ix2 y⟩
  exact KRow.body_apply x0 x1 x2 x3 x4 x5 x6 x7 x8 x9 x10 x11 x12 x13 x14 x15 x16 x17 x18 x19 x20 x21 x22 x23 x24 x25 x26 x27 x28 x29 x30 x31 x32 x33 p q

variable (m : (ℓ : Loc nD τ sig) → Buf (Elt Ideal) ℓ) (ρ : Dev nD → PrngReg)

/-- The weights as core `c` finds them. -/
def wts (c : Dev nD) : Weights :=
  ⟨V m c main_arg4, V m c main_arg5, V m c main_arg6, V m c main_arg7, V m c main_arg8, V m c main_arg9, V m c main_arg10, V m c main_arg11, V m c main_arg12, V m c main_arg13, V m c main_arg14, V m c main_arg15, V m c main_arg16, V m c main_arg17, V m c main_arg18, V m c main_arg19, V m c main_arg20, V m c main_arg21, V m c main_arg22, V m c main_arg23, V m c main_arg24, V m c main_arg25, V m c main_arg26, V m c main_arg27, V m c main_arg28, V m c main_arg29, V m c main_arg30, V m c main_arg31, V m c main_arg32, V m c main_arg33⟩

/-- The whole result: row `R` is the row map of row `R` of the sensor arrays. -/
def G (c : Dev nD) : S131072x512.Idx → Elt Ideal .f32 :=
  outArr (N := 131072) (wts m c) (V m c main_arg0) (V m c main_arg1) (V m c main_arg2) (V m c main_arg3)

/-- The printed index maps over the grid: the sensor windows and the result window move together along the rows and
    stay at column block 0; the row block is below 64. -/
theorem idx_facts : ∀ t : Fin cfg0.N,
    win0_0.index t (0 : Fin 2) = win0_34.index t (0 : Fin 2) ∧ win0_0.index t (1 : Fin 2) = 0
    ∧ win0_1.index t (0 : Fin 2) = win0_34.index t (0 : Fin 2) ∧ win0_1.index t (1 : Fin 2) = 0
    ∧ win0_2.index t (0 : Fin 2) = win0_34.index t (0 : Fin 2) ∧ win0_2.index t (1 : Fin 2) = 0
    ∧ win0_3.index t (0 : Fin 2) = win0_34.index t (0 : Fin 2) ∧ win0_3.index t (1 : Fin 2) = 0
    ∧ win0_34.index t (1 : Fin 2) = 0 ∧ win0_34.index t (0 : Fin 2) ≤ 63 :=
  (by decide +kernel : ∀ t : Fin grid0.N, _)

/-- Every row block is some point's. -/
theorem idx_onto : ∀ q : Fin 64, ∃ t : Fin cfg0.N, win0_34.index t = ![q.val, 0] :=
  (by decide +kernel : ∀ q : Fin 64, ∃ t : Fin grid0.N, win0_34.index t = ![q.val, 0])

/-- Row `p` of the staged block of sensor window 0 is the array's row under it. -/
theorem rows0 (c : Dev nD) (t : Fin cfg0.N) (p : Fin 2048) (R : Fin 131072) (hR : R.val = win0_34.index t (0 : Fin 2) * 2048 + p.val) :
    row (iblk m c 0 t) p = row (V m c main_arg0) R := by
  obtain ⟨e0, e1, -⟩ := idx_facts t
  funext k
  show V m c main_arg0 (((cfg0.win 0).blk t).view.emb (ix2 p k)) = V m c main_arg0 (ix2 R k)
  refine congrArg _ (funext fun a => Fin.ext ?_)
  match a with
  | ⟨0, _⟩ => show win0_0.index t (0 : Fin 2) * 2048 + 1 * p.val = R.val; omega
  | ⟨1, _⟩ => show win0_0.index t (1 : Fin 2) * 25 + 1 * k.val = k.val; omega

theorem rows1 (c : Dev nD) (t : Fin cfg0.N) (p : Fin 2048) (R : Fin 131072) (hR : R.val = win0_34.index t (0 : Fin 2) * 2048 + p.val) :
    row (iblk m c 1 t) p = row (V m c main_arg1) R := by
  obtain ⟨-, -, e0, e1, -⟩ := idx_facts t
  funext k
  show V m c main_arg1 (((cfg0.win 1).blk t).view.emb (ix2 p k)) = V m c main_arg1 (ix2 R k)
  refine congrArg _ (funext fun a => Fin.ext ?_)
  match a with
  | ⟨0, _⟩ => show win0_1.index t (0 : Fin 2) * 2048 + 1 * p.val = R.val; omega
  | ⟨1, _⟩ => show win0_1.index t (1 : Fin 2) * 2 + 1 * k.val = k.val; omega

theorem rows2 (c : Dev nD) (t : Fin cfg0.N) (p : Fin 2048) (R : Fin 131072) (hR : R.val = win0_34.index t (0 : Fin 2) * 2048 + p.val) :
    row (iblk m c 2 t) p = row (V m c main_arg2) R := by
  obtain ⟨-, -, -, -, e0, e1, -⟩ := idx_facts t
  funext k
  show V m c main_arg2 (((cfg0.win 2).blk t).view.emb (ix2 p k)) = V m c main_arg2 (ix2 R k)
  refine congrArg _ (funext fun a => Fin.ext ?_)
  match a with
  | ⟨0, _⟩ => show win0_2.index t (0 : Fin 2) * 2048 + 1 * p.val = R.val; omega
  | ⟨1, _⟩ => show win0_2.index t (1 : Fin 2) * 6 + 1 * k.val = k.val; omega

theorem rows3 (c : Dev nD) (t : Fin cfg0.N) (p : Fin 2048) (R : Fin 131072) (hR : R.val = win0_34.index t (0 : Fin 2) * 2048 + p.val) :
    row (iblk m c 3 t) p = row (V m c main_arg3) R := by
  obtain ⟨-, -, -, -, -, -, e0, e1, -⟩ := idx_facts t
  funext k
  show V m c main_arg3 (((cfg0.win 3).blk t).view.emb (ix2 p k)) = V m c main_arg3 (ix2 R k)
  refine congrArg _ (funext fun a => Fin.ext ?_)
  match a with
  | ⟨0, _⟩ => show win0_3.index t (0 : Fin 2) * 2048 + 1 * p.val = R.val; omega
  | ⟨1, _⟩ => show win0_3.index t (1 : Fin 2) * 2 + 1 * k.val = k.val; omega

/-- WHAT POINT `t` WRITES BACK is block `t` of `G`. -/
theorem flushed_eq (c : Dev nD) (t : Fin cfg0.N) :
    (dats m 0 c).flushed 34 t = ((cfg0.win 34).blk t).view.read (Elt Ideal) (G m c) := by
  show (cfg0.win 34).cut (grid0.coords t) ((dats m 0 c).after 34 t) = _
  rw [after0_34, out_eq]
  obtain ⟨-, -, -, -, -, -, -, -, e1, e0⟩ := idx_facts t
  funext y
  obtain ⟨p, q, rfl⟩ : ∃ (p : Fin 2048) (q : Fin 512), y = ix2 p q := ⟨y 0, y 1, eq_ix2 y⟩
  have hR : win0_34.index t (0 : Fin 2) * 2048 + p.val < 131072 := by have := p.isLt; omega
  have hemb : ((cfg0.win 34).blk t).view.emb (ix2 p q) = ix2 (⟨win0_34.index t (0 : Fin 2) * 2048 + p.val, hR⟩ : Fin 131072) q := by
    funext a; apply Fin.ext
    match a with
    | ⟨0, _⟩ => show win0_34.index t (0 : Fin 2) * 2048 + 1 * p.val = win0_34.index t (0 : Fin 2) * 2048 + p.val; omega
    | ⟨1, _⟩ => show win0_34.index t (1 : Fin 2) * 512 + 1 * q.val = q.val; omega
  show outArr (N := 2048) _ (iblk m c 0 t) (iblk m c 1 t) (iblk m c 2 t) (iblk m c 3 t) (ix2 p q) = G m c (((cfg0.win 34).blk t).view.emb (ix2 p q))
  rw [hemb]
  show outRow _ (row (iblk m c 0 t) p) (row (iblk m c 1 t) p) (row (iblk m c 2 t) p) (row (iblk m c 3 t) p) q
      = outRow (wts m c) (row (V m c main_arg0) _) (row (V m c main_arg1) _) (row (V m c main_arg2) _) (row (V m c main_arg3) _) q
  rw [rows0 m c t p ⟨_, hR⟩ rfl, rows1 m c t p ⟨_, hR⟩ rfl, rows2 m c t p ⟨_, hR⟩ rfl, rows3 m c t p ⟨_, hR⟩ rfl,
    blk4 m c t, blk5 m c t, blk6 m c t, blk7 m c t, blk8 m c t, blk9 m c t, blk10 m c t, blk11 m c t, blk12 m c t, blk13 m c t, blk14 m c t, blk15 m c t, blk16 m c t, blk17 m c t, blk18 m c t, blk19 m c t, blk20 m c t, blk21 m c t, blk22 m c t, blk23 m c t, blk24 m c t, blk25 m c t, blk26 m c t, blk27 m c t, blk28 m c t, blk29 m c t, blk30 m c t, blk31 m c t, blk32 m c t, blk33 m c t]
  rfl

/-- An index of the result array is in point `t`'s block iff each coordinate is in the block's range on its axis. -/
theorem mem_blk (t : Fin cfg0.N) (i : S131072x512.Idx) :
    i ∈ ((cfg0.win 34).blk t).view.set ↔ ∀ a : Fin 2, win0_34.index t a * S2048x512.size a ≤ (i a).val ∧ (i a).val < win0_34.index t a * S2048x512.size a + S2048x512.size a := by
  show i ∈ ((View.whole main_v0).slice (win0_34.rect t)).set ↔ _
  rw [View.set_slice_whole, Rect.mem_set_unit]
  exact Iff.rfl

/-- The 64 blocks cover the array: row `R` is in the block of the point whose row block is `R / 2048`. -/
theorem cover (i : S131072x512.Idx) : ∃ t : Fin cfg0.N, (cfg0.win 34).flush t = true ∧ i ∈ ((cfg0.win 34).blk t).view.set := by
  have hi0 : (i 0).val < 131072 := (i 0).isLt
  have hi1 : (i 1).val < 512 := (i 1).isLt
  obtain ⟨t, ht⟩ := idx_onto ⟨(i 0).val / 2048, by omega⟩
  have q0 : win0_34.index t (0 : Fin 2) = (i 0).val / 2048 := congrFun ht 0
  have q1 : win0_34.index t (1 : Fin 2) = 0 := congrFun ht 1
  refine ⟨t, flush0_34 t, ?_⟩
  rw [mem_blk]
  intro a
  match a with
  | ⟨0, _⟩ => show win0_34.index t (0 : Fin 2) * 2048 ≤ (i 0).val ∧ (i 0).val < win0_34.index t (0 : Fin 2) * 2048 + 2048; omega
  | ⟨1, _⟩ => show win0_34.index t (1 : Fin 2) * 512 ≤ (i 1).val ∧ (i 1).val < win0_34.index t (1 : Fin 2) * 512 + 512; omega

/-- THE ARRAY after the run. -/
theorem final (c : Dev nD) : (dats m 0 c).arrAt 34 cfg0.N = G m c :=
  (dats m 0 c).arrAt_eq_of_cover 34 (G m c) (fun t _ => flushed_eq m c t) cover

end Cert.KVal

end
-- ==== Proof.RGroups.lean ====
/-
  The reference's six groups of encoded readings, read at an entry: each is the row map of RowSpec applied to the
  array's row. (The reference encodes a whole row as [readings, 2] pairs, reshapes the pairs side by side, and cuts
  the groups out of that.)

  First the facts that mention no program: two arrays whose last axis has extent one, joined along it, alternate;
  one over one plus the exponential of minus a logarithm, with the format's 1.0 for the ones, is the logistic function
  of the logarithm; arrays joined along the columns are read piece by piece. Then, for each of the four sensor
  arrays, the encoded array at (R, j) is member j mod 2 of the pair of reading j / 2 of row R. Last the groups: a
  group's entry j lies in one piece of the group's concatenation, the piece is a slice (of a slice) of the encoded
  proprioception row, and the offsets add up to the entry RowSpec names.
-/
import proofs.«147661_j65987877535816_1_alg».proof.Proof.Gen.ReferenceIdeal.Read
import proofs.«147661_j65987877535816_1_alg».proof.Proof.RowSpec
import Idealize.ShloMosaic.Lib.ValueIdx
import Idealize.ShloMosaic.Lib.ValueLayout
import Idealize.ShloMosaic.Lib.Pipeline.Value
import Idealize.ShloMosaic.Lib.IdealHost

noncomputable section

namespace Cert.RRow

open Cert.ReferenceIdeal Cert.ReferenceIdeal.Read Cert.RowSpec Idealize.ShloMosaic Idealize.ShloMosaic.ValueIdx

/-! ## Joined arrays read at an entry, and the pair's second member -/

/-- Two arrays with a last axis of extent one, joined along that axis: entry (r, k, c) of the result is entry
    (r, k, 0) of the first array when c = 0 and of the second otherwise. -/
theorem concat_unit_pair {α : Type} {N K : Nat} (a b : (⟨3, ![N, K, 1]⟩ : Shape).Idx → α)
    (h : Shape.Concatenates [(⟨3, ![N, K, 1]⟩ : Shape), ⟨3, ![N, K, 1]⟩] ⟨3, ![N, K, 2]⟩ 2)
    (r : Fin N) (k : Fin K) (c : Fin 2) :
    concatenate ⟨3, ![N, K, 2]⟩ 2 [⟨_, a⟩, ⟨_, b⟩] h (ix3 r k c)
      = if c.val = 0 then a (ix3 r k 0) else b (ix3 r k 0) := by
  by_cases hc : c.val = 0
  · rw [if_pos hc]
    refine concatenate_pair_apply_left _ a b h (ix3 r k c) rfl (ix3 r k 0) (fun d => ?_)
    match d with
    | ⟨0, _⟩ => rfl
    | ⟨1, _⟩ => rfl
    | ⟨2, _⟩ => exact hc.symm
  · rw [if_neg hc]
    refine concatenate_pair_apply_right _ a b h (ix3 r k c) rfl rfl (ix3 r k 0) (fun d hd => ?_) ?_
    · match d with
      | ⟨0, _⟩ => rfl
      | ⟨1, _⟩ => rfl
      | ⟨2, _⟩ => exact absurd rfl hd
    · have := c.isLt
      show 0 + 1 = c.val
      omega

/-- The second member of a reading's pair, as the programs compute it from the format's 1.0 and the shift. -/
theorem encE_eq (x : EReal) :
    FloatOps.hostDivf (F := Ideal) (φ := .f32) (FloatOps.ofBits .f32 0x3F800000#32)
      (FloatOps.addf (FloatOps.ofBits .f32 0x3F800000#32)
        (FloatOps.hostUnary .exp (FloatOps.hostNegf (FloatOps.hostUnary .log
          (FloatOps.addf (FloatOps.hostAbsf x) (FloatOps.ofBits .f32 0x322BCC77#32)))))) = encE x := by
  show Ideal.div (Ideal.ofBits .f32 0x3F800000#32) (Ideal.ofBits .f32 0x3F800000#32 + _) = _
  rw [Ideal.ofBits_one_f32]
  rfl

section Columns
variable {α : Type} {N a b c M : Nat}

/-- Three arrays joined along the columns, read in the first one's span. -/
theorem concat3_cols_0 (x : (⟨2, ![N, a]⟩ : Shape).Idx → α) (y : (⟨2, ![N, b]⟩ : Shape).Idx → α)
    (z : (⟨2, ![N, c]⟩ : Shape).Idx → α)
    (h : Shape.Concatenates [(⟨2, ![N, a]⟩ : Shape), ⟨2, ![N, b]⟩, ⟨2, ![N, c]⟩] ⟨2, ![N, M]⟩ 1)
    (r : Fin N) (j : Fin M) (k : Fin a) (hk : k.val = j.val) :
    concatenate ⟨2, ![N, M]⟩ 1 [⟨_, x⟩, ⟨_, y⟩, ⟨_, z⟩] h (ix2 r j) = x (ix2 r k) := by
  refine concatenate_apply_piece (t := ⟨2, ![N, M]⟩) 1 [⟨_, x⟩, ⟨_, y⟩, ⟨_, z⟩] h (ix2 r j) 0 (by simp) _ x rfl rfl 0 rfl (ix2 r k) (fun d hd => ?_) ?_
  · match d with
    | ⟨0, _⟩ => rfl
    | ⟨1, _⟩ => exact absurd rfl hd
  · show 0 + k.val = j.val
    omega

/-- Three arrays joined along the columns, read in the second one's span. -/
theorem concat3_cols_1 (x : (⟨2, ![N, a]⟩ : Shape).Idx → α) (y : (⟨2, ![N, b]⟩ : Shape).Idx → α)
    (z : (⟨2, ![N, c]⟩ : Shape).Idx → α)
    (h : Shape.Concatenates [(⟨2, ![N, a]⟩ : Shape), ⟨2, ![N, b]⟩, ⟨2, ![N, c]⟩] ⟨2, ![N, M]⟩ 1)
    (r : Fin N) (j : Fin M) (k : Fin b) (hk : a + k.val = j.val) :
    concatenate ⟨2, ![N, M]⟩ 1 [⟨_, x⟩, ⟨_, y⟩, ⟨_, z⟩] h (ix2 r j) = y (ix2 r k) := by
  refine concatenate_apply_piece (t := ⟨2, ![N, M]⟩) 1 [⟨_, x⟩, ⟨_, y⟩, ⟨_, z⟩] h (ix2 r j) 1 (by simp) _ y rfl rfl a rfl (ix2 r k) (fun d hd => ?_) ?_
  · match d with
    | ⟨0, _⟩ => rfl
    | ⟨1, _⟩ => exact absurd rfl hd
  · exact hk

/-- Three arrays joined along the columns, read in the third one's span. -/
theorem concat3_cols_2 (x : (⟨2, ![N, a]⟩ : Shape).Idx → α) (y : (⟨2, ![N, b]⟩ : Shape).Idx → α)
    (z : (⟨2, ![N, c]⟩ : Shape).Idx → α)
    (h : Shape.Concatenates [(⟨2, ![N, a]⟩ : Shape), ⟨2, ![N, b]⟩, ⟨2, ![N, c]⟩] ⟨2, ![N, M]⟩ 1)
    (r : Fin N) (j : Fin M) (k : Fin c) (hk : a + b + k.val = j.val) :
    concatenate ⟨2, ![N, M]⟩ 1 [⟨_, x⟩, ⟨_, y⟩, ⟨_, z⟩] h (ix2 r j) = z (ix2 r k) := by
  refine concatenate_apply_piece (t := ⟨2, ![N, M]⟩) 1 [⟨_, x⟩, ⟨_, y⟩, ⟨_, z⟩] h (ix2 r j) 2 (by simp) _ z rfl rfl (a + b) rfl (ix2 r k) (fun d hd => ?_) ?_
  · match d with
    | ⟨0, _⟩ => rfl
    | ⟨1, _⟩ => exact absurd rfl hd
  · exact hk

/-- Two arrays joined along the columns, read in the first one's span. -/
theorem concat2_cols_0 (x : (⟨2, ![N, a]⟩ : Shape).Idx → α) (y : (⟨2, ![N, b]⟩ : Shape).Idx → α)
    (h : Shape.Concatenates [(⟨2, ![N, a]⟩ : Shape), ⟨2, ![N, b]⟩] ⟨2, ![N, M]⟩ 1)
    (r : Fin N) (j : Fin M) (k : Fin a) (hk : k.val = j.val) :
    concatenate ⟨2, ![N, M]⟩ 1 [⟨_, x⟩, ⟨_, y⟩] h (ix2 r j) = x (ix2 r k) := by
  refine concatenate_pair_apply_left 1 x y h (ix2 r j) rfl (ix2 r k) (fun d => ?_)
  match d with
  | ⟨0, _⟩ => rfl
  | ⟨1, _⟩ => exact hk

/-- Two arrays joined along the columns, read in the second one's span. -/
theorem concat2_cols_1 (x : (⟨2, ![N, a]⟩ : Shape).Idx → α) (y : (⟨2, ![N, b]⟩ : Shape).Idx → α)
    (h : Shape.Concatenates [(⟨2, ![N, a]⟩ : Shape), ⟨2, ![N, b]⟩] ⟨2, ![N, M]⟩ 1)
    (r : Fin N) (j : Fin M) (k : Fin b) (hk : k.val + a = j.val) :
    concatenate ⟨2, ![N, M]⟩ 1 [⟨_, x⟩, ⟨_, y⟩] h (ix2 r j) = y (ix2 r k) := by
  refine concatenate_pair_apply_right 1 x y h (ix2 r j) rfl rfl (ix2 r k) (fun d hd => ?_) hk
  match d with
  | ⟨0, _⟩ => rfl
  | ⟨1, _⟩ => exact absurd rfl hd

end Columns

/-! ## The four encoded arrays -/

variable (x0 : (⟨S131072x25, .f32⟩ : BufTy).Contents (Elt Ideal)) (x1 : (⟨S131072x2, .f32⟩ : BufTy).Contents (Elt Ideal))
  (x2 : (⟨S131072x6, .f32⟩ : BufTy).Contents (Elt Ideal)) (x3 : (⟨S131072x2, .f32⟩ : BufTy).Contents (Elt Ideal)) (R : Fin 131072)

/-! ### The encoded proprioception array -/

/-- The first members of the pairs, as a column of extent one: the hyperbolic tangent of the reading. -/
theorem v11_read (k : Fin 25) : val_main_v11 (F := Ideal) x0 (ix3 R k 0) = encM (x0 (ix2 R k)) := by
  have e : idx_main_v11 (ix3 R k (0 : Fin 1)) = ix2 R k :=
    funext fun d => match d with | ⟨0, _⟩ => rfl | ⟨1, _⟩ => rfl
  rw [val_main_v11_apply, e]
  rfl

/-- The second members of the pairs, as a column of extent one: one over one plus the exponential of minus the
    logarithm of the shifted absolute value of the reading. -/
theorem v12_read (k : Fin 25) : val_main_v12 (F := Ideal) x0 (ix3 R k 0) = encE (x0 (ix2 R k)) := by
  have e : idx_main_v12 (ix3 R k (0 : Fin 1)) = ix2 R k :=
    funext fun d => match d with | ⟨0, _⟩ => rfl | ⟨1, _⟩ => rfl
  rw [val_main_v12_apply, e, val_main_v10_apply, val_main_v9_apply, val_main_cst_1_apply, val_main_v8_apply, val_main_v7_apply,
    val_main_cst_0_apply, val_main_v6_apply, val_main_v5_apply, val_main_v4_apply, val_main_v3_apply, val_main_v2_apply,
    val_main_cst_apply, val_main_v1_apply]
  exact encE_eq _

/-- Entry j of row R of the encoded array is member j mod 2 of the pair of reading j / 2: the pairs [readings, 2] are
    laid side by side, so position R * 50 + j of the flattened array has reading (R * 50 + j) / 2 mod 25 = j / 2 and
    member (R * 50 + j) mod 2 = j mod 2. -/
theorem v14_read (j : Fin 50) : val_main_v14 (F := Ideal) x0 (ix2 R j) = il (row x0 R) j := by
  have hj := j.isLt
  have hidx : idx_main_v14 (ix2 R j)
      = ix3 R (⟨j.val / 2, by omega⟩ : Fin 25) (⟨j.val % 2, by omega⟩ : Fin 2) := by
    funext d
    match d with
    | ⟨0, _⟩ => exact Fin.ext (by show (R.val * 50 + j.val) / 50 = R.val; omega)
    | ⟨1, _⟩ => exact Fin.ext (by show (R.val * 50 + j.val) / 2 % 25 = j.val / 2; omega)
    | ⟨2, _⟩ => exact Fin.ext (by show (R.val * 50 + j.val) % 2 = j.val % 2; omega)
  rw [val_main_v14_apply, hidx]
  unfold val_main_v13
  refine (concat_unit_pair _ _ _ R _ _).trans ?_
  rw [v11_read, v12_read]
  rfl

/-! ### The encoded tactile array -/

/-- The first members of the pairs, as a column of extent one: the hyperbolic tangent of the reading. -/
theorem v26_read (k : Fin 2) : val_main_v26 (F := Ideal) x1 (ix3 R k 0) = encM (x1 (ix2 R k)) := by
  have e : idx_main_v26 (ix3 R k (0 : Fin 1)) = ix2 R k :=
    funext fun d => match d with | ⟨0, _⟩ => rfl | ⟨1, _⟩ => rfl
  rw [val_main_v26_apply, e]
  rfl

/-- The second members of the pairs, as a column of extent one: one over one plus the exponential of minus the
    logarithm of the shifted absolute value of the reading. -/
theorem v27_read (k : Fin 2) : val_main_v27 (F := Ideal) x1 (ix3 R k 0) = encE (x1 (ix2 R k)) := by
  have e : idx_main_v27 (ix3 R k (0 : Fin 1)) = ix2 R k :=
    funext fun d => match d with | ⟨0, _⟩ => rfl | ⟨1, _⟩ => rfl
  rw [val_main_v27_apply, e, val_main_v25_apply, val_main_v24_apply, val_main_cst_4_apply, val_main_v23_apply, val_main_v22_apply,
    val_main_cst_3_apply, val_main_v21_apply, val_main_v20_apply, val_main_v19_apply, val_main_v18_apply, val_main_v17_apply,
    val_main_cst_2_apply, val_main_v16_apply]
  exact encE_eq _

/-- Entry j of row R of the encoded array is member j mod 2 of the pair of reading j / 2: the pairs [readings, 2] are
    laid side by side, so position R * 4 + j of the flattened array has reading (R * 4 + j) / 2 mod 2 = j / 2 and
    member (R * 4 + j) mod 2 = j mod 2. -/
theorem v29_read (j : Fin 4) : val_main_v29 (F := Ideal) x1 (ix2 R j) = il (row x1 R) j := by
  have hj := j.isLt
  have hidx : idx_main_v29 (ix2 R j)
      = ix3 R (⟨j.val / 2, by omega⟩ : Fin 2) (⟨j.val % 2, by omega⟩ : Fin 2) := by
    funext d
    match d with
    | ⟨0, _⟩ => exact Fin.ext (by show (R.val * 4 + j.val) / 4 = R.val; omega)
    | ⟨1, _⟩ => exact Fin.ext (by show (R.val * 4 + j.val) / 2 % 2 = j.val / 2; omega)
    | ⟨2, _⟩ => exact Fin.ext (by show (R.val * 4 + j.val) % 2 = j.val % 2; omega)
  rw [val_main_v29_apply, hidx]
  unfold val_main_v28
  refine (concat_unit_pair _ _ _ R _ _).trans ?_
  rw [v26_read, v27_read]
  rfl

/-! ### The encoded end-effector array -/

/-- The first members of the pairs, as a column of extent one: the hyperbolic tangent of the reading. -/
theorem v41_read (k : Fin 6) : val_main_v41 (F := Ideal) x2 (ix3 R k 0) = encM (x2 (ix2 R k)) := by
  have e : idx_main_v41 (ix3 R k (0 : Fin 1)) = ix2 R k :=
    funext fun d => match d with | ⟨0, _⟩ => rfl | ⟨1, _⟩ => rfl
  rw [val_main_v41_apply, e]
  rfl

/-- The second members of the pairs, as a column of extent one: one over one plus the exponential of minus the
    logarithm of the shifted absolute value of the reading. -/
theorem v42_read (k : Fin 6) : val_main_v42 (F := Ideal) x2 (ix3 R k 0) = encE (x2 (ix2 R k)) := by
  have e : idx_main_v42 (ix3 R k (0 : Fin 1)) = ix2 R k :=
    funext fun d => match d with | ⟨0, _⟩ => rfl | ⟨1, _⟩ => rfl
  rw [val_main_v42_apply, e, val_main_v40_apply, val_main_v39_apply, val_main_cst_7_apply, val_main_v38_apply, val_main_v37_apply,
    val_main_cst_6_apply, val_main_v36_apply, val_main_v35_apply, val_main_v34_apply, val_main_v33_apply, val_main_v32_apply,
    val_main_cst_5_apply, val_main_v31_apply]
  exact encE_eq _

/-- Entry j of row R of the encoded array is member j mod 2 of the pair of reading j / 2: the pairs [readings, 2] are
    laid side by side, so position R * 12 + j of the flattened array has reading (R * 12 + j) / 2 mod 6 = j / 2 and
    member (R * 12 + j) mod 2 = j mod 2. -/
theorem v44_read (j : Fin 12) : val_main_v44 (F := Ideal) x2 (ix2 R j) = il (row x2 R) j := by
  have hj := j.isLt
  have hidx : idx_main_v44 (ix2 R j)
      = ix3 R (⟨j.val / 2, by omega⟩ : Fin 6) (⟨j.val % 2, by omega⟩ : Fin 2) := by
    funext d
    match d with
    | ⟨0, _⟩ => exact Fin.ext (by show (R.val * 12 + j.val) / 12 = R.val; omega)
    | ⟨1, _⟩ => exact Fin.ext (by show (R.val * 12 + j.val) / 2 % 6 = j.val / 2; omega)
    | ⟨2, _⟩ => exact Fin.ext (by show (R.val * 12 + j.val) % 2 = j.val % 2; omega)
  rw [val_main_v44_apply, hidx]
  unfold val_main_v43
  refine (concat_unit_pair _ _ _ R _ _).trans ?_
  rw [v41_read, v42_read]
  rfl

/-! ### The encoded internal-state array -/

/-- The first members of the pairs, as a column of extent one: the hyperbolic tangent of the reading. -/
theorem v56_read (k : Fin 2) : val_main_v56 (F := Ideal) x3 (ix3 R k 0) = encM (x3 (ix2 R k)) := by
  have e : idx_main_v56 (ix3 R k (0 : Fin 1)) = ix2 R k :=
    funext fun d => match d with | ⟨0, _⟩ => rfl | ⟨1, _⟩ => rfl
  rw [val_main_v56_apply, e]
  rfl

/-- The second members of the pairs, as a column of extent one: one over one plus the exponential of minus the
    logarithm of the shifted absolute value of the reading. -/
theorem v57_read (k : Fin 2) : val_main_v57 (F := Ideal) x3 (ix3 R k 0) = encE (x3 (ix2 R k)) := by
  have e : idx_main_v57 (ix3 R k (0 : Fin 1)) = ix2 R k :=
    funext fun d => match d with | ⟨0, _⟩ => rfl | ⟨1, _⟩ => rfl
  rw [val_main_v57_apply, e, val_main_v55_apply, val_main_v54_apply, val_main_cst_10_apply, val_main_v53_apply, val_main_v52_apply,
    val_main_cst_9_apply, val_main_v51_apply, val_main_v50_apply, val_main_v49_apply, val_main_v48_apply, val_main_v47_apply,
    val_main_cst_8_apply, val_main_v46_apply]
  exact encE_eq _

/-- Entry j of row R of the encoded array is member j mod 2 of the pair of reading j / 2: the pairs [readings, 2] are
    laid side by side, so position R * 4 + j of the flattened array has reading (R * 4 + j) / 2 mod 2 = j / 2 and
    member (R * 4 + j) mod 2 = j mod 2. -/
theorem v59_read (j : Fin 4) : val_main_v59 (F := Ideal) x3 (ix2 R j) = il (row x3 R) j := by
  have hj := j.isLt
  have hidx : idx_main_v59 (ix2 R j)
      = ix3 R (⟨j.val / 2, by omega⟩ : Fin 2) (⟨j.val % 2, by omega⟩ : Fin 2) := by
    funext d
    match d with
    | ⟨0, _⟩ => exact Fin.ext (by show (R.val * 4 + j.val) / 4 = R.val; omega)
    | ⟨1, _⟩ => exact Fin.ext (by show (R.val * 4 + j.val) / 2 % 2 = j.val / 2; omega)
    | ⟨2, _⟩ => exact Fin.ext (by show (R.val * 4 + j.val) % 2 = j.val % 2; omega)
  rw [val_main_v59_apply, hidx]
  unfold val_main_v58
  refine (concat_unit_pair _ _ _ R _ _).trans ?_
  rw [v56_read, v57_read]
  rfl

/-! ## The groups -/

/-- The encoded proprioception array at an index with coordinates R and j. -/
theorem v14_at (i : S131072x50.Idx) (j : Fin 50) (h0 : (i 0).val = R.val) (h1 : (i 1).val = j.val) :
    val_main_v14 (F := Ideal) x0 i = il (row x0 R) j := by
  have e : i = ix2 R j := funext fun d => match d with | ⟨0, _⟩ => Fin.ext h0 | ⟨1, _⟩ => Fin.ext h1
  rw [e]
  exact v14_read x0 R j

/-- Arm: entry j = 8 a + b of the group is entry b of the first eight of entries 14 a … 14 a + 13 of the encoded
    row, that is entry 14 a + b. -/
theorem arm_apply (j : Fin 24) : val_main_v66 (F := Ideal) x0 (ix2 R j) = arm (row x0 R) j := by
  have hj := j.isLt
  unfold val_main_v66
  by_cases h1 : j.val < 8
  · refine (concat3_cols_0 _ _ _ _ R j ⟨j.val, h1⟩ rfl).trans ?_
    rw [val_main_v63_apply, val_main_v60_apply]
    exact v14_at x0 R _ ⟨14 * (j.val / 8) + j.val % 8, by omega⟩ rfl
      (by show j.val = 14 * (j.val / 8) + j.val % 8; omega)
  · by_cases h2 : j.val < 16
    · refine (concat3_cols_1 _ _ _ _ R j ⟨j.val - 8, by omega⟩ (by show 8 + (j.val - 8) = j.val; omega)).trans ?_
      rw [val_main_v64_apply, val_main_v61_apply]
      exact v14_at x0 R _ ⟨14 * (j.val / 8) + j.val % 8, by omega⟩ rfl
        (by show 14 + (j.val - 8) = 14 * (j.val / 8) + j.val % 8; omega)
    · refine (concat3_cols_2 _ _ _ _ R j ⟨j.val - 16, by omega⟩ (by show 8 + 8 + (j.val - 16) = j.val; omega)).trans ?_
      rw [val_main_v65_apply, val_main_v62_apply]
      exact v14_at x0 R _ ⟨14 * (j.val / 8) + j.val % 8, by omega⟩ rfl
        (by show 28 + (j.val - 16) = 14 * (j.val / 8) + j.val % 8; omega)

/-- Wrist: entry j = 6 a + b of the group is entry 8 + b of entries 14 a … 14 a + 13 of the encoded row, that is
    entry 14 a + 8 + b. -/
theorem wrist_apply (j : Fin 18) : val_main_v70 (F := Ideal) x0 (ix2 R j) = wrist (row x0 R) j := by
  have hj := j.isLt
  unfold val_main_v70
  by_cases h1 : j.val < 6
  · refine (concat3_cols_0 _ _ _ _ R j ⟨j.val, h1⟩ rfl).trans ?_
    rw [val_main_v67_apply, val_main_v60_apply]
    exact v14_at x0 R _ ⟨14 * (j.val / 6) + 8 + j.val % 6, by omega⟩ rfl
      (by show 8 + j.val = 14 * (j.val / 6) + 8 + j.val % 6; omega)
  · by_cases h2 : j.val < 12
    · refine (concat3_cols_1 _ _ _ _ R j ⟨j.val - 6, by omega⟩ (by show 6 + (j.val - 6) = j.val; omega)).trans ?_
      rw [val_main_v68_apply, val_main_v61_apply]
      exact v14_at x0 R _ ⟨14 * (j.val / 6) + 8 + j.val % 6, by omega⟩ rfl
        (by show 14 + (8 + (j.val - 6)) = 14 * (j.val / 6) + 8 + j.val % 6; omega)
    · refine (concat3_cols_2 _ _ _ _ R j ⟨j.val - 12, by omega⟩ (by show 6 + 6 + (j.val - 12) = j.val; omega)).trans ?_
      rw [val_main_v69_apply, val_main_v62_apply]
      exact v14_at x0 R _ ⟨14 * (j.val / 6) + 8 + j.val % 6, by omega⟩ rfl
        (by show 28 + (8 + (j.val - 12)) = 14 * (j.val / 6) + 8 + j.val % 6; omega)

/-- Finger: entries 42, 43 and 44, 45 of the encoded proprioception row, then the four entries of the encoded tactile
    row. -/
theorem finger_apply (j : Fin 8) : val_main_v73 (F := Ideal) x0 x1 (ix2 R j) = finger (row x0 R) (row x1 R) j := by
  have hj := j.isLt
  unfold val_main_v73
  by_cases h1 : j.val < 2
  · refine (concat3_cols_0 _ _ _ _ R j ⟨j.val, h1⟩ rfl).trans ?_
    rw [val_main_v71_apply]
    refine (v14_at x0 R _ ⟨42 + j.val, by omega⟩ rfl (by show 42 + j.val = 42 + j.val; rfl)).trans ?_
    unfold finger
    rw [dif_pos (show j.val < 4 by omega)]
  · by_cases h2 : j.val < 4
    · refine (concat3_cols_1 _ _ _ _ R j ⟨j.val - 2, by omega⟩ (by show 2 + (j.val - 2) = j.val; omega)).trans ?_
      rw [val_main_v72_apply]
      refine (v14_at x0 R _ ⟨42 + j.val, by omega⟩ rfl (by show 44 + (j.val - 2) = 42 + j.val; omega)).trans ?_
      unfold finger
      rw [dif_pos h2]
    · refine (concat3_cols_2 _ _ _ _ R j ⟨j.val - 4, by omega⟩ (by show 2 + 2 + (j.val - 4) = j.val; omega)).trans ?_
      refine (v29_read x1 R ⟨j.val - 4, by omega⟩).trans ?_
      unfold finger
      rw [dif_neg h2]

/-- Head: entries 46, 47 and 48, 49 of the encoded proprioception row. -/
theorem head_apply (j : Fin 4) : val_main_v76 (F := Ideal) x0 (ix2 R j) = head (row x0 R) j := by
  have hj := j.isLt
  unfold val_main_v76
  by_cases h1 : j.val < 2
  · refine (concat2_cols_0 _ _ _ R j ⟨j.val, h1⟩ rfl).trans ?_
    rw [val_main_v74_apply]
    exact v14_at x0 R _ ⟨46 + j.val, by omega⟩ rfl (by show 46 + j.val = 46 + j.val; rfl)
  · refine (concat2_cols_1 _ _ _ R j ⟨j.val - 2, by omega⟩ (by show j.val - 2 + 2 = j.val; omega)).trans ?_
    rw [val_main_v75_apply]
    exact v14_at x0 R _ ⟨46 + j.val, by omega⟩ rfl (by show 48 + (j.val - 2) = 46 + j.val; omega)

/-- The encoded end-effector array is the whole encoded row. -/
theorem ee_apply (j : Fin 12) : val_main_v44 (F := Ideal) x2 (ix2 R j) = il (row x2 R) j :=
  v44_read x2 R j

/-- The encoded internal-state array is the whole encoded row. -/
theorem internal_apply (j : Fin 4) : val_main_v59 (F := Ideal) x3 (ix2 R j) = il (row x3 R) j :=
  v59_read x3 R j

end Cert.RRow

end
-- ==== Proof.RLayers.lean ====
/-
  The reference's perceptrons, the fused row and the normalisation, read at an entry, and with the groups of
  `RGroups` the whole reference: the result's entry `(R, j)` is the row map `outRow` of row `R` of the four sensor arrays.
-/
import proofs.«147661_j65987877535816_1_alg».proof.Proof.Gen.ReferenceIdeal.Read
import proofs.«147661_j65987877535816_1_alg».proof.Proof.RowSpec
import proofs.«147661_j65987877535816_1_alg».proof.Proof.LibDense
import proofs.«147661_j65987877535816_1_alg».proof.Proof.RGroups
import Idealize.ShloMosaic.PureOps.Ideal.Laws
import Idealize.ShloMosaic.Lib.ValueIdx
import Idealize.ShloMosaic.Lib.Pipeline.Value
import Idealize.ShloMosaic.Lib.IdealHost

noncomputable section

namespace Cert.RRow

open Cert.ReferenceIdeal Cert.ReferenceIdeal.Read Cert.RowSpec Idealize.ShloMosaic Idealize.ShloMosaic.ValueIdx

section Norm

variable {N : Nat}
  (hR' : (⟨2, ![N, 512]⟩ : Shape).ReducesTo [1] ⟨1, ![N]⟩)
  (hu : 0 < (⟨0, ![]⟩ : Shape).numel)
  (hc : (⟨1, ![N]⟩ : Shape).BroadcastsInDim ⟨2, ![N, 1]⟩ ![0])
  (hs : (⟨0, ![]⟩ : Shape).BroadcastsInDim ⟨2, ![N, 1]⟩ ![])
  (hw : (⟨2, ![N, 1]⟩ : Shape).BroadcastsInDim ⟨2, ![N, 512]⟩ ![0, 1])

/-- The sum of every row, from an initial value that is zero. -/
theorem rowSum_apply (hR : (⟨2, ![N, 512]⟩ : Shape).Reduces [1] ⟨1, ![N]⟩) (Z : Mat N 512) (r : Fin N) :
    Host.reduceAdd (Z : FVec Ideal ⟨2, ![N, 512]⟩ .f32) (constant (F := Ideal) ⟨0, ![]⟩ .f32 0x00000000#32) hR' hu (ix1 r)
      = ∑ k : Fin 512, Z (ix2 r k) := by
  show Ideal.hostReduceAdd hR' Z (Ideal.ofBits .f32 0x00000000#32) (ix1 r) = _
  rw [Ideal.hostReduceAdd_single hR' hR, Ideal.ofBits_zero_f32, zero_add]
  refine Finset.sum_congr rfl fun k _ => ?_
  exact congrArg Z (funext fun a => Fin.ext (by match a with | ⟨0, _⟩ => rfl | ⟨1, _⟩ => rfl))

/-- A rank-one array stood up as a column, read at an entry. -/
theorem column_apply (v : (⟨1, ![N]⟩ : Shape).Idx → EReal) (r : Fin N) :
    broadcastInDim ⟨2, ![N, 1]⟩ ![0] hc v (ix2 r (0 : Fin 1)) = v (ix1 r) := by
  refine broadcastInDim_apply _ hc v (ix2 r (0 : Fin 1)) (ix1 r) (fun a => ?_)
  match a with
  | ⟨0, _⟩ =>
    show r.val = if N = 1 then 0 else r.val
    split
    · have := r.isLt; omega
    · rfl

/-- A column laid beside itself 512 times, read at an entry. -/
theorem widen_apply (m : (⟨2, ![N, 1]⟩ : Shape).Idx → EReal) (r : Fin N) (c : Fin 512) :
    broadcastInDim ⟨2, ![N, 512]⟩ ![0, 1] hw m (ix2 r c) = m (ix2 r (0 : Fin 1)) := by
  refine broadcastInDim_apply _ hw m (ix2 r c) (ix2 r (0 : Fin 1)) (fun a => ?_)
  match a with
  | ⟨0, _⟩ =>
    show r.val = if N = 1 then 0 else r.val
    split
    · have := r.isLt; omega
    · rfl
  | ⟨1, _⟩ => show (0 : Nat) = if (1 : Nat) = 1 then 0 else _; rw [if_pos rfl]

/-- The mean of every row, as a column: the row sums, divided by the constant 512. -/
def hmean (Z : FVec Ideal ⟨2, ![N, 512]⟩ .f32) : FVec Ideal ⟨2, ![N, 1]⟩ .f32 :=
  Host.divf (broadcastInDim ⟨2, ![N, 1]⟩ ![0] hc (Host.reduceAdd Z (constant (F := Ideal) ⟨0, ![]⟩ .f32 0x00000000#32) hR' hu))
    (broadcastInDim ⟨2, ![N, 1]⟩ ![] hs (constant (F := Ideal) ⟨0, ![]⟩ .f32 0x44000000#32))

theorem hmean_apply (hR : (⟨2, ![N, 512]⟩ : Shape).Reduces [1] ⟨1, ![N]⟩) (Z : Mat N 512) (r : Fin N) :
    hmean hR' hu hc hs Z (ix2 r (0 : Fin 1)) = mean512 (row Z r) := by
  unfold hmean
  rw [hostDivf_apply, column_apply, rowSum_apply hR' hu hR, broadcastInDim_scalar_apply, constant_apply]
  rfl

/-- Every entry less its row's mean. -/
def hcentre (Z : FVec Ideal ⟨2, ![N, 512]⟩ .f32) : FVec Ideal ⟨2, ![N, 512]⟩ .f32 :=
  subf Z (broadcastInDim ⟨2, ![N, 512]⟩ ![0, 1] hw (hmean hR' hu hc hs Z))

theorem hcentre_apply (hR : (⟨2, ![N, 512]⟩ : Shape).Reduces [1] ⟨1, ![N]⟩) (Z : Mat N 512) (r : Fin N) (c : Fin 512) :
    hcentre hR' hu hc hs hw Z (ix2 r c) = row Z r c - mean512 (row Z r) := by
  unfold hcentre
  rw [subf_apply, widen_apply, hmean_apply hR' hu hc hs hR]
  rfl

/-- The reciprocal square root of (the mean of the squared centred entries of every row, plus the constant shift), as a column. -/
def hrstd (Z : FVec Ideal ⟨2, ![N, 512]⟩ .f32) : FVec Ideal ⟨2, ![N, 1]⟩ .f32 :=
  Host.rsqrt (addf (hmean hR' hu hc hs (mulf (hcentre hR' hu hc hs hw Z) (hcentre hR' hu hc hs hw Z)))
    (broadcastInDim ⟨2, ![N, 1]⟩ ![] hs (constant (F := Ideal) ⟨0, ![]⟩ .f32 0x3727C5AC#32)))

theorem hrstd_apply (hR : (⟨2, ![N, 512]⟩ : Shape).Reduces [1] ⟨1, ![N]⟩) (Z : Mat N 512) (r : Fin N) :
    hrstd hR' hu hc hs hw Z (ix2 r (0 : Fin 1))
      = Ideal.rsqrt (mean512 (fun k => (row Z r k - mean512 (row Z r)) * (row Z r k - mean512 (row Z r))) + lnEps) := by
  have hsq : row (mulf (F := Ideal) (hcentre hR' hu hc hs hw Z) (hcentre hR' hu hc hs hw Z)) r
      = fun k => (row Z r k - mean512 (row Z r)) * (row Z r k - mean512 (row Z r)) := by
    funext k
    show hcentre hR' hu hc hs hw Z (ix2 r k) * hcentre hR' hu hc hs hw Z (ix2 r k) = _
    rw [hcentre_apply hR' hu hc hs hw hR]
  unfold hrstd
  show Ideal.rsqrt (addf (F := Ideal) _ _ (ix2 r (0 : Fin 1))) = _
  rw [addf_apply, hmean_apply hR' hu hc hs hR, hsq, broadcastInDim_scalar_apply, constant_apply]
  rfl

/-- The host's normalisation of every row: the centred entries times the reciprocal square root of the mean of their
    squares shifted by the constant, times the gain row, plus the bias row. -/
def hnorm (h1 : (⟨1, ![512]⟩ : Shape).BroadcastsInDim ⟨2, ![1, 512]⟩ ![1])
    (h2 : (⟨2, ![1, 512]⟩ : Shape).BroadcastsInDim ⟨2, ![N, 512]⟩ ![0, 1])
    (Z : FVec Ideal ⟨2, ![N, 512]⟩ .f32) (g b : FVec Ideal ⟨1, ![512]⟩ .f32) : FVec Ideal ⟨2, ![N, 512]⟩ .f32 :=
  addf (mulf (mulf (hcentre hR' hu hc hs hw Z) (broadcastInDim ⟨2, ![N, 512]⟩ ![0, 1] hw (hrstd hR' hu hc hs hw Z)))
      (broadcastInDim ⟨2, ![N, 512]⟩ ![0, 1] h2 (broadcastInDim ⟨2, ![1, 512]⟩ ![1] h1 g)))
    (broadcastInDim ⟨2, ![N, 512]⟩ ![0, 1] h2 (broadcastInDim ⟨2, ![1, 512]⟩ ![1] h1 b))

theorem hnorm_apply (hR : (⟨2, ![N, 512]⟩ : Shape).Reduces [1] ⟨1, ![N]⟩)
    (h1 : (⟨1, ![512]⟩ : Shape).BroadcastsInDim ⟨2, ![1, 512]⟩ ![1])
    (h2 : (⟨2, ![1, 512]⟩ : Shape).BroadcastsInDim ⟨2, ![N, 512]⟩ ![0, 1])
    (Z : Mat N 512) (g b : Vc 512) (r : Fin N) (c : Fin 512) :
    hnorm hR' hu hc hs hw h1 h2 Z g b (ix2 r c) = lnorm g b (row Z r) c := by
  have e1 := hcentre_apply hR' hu hc hs hw hR Z r c
  have e2 := (widen_apply hw (hrstd hR' hu hc hs hw Z) r c).trans (hrstd_apply hR' hu hc hs hw hR Z r)
  have e3 := hbiasRow_apply g h1 h2 (Or.inr trivial) r c
  have e4 := hbiasRow_apply b h1 h2 (Or.inr trivial) r c
  show hcentre hR' hu hc hs hw Z (ix2 r c) * broadcastInDim ⟨2, ![N, 512]⟩ ![0, 1] hw (hrstd hR' hu hc hs hw Z) (ix2 r c)
      * broadcastInDim ⟨2, ![N, 512]⟩ ![0, 1] h2 (broadcastInDim ⟨2, ![1, 512]⟩ ![1] h1 g) (ix2 r c)
      + broadcastInDim ⟨2, ![N, 512]⟩ ![0, 1] h2 (broadcastInDim ⟨2, ![1, 512]⟩ ![1] h1 b) (ix2 r c) = _
  rw [e1, e2, e3, e4]
  rfl

end Norm

section Fuse

/-- Six arrays laid side by side along the second axis (widths 64, 64, 128, 32, 64, 32), read at an entry: the row map
    `fuse` of their rows. -/
theorem fuse6_apply {N : Nat} (f w : Mat N 64) (a : Mat N 128) (h : Mat N 32) (e : Mat N 64) (i : Mat N 32)
    (hcat : Shape.Concatenates [(⟨2, ![N, 64]⟩ : Shape), ⟨2, ![N, 64]⟩, ⟨2, ![N, 128]⟩, ⟨2, ![N, 32]⟩, ⟨2, ![N, 64]⟩, ⟨2, ![N, 32]⟩]
      ⟨2, ![N, 384]⟩ 1) (r : Fin N) (j : Fin 384) :
    concatenate (α := EReal) ⟨2, ![N, 384]⟩ 1 [⟨⟨2, ![N, 64]⟩, f⟩, ⟨⟨2, ![N, 64]⟩, w⟩, ⟨⟨2, ![N, 128]⟩, a⟩, ⟨⟨2, ![N, 32]⟩, h⟩,
        ⟨⟨2, ![N, 64]⟩, e⟩, ⟨⟨2, ![N, 32]⟩, i⟩] hcat (ix2 r j)
      = fuse (row f r) (row w r) (row a r) (row h r) (row e r) (row i r) j := by
  have hj := j.isLt
  have key := concatenate_apply_piece (α := EReal) (t := ⟨2, ![N, 384]⟩) 1
    [⟨⟨2, ![N, 64]⟩, f⟩, ⟨⟨2, ![N, 64]⟩, w⟩, ⟨⟨2, ![N, 128]⟩, a⟩, ⟨⟨2, ![N, 32]⟩, h⟩, ⟨⟨2, ![N, 64]⟩, e⟩, ⟨⟨2, ![N, 32]⟩, i⟩]
    hcat (ix2 r j)
  unfold fuse
  by_cases h₁ : j.val < 64
  · rw [dif_pos h₁]
    refine key 0 (by show (0 : Nat) < 6; omega) ⟨2, ![N, 64]⟩ f rfl rfl 0 rfl (ix2 r ⟨j.val - 0, by omega⟩) (fun b hb => ?_) ?_
    · match b with
      | ⟨0, _⟩ => rfl
      | ⟨1, _⟩ => exact absurd rfl hb
    · show 0 + (j.val - 0) = j.val
      omega
  rw [dif_neg h₁]
  by_cases h₂ : j.val < 128
  · rw [dif_pos h₂]
    refine key 1 (by show (1 : Nat) < 6; omega) ⟨2, ![N, 64]⟩ w rfl rfl 64 rfl (ix2 r ⟨j.val - 64, by omega⟩) (fun b hb => ?_) ?_
    · match b with
      | ⟨0, _⟩ => rfl
      | ⟨1, _⟩ => exact absurd rfl hb
    · show 64 + (j.val - 64) = j.val
      omega
  rw [dif_neg h₂]
  by_cases h₃ : j.val < 256
  · rw [dif_pos h₃]
    refine key 2 (by show (2 : Nat) < 6; omega) ⟨2, ![N, 128]⟩ a rfl rfl 128 rfl (ix2 r ⟨j.val - 128, by omega⟩) (fun b hb => ?_) ?_
    · match b with
      | ⟨0, _⟩ => rfl
      | ⟨1, _⟩ => exact absurd rfl hb
    · show 128 + (j.val - 128) = j.val
      omega
  rw [dif_neg h₃]
  by_cases h₄ : j.val < 288
  · rw [dif_pos h₄]
    refine key 3 (by show (3 : Nat) < 6; omega) ⟨2, ![N, 32]⟩ h rfl rfl 256 rfl (ix2 r ⟨j.val - 256, by omega⟩) (fun b hb => ?_) ?_
    · match b with
      | ⟨0, _⟩ => rfl
      | ⟨1, _⟩ => exact absurd rfl hb
    · show 256 + (j.val - 256) = j.val
      omega
  rw [dif_neg h₄]
  by_cases h₅ : j.val < 352
  · rw [dif_pos h₅]
    refine key 4 (by show (4 : Nat) < 6; omega) ⟨2, ![N, 64]⟩ e rfl rfl 288 rfl (ix2 r ⟨j.val - 288, by omega⟩) (fun b hb => ?_) ?_
    · match b with
      | ⟨0, _⟩ => rfl
      | ⟨1, _⟩ => exact absurd rfl hb
    · show 288 + (j.val - 288) = j.val
      omega
  rw [dif_neg h₅]
  ·
    refine key 5 (by show (5 : Nat) < 6; omega) ⟨2, ![N, 32]⟩ i rfl rfl 352 rfl (ix2 r ⟨j.val - 352, by omega⟩) (fun b hb => ?_) ?_
    · match b with
      | ⟨0, _⟩ => rfl
      | ⟨1, _⟩ => exact absurd rfl hb
    · show 352 + (j.val - 352) = j.val
      omega

end Fuse

variable (x0 : (⟨S131072x25, .f32⟩ : BufTy).Contents (Elt Ideal)) (x1 : (⟨S131072x2, .f32⟩ : BufTy).Contents (Elt Ideal)) (x2 : (⟨S131072x6, .f32⟩ : BufTy).Contents (Elt Ideal)) (x3 : (⟨S131072x2, .f32⟩ : BufTy).Contents (Elt Ideal)) (x4 : (⟨S8x32, .f32⟩ : BufTy).Contents (Elt Ideal)) (x5 : (⟨S32, .f32⟩ : BufTy).Contents (Elt Ideal)) (x6 : (⟨S32x64, .f32⟩ : BufTy).Contents (Elt Ideal)) (x7 : (⟨S64, .f32⟩ : BufTy).Contents (Elt Ideal)) (x8 : (⟨S18x64, .f32⟩ : BufTy).Contents (Elt Ideal)) (x9 : (⟨S64, .f32⟩ : BufTy).Contents (Elt Ideal)) (x10 : (⟨S64x64, .f32⟩ : BufTy).Contents (Elt Ideal)) (x11 : (⟨S64, .f32⟩ : BufTy).Contents (Elt Ideal)) (x12 : (⟨S24x64, .f32⟩ : BufTy).Contents (Elt Ideal)) (x13 : (⟨S64, .f32⟩ : BufTy).Contents (Elt Ideal)) (x14 : (⟨S64x128, .f32⟩ : BufTy).Contents (Elt Ideal)) (x15 : (⟨S128, .f32⟩ : BufTy).Contents (Elt Ideal)) (x16 : (⟨S4x16, .f32⟩ : BufTy).Contents (Elt Ideal)) (x17 : (⟨S16, .f32⟩ : BufTy).Contents (Elt Ideal)) (x18 : (⟨S16x32, .f32⟩ : BufTy).Contents (Elt Ideal)) (x19 : (⟨S32, .f32⟩ : BufTy).Contents (Elt Ideal)) (x20 : (⟨S12x32, .f32⟩ : BufTy).Contents (Elt Ideal)) (x21 : (⟨S32, .f32⟩ : BufTy).Contents (Elt Ideal)) (x22 : (⟨S32x64, .f32⟩ : BufTy).Contents (Elt Ideal)) (x23 : (⟨S64, .f32⟩ : BufTy).Contents (Elt Ideal)) (x24 : (⟨S4x16, .f32⟩ : BufTy).Contents (Elt Ideal)) (x25 : (⟨S16, .f32⟩ : BufTy).Contents (Elt Ideal)) (x26 : (⟨S16x32, .f32⟩ : BufTy).Contents (Elt Ideal)) (x27 : (⟨S32, .f32⟩ : BufTy).Contents (Elt Ideal)) (x28 : (⟨S384x512, .f32⟩ : BufTy).Contents (Elt Ideal)) (x29 : (⟨S512, .f32⟩ : BufTy).Contents (Elt Ideal)) (x30 : (⟨S512x512, .f32⟩ : BufTy).Contents (Elt Ideal)) (x31 : (⟨S512, .f32⟩ : BufTy).Contents (Elt Ideal)) (x32 : (⟨S512, .f32⟩ : BufTy).Contents (Elt Ideal)) (x33 : (⟨S512, .f32⟩ : BufTy).Contents (Elt Ideal)) (R : Fin 131072)

theorem v86_apply (j : Fin 64) :
    val_main_v86 (F := Ideal) x0 x1 x4 x5 x6 x7 (ix2 R j) = mlp2 x4 x5 x6 x7 (finger (row x0 R) (row x1 R)) j := by
  have group : row (val_main_v73 (F := Ideal) x0 x1) R = finger (row x0 R) (row x1 R) := funext fun m => finger_apply x0 x1 R m
  have inner : row (val_main_v81 (F := Ideal) x0 x1 x4 x5) R = dense x4 x5 (finger (row x0 R) (row x1 R)) := by
    funext k
    refine (hdense_apply dot_S131072x8_S8x32_S131072x32_1_0_0_1_n_n rfl (val_main_v73 (F := Ideal) x0 x1) x4 x5 _ _ _ R k).trans ?_
    rw [group]
  refine (hdense_apply dot_S131072x32_S32x64_S131072x64_1_0_0_1_n_n rfl (val_main_v81 (F := Ideal) x0 x1 x4 x5) x6 x7 _ _ _ R j).trans ?_
  rw [inner]
  rfl

theorem v96_apply (j : Fin 64) :
    val_main_v96 (F := Ideal) x0 x8 x9 x10 x11 (ix2 R j) = mlp2 x8 x9 x10 x11 (wrist (row x0 R)) j := by
  have group : row (val_main_v70 (F := Ideal) x0) R = wrist (row x0 R) := funext fun m => wrist_apply x0 R m
  have inner : row (val_main_v91 (F := Ideal) x0 x8 x9) R = dense x8 x9 (wrist (row x0 R)) := by
    funext k
    refine (hdense_apply dot_S131072x18_S18x64_S131072x64_1_0_0_1_n_n rfl (val_main_v70 (F := Ideal) x0) x8 x9 _ _ _ R k).trans ?_
    rw [group]
  refine (hdense_apply dot_S131072x64_S64x64_S131072x64_1_0_0_1_n_n rfl (val_main_v91 (F := Ideal) x0 x8 x9) x10 x11 _ _ _ R j).trans ?_
  rw [inner]
  rfl

theorem v106_apply (j : Fin 128) :
    val_main_v106 (F := Ideal) x0 x12 x13 x14 x15 (ix2 R j) = mlp2 x12 x13 x14 x15 (arm (row x0 R)) j := by
  have group : row (val_main_v66 (F := Ideal) x0) R = arm (row x0 R) := funext fun m => arm_apply x0 R m
  have inner : row (val_main_v101 (F := Ideal) x0 x12 x13) R = dense x12 x13 (arm (row x0 R)) := by
    funext k
    refine (hdense_apply dot_S131072x24_S24x64_S131072x64_1_0_0_1_n_n rfl (val_main_v66 (F := Ideal) x0) x12 x13 _ _ _ R k).trans ?_
    rw [group]
  refine (hdense_apply dot_S131072x64_S64x128_S131072x128_1_0_0_1_n_n rfl (val_main_v101 (F := Ideal) x0 x12 x13) x14 x15 _ _ _ R j).trans ?_
  rw [inner]
  rfl

theorem v116_apply (j : Fin 32) :
    val_main_v116 (F := Ideal) x0 x16 x17 x18 x19 (ix2 R j) = mlp2 x16 x17 x18 x19 (head (row x0 R)) j := by
  have group : row (val_main_v76 (F := Ideal) x0) R = head (row x0 R) := funext fun m => head_apply x0 R m
  have inner : row (val_main_v111 (F := Ideal) x0 x16 x17) R = dense x16 x17 (head (row x0 R)) := by
    funext k
    refine (hdense_apply dot_S131072x4_S4x16_S131072x16_1_0_0_1_n_n rfl (val_main_v76 (F := Ideal) x0) x16 x17 _ _ _ R k).trans ?_
    rw [group]
  refine (hdense_apply dot_S131072x16_S16x32_S131072x32_1_0_0_1_n_n rfl (val_main_v111 (F := Ideal) x0 x16 x17) x18 x19 _ _ _ R j).trans ?_
  rw [inner]
  rfl

theorem v126_apply (j : Fin 64) :
    val_main_v126 (F := Ideal) x2 x20 x21 x22 x23 (ix2 R j) = mlp2 x20 x21 x22 x23 (il (row x2 R)) j := by
  have group : row (val_main_v44 (F := Ideal) x2) R = il (row x2 R) := funext fun m => ee_apply x2 R m
  have inner : row (val_main_v121 (F := Ideal) x2 x20 x21) R = dense x20 x21 (il (row x2 R)) := by
    funext k
    refine (hdense_apply dot_S131072x12_S12x32_S131072x32_1_0_0_1_n_n rfl (val_main_v44 (F := Ideal) x2) x20 x21 _ _ _ R k).trans ?_
    rw [group]
  refine (hdense_apply dot_S131072x32_S32x64_S131072x64_1_0_0_1_n_n rfl (val_main_v121 (F := Ideal) x2 x20 x21) x22 x23 _ _ _ R j).trans ?_
  rw [inner]
  rfl

theorem v136_apply (j : Fin 32) :
    val_main_v136 (F := Ideal) x3 x24 x25 x26 x27 (ix2 R j) = mlp2 x24 x25 x26 x27 (il (row x3 R)) j := by
  have group : row (val_main_v59 (F := Ideal) x3) R = il (row x3 R) := funext fun m => internal_apply x3 R m
  have inner : row (val_main_v131 (F := Ideal) x3 x24 x25) R = dense x24 x25 (il (row x3 R)) := by
    funext k
    refine (hdense_apply dot_S131072x4_S4x16_S131072x16_1_0_0_1_n_n rfl (val_main_v59 (F := Ideal) x3) x24 x25 _ _ _ R k).trans ?_
    rw [group]
  refine (hdense_apply dot_S131072x16_S16x32_S131072x32_1_0_0_1_n_n rfl (val_main_v131 (F := Ideal) x3 x24 x25) x26 x27 _ _ _ R j).trans ?_
  rw [inner]
  rfl

/-- The row before normalisation. -/
theorem v146_apply (j : Fin 512) :
    val_main_v146 (F := Ideal) x0 x1 x2 x3 x4 x5 x6 x7 x8 x9 x10 x11 x12 x13 x14 x15 x16 x17 x18 x19 x20 x21 x22 x23 x24 x25 x26 x27 x28 x29 x30 x31 (ix2 R j)
      = preNorm ⟨x4, x5, x6, x7, x8, x9, x10, x11, x12, x13, x14, x15, x16, x17, x18, x19, x20, x21, x22, x23, x24, x25, x26, x27, x28, x29, x30, x31, x32, x33⟩ (row x0 R) (row x1 R) (row x2 R) (row x3 R) j := by
  have fused : row (val_main_v137 (F := Ideal) x0 x1 x2 x3 x4 x5 x6 x7 x8 x9 x10 x11 x12 x13 x14 x15 x16 x17 x18 x19 x20 x21 x22 x23 x24 x25 x26 x27) R
      = fusedRow ⟨x4, x5, x6, x7, x8, x9, x10, x11, x12, x13, x14, x15, x16, x17, x18, x19, x20, x21, x22, x23, x24, x25, x26, x27, x28, x29, x30, x31, x32, x33⟩ (row x0 R) (row x1 R) (row x2 R) (row x3 R) := by
    funext m
    refine (fuse6_apply (val_main_v86 (F := Ideal) x0 x1 x4 x5 x6 x7) (val_main_v96 (F := Ideal) x0 x8 x9 x10 x11)
      (val_main_v106 (F := Ideal) x0 x12 x13 x14 x15) (val_main_v116 (F := Ideal) x0 x16 x17 x18 x19)
      (val_main_v126 (F := Ideal) x2 x20 x21 x22 x23) (val_main_v136 (F := Ideal) x3 x24 x25 x26 x27)
      Gen.concatenates_S131072x64_S131072x64_S131072x128_S131072x32_S131072x64_S131072x32_S131072x384_d1 R m).trans ?_
    rw [show row (val_main_v86 (F := Ideal) x0 x1 x4 x5 x6 x7) R = mlp2 x4 x5 x6 x7 (finger (row x0 R) (row x1 R)) from
        funext fun c => v86_apply x0 x1 x4 x5 x6 x7 R c,
      show row (val_main_v96 (F := Ideal) x0 x8 x9 x10 x11) R = mlp2 x8 x9 x10 x11 (wrist (row x0 R)) from
        funext fun c => v96_apply x0 x8 x9 x10 x11 R c,
      show row (val_main_v106 (F := Ideal) x0 x12 x13 x14 x15) R = mlp2 x12 x13 x14 x15 (arm (row x0 R)) from
        funext fun c => v106_apply x0 x12 x13 x14 x15 R c,
      show row (val_main_v116 (F := Ideal) x0 x16 x17 x18 x19) R = mlp2 x16 x17 x18 x19 (head (row x0 R)) from
        funext fun c => v116_apply x0 x16 x17 x18 x19 R c,
      show row (val_main_v126 (F := Ideal) x2 x20 x21 x22 x23) R = mlp2 x20 x21 x22 x23 (il (row x2 R)) from
        funext fun c => v126_apply x2 x20 x21 x22 x23 R c,
      show row (val_main_v136 (F := Ideal) x3 x24 x25 x26 x27) R = mlp2 x24 x25 x26 x27 (il (row x3 R)) from
        funext fun c => v136_apply x3 x24 x25 x26 x27 R c]
    rfl
  have hidden : row (val_main_v142 (F := Ideal) x0 x1 x2 x3 x4 x5 x6 x7 x8 x9 x10 x11 x12 x13 x14 x15 x16 x17 x18 x19 x20 x21 x22 x23 x24 x25 x26 x27 x28 x29) R
      = dense x28 x29 (fusedRow ⟨x4, x5, x6, x7, x8, x9, x10, x11, x12, x13, x14, x15, x16, x17, x18, x19, x20, x21, x22, x23, x24, x25, x26, x27, x28, x29, x30, x31, x32, x33⟩ (row x0 R) (row x1 R) (row x2 R) (row x3 R)) := by
    funext k
    refine (hdense_apply dot_S131072x384_S384x512_S131072x512_1_0_0_1_n_n rfl
      (val_main_v137 (F := Ideal) x0 x1 x2 x3 x4 x5 x6 x7 x8 x9 x10 x11 x12 x13 x14 x15 x16 x17 x18 x19 x20 x21 x22 x23 x24 x25 x26 x27) x28 x29 _ _ _ R k).trans ?_
    rw [fused]
  refine (hlin_apply dot_S131072x512_S512x512_S131072x512_1_0_0_1_n_n rfl
    (val_main_v142 (F := Ideal) x0 x1 x2 x3 x4 x5 x6 x7 x8 x9 x10 x11 x12 x13 x14 x15 x16 x17 x18 x19 x20 x21 x22 x23 x24 x25 x26 x27 x28 x29) x30 x31 _ _ R j).trans ?_
  rw [hidden]
  rfl

/-- THE REFERENCE: the result's entry `(R, j)` is the row map of row `R` of the sensor arrays. -/
theorem ref_apply (j : Fin 512) :
    val_main_v170 (F := Ideal) x0 x1 x2 x3 x4 x5 x6 x7 x8 x9 x10 x11 x12 x13 x14 x15 x16 x17 x18 x19 x20 x21 x22 x23 x24 x25 x26 x27 x28 x29 x30 x31 x32 x33 (ix2 R j)
      = outRow ⟨x4, x5, x6, x7, x8, x9, x10, x11, x12, x13, x14, x15, x16, x17, x18, x19, x20, x21, x22, x23, x24, x25, x26, x27, x28, x29, x30, x31, x32, x33⟩ (row x0 R) (row x1 R) (row x2 R) (row x3 R) j := by
  have shape : val_main_v170 (F := Ideal) x0 x1 x2 x3 x4 x5 x6 x7 x8 x9 x10 x11 x12 x13 x14 x15 x16 x17 x18 x19 x20 x21 x22 x23 x24 x25 x26 x27 x28 x29 x30 x31 x32 x33
      = hnorm (N := 131072) Gen.reducesTo_S131072x512_S131072_d1 Gen.h_S_ Gen.bcast_S131072_S131072x1_0 Gen.bcast_S_S131072x1
          Gen.bcast_S131072x1_S131072x512_0_1 Gen.bcast_S512_S1x512_1 Gen.bcast_S1x512_S131072x512_0_1
          (val_main_v146 (F := Ideal) x0 x1 x2 x3 x4 x5 x6 x7 x8 x9 x10 x11 x12 x13 x14 x15 x16 x17 x18 x19 x20 x21 x22 x23 x24 x25 x26 x27 x28 x29 x30 x31) x32 x33 := rfl
  rw [shape]
  refine (hnorm_apply _ _ _ _ _ (by decide) _ _ (val_main_v146 (F := Ideal) x0 x1 x2 x3 x4 x5 x6 x7 x8 x9 x10 x11 x12 x13 x14 x15 x16 x17 x18 x19 x20 x21 x22 x23 x24 x25 x26 x27 x28 x29 x30 x31) x32 x33 R j).trans ?_
  rw [show row (val_main_v146 (F := Ideal) x0 x1 x2 x3 x4 x5 x6 x7 x8 x9 x10 x11 x12 x13 x14 x15 x16 x17 x18 x19 x20 x21 x22 x23 x24 x25 x26 x27 x28 x29 x30 x31) R
      = preNorm ⟨x4, x5, x6, x7, x8, x9, x10, x11, x12, x13, x14, x15, x16, x17, x18, x19, x20, x21, x22, x23, x24, x25, x26, x27, x28, x29, x30, x31, x32, x33⟩ (row x0 R) (row x1 R) (row x2 R) (row x3 R) from
    funext fun k => v146_apply x0 x1 x2 x3 x4 x5 x6 x7 x8 x9 x10 x11 x12 x13 x14 x15 x16 x17 x18 x19 x20 x21 x22 x23 x24 x25 x26 x27 x28 x29 x30 x31 x32 x33 R k]
  rfl

end Cert.RRow

end
-- ==== Proof.lean ====
/-
  The certificate of the sensor encoder: the Pallas kernel (one call, 64 blocks of 2048 rows) against the jnp reference.

  Both programs map row `R` of the four sensor arrays and the shared weights to row `R` of the [131072, 512] result,
  and the rows do not interact: each reading is encoded as the pair (tanh, logistic of the logarithm of the shifted
  magnitude), six groups of encoded readings go through six two-layer perceptrons, the results side by side through
  a third, and the 512 entries are normalised (`RowSpec.outRow`). On the extended reals the two programs apply the
  SAME operations entry by entry — a change of float format is the identity, the kernel's logistic is the reference's
  `1 / (1 + exp (-x))`, a block product into zero is the host's contraction, a lane sum is the host's sum — and differ
  only in layout: the kernel interleaves the encoded pairs column by column where the reference reshapes
  [readings, 2] pairs, and the kernel works block by block. So no law of arithmetic is needed, only the reading of
  both programs at an entry:

  * `KRow.body_apply`: the kernel body's stored block at `(r, j)` is `outRow` of row `r` of the staged sensor blocks;
  * `KVal.final`: the 64 written blocks tile the result, which therefore ends at `outArr` of the argument arrays;
  * `RRow.ref_apply`: the reference's result at `(R, j)` is `outRow` of row `R` of the argument arrays.

  The three frames are the programs' runs with the values forgotten; the idealization changes no operation, so the
  `preserves` conjunct is `True`.
-/
import proofs.«147661_j65987877535816_1_alg».proof.Defs
import proofs.«147661_j65987877535816_1_alg».proof.Proof.Gen.Kernel
import proofs.«147661_j65987877535816_1_alg».proof.Proof.Gen.KernelIdeal
import proofs.«147661_j65987877535816_1_alg».proof.Proof.Gen.ReferenceIdeal
import proofs.«147661_j65987877535816_1_alg».proof.Proof.Gen.Pre_finite_inputs
import proofs.«147661_j65987877535816_1_alg».proof.Proof.KernelFrame
import proofs.«147661_j65987877535816_1_alg».proof.Proof.KernelIdealFrame
import proofs.«147661_j65987877535816_1_alg».proof.Proof.KernelIdealValue
import proofs.«147661_j65987877535816_1_alg».proof.Proof.Gen.ReferenceIdeal.Run
import proofs.«147661_j65987877535816_1_alg».proof.Proof.Gen.ReferenceIdeal.Read
import proofs.«147661_j65987877535816_1_alg».proof.Proof.KernelValue
import proofs.«147661_j65987877535816_1_alg».proof.Proof.RLayers
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.P.Gen.frame m ρ

theorem frame_ki : Cert.frame_KernelIdeal := fun m ρ _ => Cert.KernelIdeal.P.Gen.frame m ρ

/-- The reference's frame is its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both programs end with the result array at `outArr` of the arguments:
    the kernel by its blocks (`KVal.final`), the reference entry by entry (`RRow.ref_apply`). -/
theorem algebraic : Cert.algebraic_KernelIdeal_ReferenceIdeal := by
  intro m ρ m' ρ' _ hagree
  refine ⟨fun c => Cert.KVal.G m c, ?_, ?_⟩
  · exact (θ_run Cert.KernelIdeal.defs _ _).mono
      (fun r h c => ⟨(h c).1.trans (Cert.KVal.final m c), (h c).2⟩)
      (Cert.KernelIdeal.P.Value.run_blocks (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10, h11, h12, h13, h14, h15, h16, h17, h18, h19, h20, h21, h22, h23, h24, h25, h26, h27, h28, h29, h30, h31, h32, h33⟩ := hagree c
    rw [Cert.ReferenceIdeal.Read.val_main_v170_eq, h0, h1, h2, h3, h4, h5, h6, h7, h8, h9, h10, h11, h12, h13, h14, h15, h16, h17, h18, h19, h20, h21, h22, h23, h24, h25, h26, h27, h28, h29, h30, h31, h32, h33]
    funext y
    obtain ⟨R, j, rfl⟩ : ∃ (R : Fin 131072) (j : Fin 512), y = ix2 R j := ⟨y 0, y 1, eq_ix2 y⟩
    exact Cert.RRow.ref_apply _ _ _ _ _ _ _ _ _ _ _ _ _ _ _ _ _ _ _ _ _ _ _ _ _ _ _ _ _ _ _ _ _ _ R j

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
